-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S128x512 : Shape := ⟨2, ![128, 512]⟩
abbrev S512 : Shape := ⟨1, ![512]⟩
abbrev S4x512x512 : Shape := ⟨3, ![4, 512, 512]⟩
abbrev S4x512 : Shape := ⟨2, ![4, 512]⟩
abbrev S512x512 : Shape := ⟨2, ![512, 512]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S512x512 : S_.BroadcastsInDim S512x512 (![] : Fin 0 → Fin S512x512.rank)
  reducesTo_S512x512_S_d0_1 : S512x512.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 10000#32
  let main_v36 : IVec S2x160000 32 := broadcastInDim S2x160000 ![] bcast_S_S2x160000 main_c_13
  let main_v37 : IVec S2x160000 1 := cmpi .slt main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S4x512 .f32) (main_arg6 : FVec F S512x512 .f32) (main_arg7 : FVec F S512 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg5
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x160000 32) (main_arg2 : FVec F S128x512 .f32) (main_arg3 : FVec F S512 .f32) (main_arg4 : FVec F S4x512x512 .f32) (main_arg5 : FVec F S4x512 .f32) (main_arg6 : FVec F S512x512 .f32) (main_arg7 : FVec F S512 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x512x512 .f32 := Host.absf main_arg4
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg1 main_arg5 main_arg6 main_arg7 main_v13 main_v16
-- ==== Kernel.lean ====
abbrev S10000x128 : Shape := ⟨2, ![10000, 128]⟩
abbrev S2x160000 : Shape := ⟨2, ![2, 160000]⟩
abbrev S128x512 : Shape := ⟨2, ![128, 512]⟩
abbrev S512 : Shape := ⟨1, ![512]⟩
abbrev S4x512x512 : Shape := ⟨3, ![4, 512, 512]⟩
abbrev S4x512 : Shape := ⟨2, ![4, 512]⟩
abbrev S512x512 : Shape := ⟨2, ![512, 512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x10000 : Shape := ⟨2, ![10000, 10000]⟩
abbrev S170000x2 : Shape := ⟨2, ![170000, 2]⟩
abbrev S10000x512 : Shape := ⟨2, ![10000, 512]⟩
abbrev S400x128 : Shape := ⟨2, ![400, 128]⟩
abbrev S400x512 : Shape := ⟨2, ![400, 512]⟩
abbrev S1x512 : Shape := ⟨2, ![1, 512]⟩
abbrev S400x10000 : Shape := ⟨2, ![400, 10000]⟩
abbrev S1x512x512 : Shape := ⟨3, ![1, 512, 512]⟩

abbrev nBuf : Space → Nat
  | .hbm => 114
  | .vmem => 66
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S128x512, .f32⟩
  | .hbm, ⟨3, _⟩ => ⟨S512, .f32⟩
  | .hbm, ⟨4, _⟩ => ⟨S4x512x512, .f32⟩
  | .hbm, ⟨5, _⟩ => ⟨S4x512, .f32⟩
  | .hbm, ⟨6, _⟩ => ⟨S512x512, .f32⟩
  | .hbm, ⟨7, _⟩ => ⟨S512, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S170000, .f32⟩
  | .hbm, ⟨17, _⟩ => ⟨S_, .f32⟩
  | .hbm, ⟨18, _⟩ => ⟨S10000, .f32⟩
  | .hbm, ⟨19, _⟩ => ⟨S170000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S170000, .i32⟩
  | .hbm, ⟨34, _⟩ => ⟨S170000, .i1⟩
  | .hbm, ⟨35, _⟩ => ⟨S_, .i32⟩
  | .hbm, ⟨36, _⟩ => ⟨S170000, .i32⟩
  | .hbm, ⟨37, _⟩ => ⟨S170000, .i32⟩
  | .hbm, ⟨38, _⟩ => ⟨S170000, .i32⟩
  | .hbm, ⟨39, _⟩ => ⟨S170000x1, .i32⟩
  | .hbm, ⟨40, _⟩ => ⟨S170000, .f32⟩
  | .hbm, ⟨41, _⟩ => ⟨S_, .i32⟩
  | .hbm, ⟨42, _⟩ => ⟨S170000, .i32⟩
  | .hbm, ⟨43, _⟩ => ⟨S170000, .i1⟩
  | .hbm, ⟨44, _⟩ => ⟨S_, .i32⟩
  | .hbm, ⟨45, _⟩ => ⟨S170000, .i32⟩
  | .hbm, ⟨46, _⟩ => ⟨S170000, .i32⟩
  | .hbm, ⟨47, _⟩ => ⟨S170000, .i32⟩
  | .hbm, ⟨48, _⟩ => ⟨S170000x1, .i32⟩
  | .hbm, ⟨49, _⟩ => ⟨S170000, .f32⟩
  | .hbm, ⟨50, _⟩ => ⟨S170000, .f32⟩
  | .hbm, ⟨51, _⟩ => ⟨S_, .f32⟩
  | .hbm, ⟨52, _⟩ => ⟨S10000x10000, .f32⟩
  | .hbm, ⟨53, _⟩ => ⟨S_, .i32⟩
  | .hbm, ⟨54, _⟩ => ⟨S170000, .i32⟩
  | .hbm, ⟨55, _⟩ => ⟨S170000, .i1⟩
  | .hbm, ⟨56, _⟩ => ⟨S_, .i32⟩
  | .hbm, ⟨57, _⟩ => ⟨S170000, .i32⟩
  | .hbm, ⟨58, _⟩ => ⟨S170000, .i32⟩
  | .hbm, ⟨59, _⟩ => ⟨S170000, .i32⟩
  | .hbm, ⟨60, _⟩ => ⟨S_, .i32⟩
  | .hbm, ⟨61, _⟩ => ⟨S170000, .i32⟩
  | .hbm, ⟨62, _⟩ => ⟨S170000, .i1⟩
  | .hbm, ⟨63, _⟩ => ⟨S_, .i32⟩
  | .hbm, ⟨64, _⟩ => ⟨S170000, .i32⟩
  | .hbm, ⟨65, _⟩ => ⟨S170000, .i32⟩
  | .hbm, ⟨66, _⟩ => ⟨S170000, .i32⟩
  | .hbm, ⟨67, _⟩ => ⟨S170000x1, .i32⟩
  | .hbm, ⟨68, _⟩ => ⟨S170000x1, .i32⟩
  | .hbm, ⟨69, _⟩ => ⟨S170000x2, .i32⟩
  | .hbm, ⟨70, _⟩ => ⟨S10000x10000, .f32⟩
  | .hbm, ⟨71, _⟩ => ⟨S10000x10000, .bf16⟩
  | .hbm, ⟨72, _⟩ => ⟨S10000x128, .bf16⟩
  | .hbm, ⟨73, _⟩ => ⟨S128x512, .bf16⟩
  | .hbm, ⟨74, _⟩ => ⟨S10000x512, .bf16⟩
  | .hbm, ⟨75, _⟩ => ⟨S1x512, .f32⟩
  | .hbm, ⟨76, _⟩ => ⟨S10000x512, .bf16⟩
  | .hbm, ⟨77, _⟩ => ⟨S1x512x512, .f32⟩
  | .hbm, ⟨78, _⟩ => ⟨S512x512, .f32⟩
  | .hbm, ⟨79, _⟩ => ⟨S1x512, .f32⟩
  | .hbm, ⟨80, _⟩ => ⟨S512, .f32⟩
  | .hbm, ⟨81, _⟩ => ⟨S512x512, .bf16⟩
  | .hbm, ⟨82, _⟩ => ⟨S10000x512, .bf16⟩
  | .hbm, ⟨83, _⟩ => ⟨S1x512, .f32⟩
  | .hbm, ⟨84, _⟩ => ⟨S10000x512, .bf16⟩
  | .hbm, ⟨85, _⟩ => ⟨S1x512x512, .f32⟩
  | .hbm, ⟨86, _⟩ => ⟨S512x512, .f32⟩
  | .hbm, ⟨87, _⟩ => ⟨S1x512, .f32⟩
  | .hbm, ⟨88, _⟩ => ⟨S512, .f32⟩
  | .hbm, ⟨89, _⟩ => ⟨S512x512, .bf16⟩
  | .hbm, ⟨90, _⟩ => ⟨S10000x512, .bf16⟩
  | .hbm, ⟨91, _⟩ => ⟨S1x512, .f32⟩
  | .hbm, ⟨92, _⟩ => ⟨S10000x512, .bf16⟩
  | .hbm, ⟨93, _⟩ => ⟨S1x512x512, .f32⟩
  | .hbm, ⟨94, _⟩ => ⟨S512x512, .f32⟩
  | .hbm, ⟨95, _⟩ => ⟨S1x512, .f32⟩
  | .hbm, ⟨96, _⟩ => ⟨S512, .f32⟩
  | .hbm, ⟨97, _⟩ => ⟨S512x512, .bf16⟩
  | .hbm, ⟨98, _⟩ => ⟨S10000x512, .bf16⟩
  | .hbm, ⟨99, _⟩ => ⟨S1x512, .f32⟩
  | .hbm, ⟨100, _⟩ => ⟨S10000x512, .bf16⟩
  | .hbm, ⟨101, _⟩ => ⟨S1x512x512, .f32⟩
  | .hbm, ⟨102, _⟩ => ⟨S512x512, .f32⟩
  | .hbm, ⟨103, _⟩ => ⟨S1x512, .f32⟩
  | .hbm, ⟨104, _⟩ => ⟨S512, .f32⟩
  | .hbm, ⟨105, _⟩ => ⟨S512x512, .bf16⟩
  | .hbm, ⟨106, _⟩ => ⟨S10000x512, .bf16⟩
  | .hbm, ⟨107, _⟩ => ⟨S1x512, .f32⟩
  | .hbm, ⟨108, _⟩ => ⟨S10000x512, .bf16⟩
  | .hbm, ⟨109, _⟩ => ⟨S512x512, .bf16⟩
  | .hbm, ⟨110, _⟩ => ⟨S10000x512, .bf16⟩
  | .hbm, ⟨111, _⟩ => ⟨S1x512, .f32⟩
  | .hbm, ⟨112, _⟩ => ⟨S10000x512, .bf16⟩
  | .hbm, ⟨113, _⟩ => ⟨S10000x512, .f32⟩
  | .local _ .vmem, ⟨0, _⟩ => ⟨S400x128, .bf16⟩
  | .local _ .vmem, ⟨1, _⟩ => ⟨S400x128, .bf16⟩
  | .local _ .vmem, ⟨2, _⟩ => ⟨S128x512, .bf16⟩
  | .local _ .vmem, ⟨3, _⟩ => ⟨S400x512, .bf16⟩
  | .local _ .vmem, ⟨4, _⟩ => ⟨S400x512, .bf16⟩
  | .local _ .vmem, ⟨5, _⟩ => ⟨S400x10000, .bf16⟩
  | .local _ .vmem, ⟨6, _⟩ => ⟨S400x10000, .bf16⟩
  | .local _ .vmem, ⟨7, _⟩ => ⟨S10000x512, .bf16⟩
  | .local _ .vmem, ⟨8, _⟩ => ⟨S1x512, .f32⟩
  | .local _ .vmem, ⟨9, _⟩ => ⟨S400x512, .bf16⟩
  | .local _ .vmem, ⟨10, _⟩ => ⟨S400x512, .bf16⟩
  | .local _ .vmem, ⟨11, _⟩ => ⟨S400x512, .bf16⟩
  | .local _ .vmem, ⟨12, _⟩ => ⟨S400x512, .bf16⟩
  | .local _ .vmem, ⟨13, _⟩ => ⟨S512x512, .bf16⟩
  | .local _ .vmem, ⟨14, _⟩ => ⟨S400x512, .bf16⟩
  | .local _ .vmem, ⟨15, _⟩ => ⟨S400x512, .bf16⟩
  | .local _ .vmem, ⟨16, _⟩ => ⟨S400x10000, .bf16⟩
  | .local _ .vmem, ⟨17, _⟩ => ⟨S400x10000, .bf16⟩
  | .local _ .vmem, ⟨18, _⟩ => ⟨S10000x512, .bf16⟩
  | .local _ .vmem, ⟨19, _⟩ => ⟨S1x512, .f32⟩
  | .local _ .vmem, ⟨20, _⟩ => ⟨S400x512, .bf16⟩
  | .local _ .vmem, ⟨21, _⟩ => ⟨S400x512, .bf16⟩
  | .local _ .vmem, ⟨22, _⟩ => ⟨S400x512, .bf16⟩
  | .local _ .vmem, ⟨23, _⟩ => ⟨S400x512, .bf16⟩
  | .local _ .vmem, ⟨24, _⟩ => ⟨S512x512, .bf16⟩
  | .local _ .vmem, ⟨25, _⟩ => ⟨S400x512, .bf16⟩
  | .local _ .vmem, ⟨26, _⟩ => ⟨S400x512, .bf16⟩
  | .local _ .vmem, ⟨27, _⟩ => ⟨S400x10000, .bf16⟩
  | .local _ .vmem, ⟨28, _⟩ => ⟨S400x10000, .bf16⟩
  | .local _ .vmem, ⟨29, _⟩ => ⟨S10000x512, .bf16⟩
  | .local _ .vmem, ⟨30, _⟩ => ⟨S1x512, .f32⟩
  | .local _ .vmem, ⟨31, _⟩ => ⟨S400x512, .bf16⟩
  | .local _ .vmem, ⟨32, _⟩ => ⟨S400x512, .bf16⟩
  | .local _ .vmem, ⟨33, _⟩ => ⟨S400x512, .bf16⟩
  | .local _ .vmem, ⟨34, _⟩ => ⟨S400x512, .bf16⟩
  | .local _ .vmem, ⟨35, _⟩ => ⟨S512x512, .bf16⟩
  | .local _ .vmem, ⟨36, _⟩ => ⟨S400x512, .bf16⟩
  | .local _ .vmem, ⟨37, _⟩ => ⟨S400x512, .bf16⟩
  | .local _ .vmem, ⟨38, _⟩ => ⟨S400x10000, .bf16⟩
  | .local _ .vmem, ⟨39, _⟩ => ⟨S400x10000, .bf16⟩
  | .local _ .vmem, ⟨40, _⟩ => ⟨S10000x512, .bf16⟩
  | .local _ .vmem, ⟨41, _⟩ => ⟨S1x512, .f32⟩
  | .local _ .vmem, ⟨42, _⟩ => ⟨S400x512, .bf16⟩
  | .local _ .vmem, ⟨43, _⟩ => ⟨S400x512, .bf16⟩
  | .local _ .vmem, ⟨44, _⟩ => ⟨S400x512, .bf16⟩
  | .local _ .vmem, ⟨45, _⟩ => ⟨S400x512, .bf16⟩
  | .local _ .vmem, ⟨46, _⟩ => ⟨S512x512, .bf16⟩
  | .local _ .vmem, ⟨47, _⟩ => ⟨S400x512, .bf16⟩
  | .local _ .vmem, ⟨48, _⟩ => ⟨S400x512, .bf16⟩
  | .local _ .vmem, ⟨49, _⟩ => ⟨S400x10000, .bf16⟩
  | .local _ .vmem, ⟨50, _⟩ => ⟨S400x10000, .bf16⟩
  | .local _ .vmem, ⟨51, _⟩ => ⟨S10000x512, .bf16⟩
  | .local _ .vmem, ⟨52, _⟩ => ⟨S1x512, .f32⟩
  | .local _ .vmem, ⟨53, _⟩ => ⟨S400x512, .bf16⟩
  | .local _ .vmem, ⟨54, _⟩ => ⟨S400x512, .bf16⟩
  | .local _ .vmem, ⟨55, _⟩ => ⟨S400x512, .bf16⟩
  | .local _ .vmem, ⟨56, _⟩ => ⟨S400x512, .bf16⟩
  | .local _ .vmem, ⟨57, _⟩ => ⟨S512x512, .bf16⟩
  | .local _ .vmem, ⟨58, _⟩ => ⟨S400x512, .bf16⟩
  | .local _ .vmem, ⟨59, _⟩ => ⟨S400x512, .bf16⟩
  | .local _ .vmem, ⟨60, _⟩ => ⟨S400x10000, .bf16⟩
  | .local _ .vmem, ⟨61, _⟩ => ⟨S400x10000, .bf16⟩
  | .local _ .vmem, ⟨62, _⟩ => ⟨S10000x512, .bf16⟩
  | .local _ .vmem, ⟨63, _⟩ => ⟨S1x512, .f32⟩
  | .local _ .vmem, ⟨64, _⟩ => ⟨S400x512, .bf16⟩
  | .local _ .vmem, ⟨65, _⟩ => ⟨S400x512, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg3_0 : Ref sig .tc := ⟨.vmem, 53, rfl⟩
abbrev cc9_stg3_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg2_0 : Ref sig .tc := ⟨.vmem, 58, rfl⟩
abbrev cc10_stg2_1 : Ref sig .tc := ⟨.vmem, 59, rfl⟩
abbrev cc11_stg0_0 : Ref sig .tc := ⟨.vmem, 60, rfl⟩
abbrev cc11_stg0_1 : Ref sig .tc := ⟨.vmem, 61, rfl⟩
abbrev cc11_stg1_0 : Ref sig .tc := ⟨.vmem, 62, rfl⟩
abbrev cc11_stg2_0 : Ref sig .tc := ⟨.vmem, 63, rfl⟩
abbrev cc11_stg3_0 : Ref sig .tc := ⟨.vmem, 64, rfl⟩
abbrev cc11_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem3_0 : DmaSem sig := 53
abbrev cc9_sem3_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem3_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S400x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x10000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S10000x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S400x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S400x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S400x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S400x10000 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S10000x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S400x512 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10000x10000 : S_.BroadcastsInDim S10000x10000 (![] : Fin 0 → Fin S10000x10000.rank)
  concatenates_S170000x1_S170000x1_S170000x2_d1 : Shape.Concatenates [S170000x1, S170000x1] S170000x2 1
  bitsLt_bf16_f32 : FTy.bits .bf16 < FTy.bits .f32
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S400x512_S400x512_0_0 : ∀ a, (![0, 0] : Fin 2 → Nat) a + S400x512.size a ≤ S400x512.size a
  h_S400x512 : 0 < S400x512.numel
  packedbf16_S400x512_S400x512_0_0 : (Rect.unit (s := S400x512) ![0, 0] S400x512.size inb_S400x512_S400x512_0_0).PackedRows (EltTy.packing .bf16)
  shapeCasts_S512_S1x512 : S512.ShapeCasts S1x512
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  shapeCasts_S400x512_S400x512 : S400x512.ShapeCasts S400x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10000x10000_S170000x2_S170000_n_01_01_1_wf : ScatterDims.WF S10000x10000 S170000x2 S170000 [] [0, 1] [0, 1] 1
  dot_S400x128_S128x512_S400x512_1_0_0_1_n_n_wf : DotDims.WF S400x128 S128x512 S400x512 [1] [0] [0] [1] [] []
  dot_S400x10000_S10000x512_S400x512_1_0_0_1_n_n_wf : DotDims.WF S400x10000 S10000x512 S400x512 [1] [0] [0] [1] [] []
  dot_S400x512_S512x512_S400x512_1_0_0_1_n_n_wf : DotDims.WF S400x512 S512x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .bf16 = 32 ∨ (Rect.block (s := S10000x128) S400x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .bf16 = 32 ∨ (Rect.block (s := S10000x512) S400x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x512.size a ≤ S10000x512.size a
  hwx1_3 : ∀ i : grid1.Coords, EltTy.bits .bf16 = 32 ∨ (Rect.block (s := S10000x512) S400x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x512.size a ≤ S10000x512.size a
  hwx2_0 : ∀ i : grid2.Coords, EltTy.bits .bf16 = 32 ∨ (Rect.block (s := S10000x512) S400x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x512.size a ≤ S10000x512.size a
  hwx2_2 : ∀ i : grid2.Coords, EltTy.bits .bf16 = 32 ∨ (Rect.block (s := S10000x512) S400x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x512.size a ≤ S10000x512.size a
  hwx3_1 : ∀ i : grid3.Coords, EltTy.bits .bf16 = 32 ∨ (Rect.block (s := S10000x512) S10000x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x512.size a ≤ S10000x512.size a
  hwx3_3 : ∀ i : grid3.Coords, EltTy.bits .bf16 = 32 ∨ (Rect.block (s := S10000x512) S400x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x512.size a ≤ S10000x512.size a
  hwx4_0 : ∀ i : grid4.Coords, EltTy.bits .bf16 = 32 ∨ (Rect.block (s := S10000x512) S400x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x512.size a ≤ S10000x512.size a
  hwx4_2 : ∀ i : grid4.Coords, EltTy.bits .bf16 = 32 ∨ (Rect.block (s := S10000x512) S400x512.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x512.size a ≤ S10000x512.size a
  hwx5_1 : ∀ i : grid5.Coords, EltTy.bits .bf16 = 32 ∨ (Rect.block (s := S10000x512) S10000x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x512.size a ≤ S10000x512.size a
  hwx5_3 : ∀ i : grid5.Coords, EltTy.bits .bf16 = 32 ∨ (Rect.block (s := S10000x512) S400x512.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x512.size a ≤ S10000x512.size a
  hwx6_0 : ∀ i : grid6.Coords, EltTy.bits .bf16 = 32 ∨ (Rect.block (s := S10000x512) S400x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .bf16 = 32 ∨ (Rect.block (s := S512x512) S512x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x512.size a ≤ S10000x512.size a
  hwx6_2 : ∀ i : grid6.Coords, EltTy.bits .bf16 = 32 ∨ (Rect.block (s := S10000x512) S400x512.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x512.size a ≤ S10000x512.size a
  hwx7_1 : ∀ i : grid7.Coords, EltTy.bits .bf16 = 32 ∨ (Rect.block (s := S10000x512) S10000x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S400x512.size a ≤ S10000x512.size a
  hwx7_3 : ∀ i : grid7.Coords, EltTy.bits .bf16 = 32 ∨ (Rect.block (s := S10000x512) S400x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x512.size a ≤ S10000x512.size a
  hwx8_0 : ∀ i : grid8.Coords, EltTy.bits .bf16 = 32 ∨ (Rect.block (s := S10000x512) S400x512.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .bf16 = 32 ∨ (Rect.block (s := S512x512) S512x512.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x512.size a ≤ S10000x512.size a
  hwx8_2 : ∀ i : grid8.Coords, EltTy.bits .bf16 = 32 ∨ (Rect.block (s := S10000x512) S400x512.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x10000.size a ≤ S10000x10000.size a
  hwx9_0 : ∀ i : grid9.Coords, EltTy.bits .bf16 = 32 ∨ (Rect.block (s := S10000x10000) S400x10000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10000x512.size a ≤ S10000x512.size a
  hwx9_1 : ∀ i : grid9.Coords, EltTy.bits .bf16 = 32 ∨ (Rect.block (s := S10000x512) S10000x512.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S400x512.size a ≤ S10000x512.size a
  hwx9_3 : ∀ i : grid9.Coords, EltTy.bits .bf16 = 32 ∨ (Rect.block (s := S10000x512) S400x512.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S400x512.size a ≤ S10000x512.size a
  hwx10_0 : ∀ i : grid10.Coords, EltTy.bits .bf16 = 32 ∨ (Rect.block (s := S10000x512) S400x512.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x512.size a ≤ S512x512.size a
  hwx10_1 : ∀ i : grid10.Coords, EltTy.bits .bf16 = 32 ∨ (Rect.block (s := S512x512) S512x512.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S400x512.size a ≤ S10000x512.size a
  hwx10_2 : ∀ i : grid10.Coords, EltTy.bits .bf16 = 32 ∨ (Rect.block (s := S10000x512) S400x512.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S400x10000.size a ≤ S10000x10000.size a
  hwx11_0 : ∀ i : grid11.Coords, EltTy.bits .bf16 = 32 ∨ (Rect.block (s := S10000x10000) S400x10000.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10000x512.size a ≤ S10000x512.size a
  hwx11_1 : ∀ i : grid11.Coords, EltTy.bits .bf16 = 32 ∨ (Rect.block (s := S10000x512) S10000x512.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x512.size a
  hwx11_2 : ∀ i : grid11.Coords, EltTy.bits .f32 = 32 ∨ (Rect.block (s := S1x512) S1x512.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S400x512.size a ≤ S10000x512.size a
  hwx11_3 : ∀ i : grid11.Coords, EltTy.bits .bf16 = 32 ∨ (Rect.block (s := S10000x512) S400x512.size (cc11_transform_3 i) (hinb11_3 i)).WholeWords (EltTy.packing .bf16)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10000x10000_S170000x2_S170000_n_01_01_1 : ScatterDims S10000x10000 S170000x2 S170000 where
  updateWindowDims := []
  insertedWindowDims := [0, 1]
  scatterDimsToOperandDims := [0, 1]
  indexVectorDim := 1
  wf := scatter_S10000x10000_S170000x2_S170000_n_01_01_1_wf
def dot_S400x128_S128x512_S400x512_1_0_0_1_n_n : DotDims S400x128 S128x512 S400x512 where
  lhsContracting := [1]
  rhsContracting := [0]
  lhsNonContracting := [0]
  rhsNonContracting := [1]
  lhsBatch := []
  rhsBatch := []
  wf := dot_S400x128_S128x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf

abbrev win0_0 : Pipeline.Window sig grid0 :=
  Pipeline.Window.ofSpec (Memref.whole main_v48) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S400x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S400x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S400x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S10000x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S400x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S400x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S400x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S10000x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S400x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v68) S400x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S400x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v47) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S10000x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v75) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v76) S400x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v76) S400x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v81) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v82) S400x512.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v47) S400x10000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v82) S10000x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v83) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v84) S400x512.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v84) S400x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v85) S512x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v86) S400x512.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v47) S400x10000.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v86) S10000x512.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v87) S1x512.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v88) S400x512.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S128x512 : Shape := ⟨2, ![128, 512]⟩
abbrev S512 : Shape := ⟨1, ![512]⟩
abbrev S4x512x512 : Shape := ⟨3, ![4, 512, 512]⟩
abbrev S4x512 : Shape := ⟨2, ![4, 512]⟩
abbrev S512x512 : Shape := ⟨2, ![512, 512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x512 : Shape := ⟨2, ![10000, 512]⟩
abbrev S170000x512 : Shape := ⟨2, ![170000, 512]⟩
abbrev S1x512 : Shape := ⟨2, ![1, 512]⟩
abbrev S1x512x512 : Shape := ⟨3, ![1, 512, 512]⟩

abbrev nBuf : Space → Nat
  | .hbm => 205
  | .vmem => 0
  | .smem => 0
  | _ => 0

abbrev hbmTy0_0 (i : Nat) : BufTy := match i % 128 with
  | 0 => ⟨S10000x128, .f32⟩
  | 1 => ⟨S2x160000, .i32⟩
  | 2 => ⟨S128x512, .f32⟩
  | 3 => ⟨S512, .f32⟩
  | 4 => ⟨S4x512x512, .f32⟩
  | 5 => ⟨S4x512, .f32⟩
  | 6 => ⟨S512x512, .f32⟩
  | 7 => ⟨S512, .f32⟩
  | 8 => ⟨S10000, .i32⟩
  | 9 => ⟨S1x160000, .i32⟩
  | 10 => ⟨S160000, .i32⟩
  | 11 => ⟨S170000, .i32⟩
  | 12 => ⟨S1x160000, .i32⟩
  | 13 => ⟨S160000, .i32⟩
  | 14 => ⟨S170000, .i32⟩
  | 15 => ⟨S_, .f32⟩
  | 16 => ⟨S170000, .f32⟩
  | 17 => ⟨S_, .f32⟩
  | 18 => ⟨S10000, .f32⟩
  | 19 => ⟨S170000x1, .i32⟩
  | 20 => ⟨S10000, .f32⟩
  | 21 => ⟨S_, .f32⟩
  | 22 => ⟨S10000, .f32⟩
  | 23 => ⟨S10000, .i1⟩
  | 24 => ⟨S_, .f32⟩
  | 25 => ⟨S10000, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S10000x512, .f32⟩
  | 52 => ⟨S_, .i32⟩
  | 53 => ⟨S170000, .i32⟩
  | 54 => ⟨S170000, .i1⟩
  | 55 => ⟨S_, .i32⟩
  | 56 => ⟨S170000, .i32⟩
  | 57 => ⟨S170000, .i32⟩
  | 58 => ⟨S170000, .i32⟩
  | 59 => ⟨S170000x1, .i32⟩
  | 60 => ⟨S170000x512, .f32⟩
  | 61 => ⟨S170000x1, .f32⟩
  | 62 => ⟨S170000x512, .f32⟩
  | 63 => ⟨S170000x512, .f32⟩
  | 64 => ⟨S_, .f32⟩
  | 65 => ⟨S10000x512, .f32⟩
  | 66 => ⟨S170000x1, .i32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S1x512x512, .f32⟩
  | 75 => ⟨S512x512, .f32⟩
  | 76 => ⟨S1x512, .f32⟩
  | 77 => ⟨S512, .f32⟩
  | 78 => ⟨S10000x512, .f32⟩
  | 79 => ⟨S_, .i32⟩
  | 80 => ⟨S170000, .i32⟩
  | 81 => ⟨S170000, .i1⟩
  | 82 => ⟨S_, .i32⟩
  | 83 => ⟨S170000, .i32⟩
  | 84 => ⟨S170000, .i32⟩
  | 85 => ⟨S170000, .i32⟩
  | 86 => ⟨S170000x1, .i32⟩
  | 87 => ⟨S170000x512, .f32⟩
  | 88 => ⟨S170000x1, .f32⟩
  | 89 => ⟨S170000x512, .f32⟩
  | 90 => ⟨S170000x512, .f32⟩
  | 91 => ⟨S_, .f32⟩
  | 92 => ⟨S10000x512, .f32⟩
  | 93 => ⟨S170000x1, .i32⟩
  | 94 => ⟨S10000x512, .f32⟩
  | 95 => ⟨S1x512, .f32⟩
  | 96 => ⟨S10000x512, .f32⟩
  | 97 => ⟨S10000x512, .f32⟩
  | 98 => ⟨S_, .f32⟩
  | 99 => ⟨S10000x512, .f32⟩
  | 100 => ⟨S10000x512, .f32⟩
  | 101 => ⟨S1x512x512, .f32⟩
  | 102 => ⟨S512x512, .f32⟩
  | 103 => ⟨S1x512, .f32⟩
  | 104 => ⟨S512, .f32⟩
  | 105 => ⟨S10000x512, .f32⟩
  | 106 => ⟨S_, .i32⟩
  | 107 => ⟨S170000, .i32⟩
  | 108 => ⟨S170000, .i1⟩
  | 109 => ⟨S_, .i32⟩
  | 110 => ⟨S170000, .i32⟩
  | 111 => ⟨S170000, .i32⟩
  | 112 => ⟨S170000, .i32⟩
  | 113 => ⟨S170000x1, .i32⟩
  | 114 => ⟨S170000x512, .f32⟩
  | 115 => ⟨S170000x1, .f32⟩
  | 116 => ⟨S170000x512, .f32⟩
  | 117 => ⟨S170000x512, .f32⟩
  | 118 => ⟨S_, .f32⟩
  | 119 => ⟨S10000x512, .f32⟩
  | 120 => ⟨S170000x1, .i32⟩
  | 121 => ⟨S10000x512, .f32⟩
  | 122 => ⟨S1x512, .f32⟩
  | 123 => ⟨S10000x512, .f32⟩
  | 124 => ⟨S10000x512, .f32⟩
  | 125 => ⟨S_, .f32⟩
  | 126 => ⟨S10000x512, .f32⟩
  | 127 => ⟨S10000x512, .f32⟩
  | _ => ⟨S10000x128, .f32⟩

abbrev hbmTy0_1 (i : Nat) : BufTy := match i % 128 with
  | 0 => ⟨S1x512x512, .f32⟩
  | 1 => ⟨S512x512, .f32⟩
  | 2 => ⟨S1x512, .f32⟩
  | 3 => ⟨S512, .f32⟩
  | 4 => ⟨S10000x512, .f32⟩
  | 5 => ⟨S_, .i32⟩
  | 6 => ⟨S170000, .i32⟩
  | 7 => ⟨S170000, .i1⟩
  | 8 => ⟨S_, .i32⟩
  | 9 => ⟨S170000, .i32⟩
  | 10 => ⟨S170000, .i32⟩
  | 11 => ⟨S170000, .i32⟩
  | 12 => ⟨S170000x1, .i32⟩
  | 13 => ⟨S170000x512, .f32⟩
  | 14 => ⟨S170000x1, .f32⟩
  | 15 => ⟨S170000x512, .f32⟩
  | 16 => ⟨S170000x512, .f32⟩
  | 17 => ⟨S_, .f32⟩
  | 18 => ⟨S10000x512, .f32⟩
  | 19 => ⟨S170000x1, .i32⟩
  | 20 => ⟨S10000x512, .f32⟩
  | 21 => ⟨S1x512, .f32⟩
  | 22 => ⟨S10000x512, .f32⟩
  | 23 => ⟨S10000x512, .f32⟩
  | 24 => ⟨S_, .f32⟩
  | 25 => ⟨S10000x512, .f32⟩
  | 26 => ⟨S10000x512, .f32⟩
  | 27 => ⟨S1x512x512, .f32⟩
  | 28 => ⟨S512x512, .f32⟩
  | 29 => ⟨S1x512, .f32⟩
  | 30 => ⟨S512, .f32⟩
  | 31 => ⟨S10000x512, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000x512, .f32⟩
  | 41 => ⟨S170000x1, .f32⟩
  | 42 => ⟨S170000x512, .f32⟩
  | 43 => ⟨S170000x512, .f32⟩
  | 44 => ⟨S_, .f32⟩
  | 45 => ⟨S10000x512, .f32⟩
  | 46 => ⟨S170000x1, .i32⟩
  | 47 => ⟨S10000x512, .f32⟩
  | 48 => ⟨S1x512, .f32⟩
  | 49 => ⟨S10000x512, .f32⟩
  | 50 => ⟨S10000x512, .f32⟩
  | 51 => ⟨S_, .f32⟩
  | 52 => ⟨S10000x512, .f32⟩
  | 53 => ⟨S10000x512, .f32⟩
  | 54 => ⟨S10000x512, .f32⟩
  | 55 => ⟨S_, .i32⟩
  | 56 => ⟨S170000, .i32⟩
  | 57 => ⟨S170000, .i1⟩
  | 58 => ⟨S_, .i32⟩
  | 59 => ⟨S170000, .i32⟩
  | 60 => ⟨S170000, .i32⟩
  | 61 => ⟨S170000, .i32⟩
  | 62 => ⟨S170000x1, .i32⟩
  | 63 => ⟨S170000x512, .f32⟩
  | 64 => ⟨S170000x1, .f32⟩
  | 65 => ⟨S170000x512, .f32⟩
  | 66 => ⟨S170000x512, .f32⟩
  | 67 => ⟨S_, .f32⟩
  | 68 => ⟨S10000x512, .f32⟩
  | 69 => ⟨S170000x1, .i32⟩
  | 70 => ⟨S10000x512, .f32⟩
  | 71 => ⟨S1x512, .f32⟩
  | 72 => ⟨S10000x512, .f32⟩
  | 73 => ⟨S10000x512, .f32⟩
  | 74 => ⟨S_, .f32⟩
  | 75 => ⟨S10000x512, .f32⟩
  | 76 => ⟨S10000x512, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_cst : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call3_cst : Ref sig .tc := ⟨.hbm, 125, rfl⟩
abbrev main_call3_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_16 : Ref sig .tc := ⟨.hbm, 133, rfl⟩
abbrev main_v99 : Ref sig .tc := ⟨.hbm, 134, rfl⟩
abbrev main_v100 : Ref sig .tc := ⟨.hbm, 135, rfl⟩
abbrev main_c_17 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_18 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call4_cst : Ref sig .tc := ⟨.hbm, 152, rfl⟩
abbrev main_call4_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_19 : Ref sig .tc := ⟨.hbm, 160, rfl⟩
abbrev main_v121 : Ref sig .tc := ⟨.hbm, 161, rfl⟩
abbrev main_v122 : Ref sig .tc := ⟨.hbm, 162, rfl⟩
abbrev main_c_20 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_21 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_call5_cst : Ref sig .tc := ⟨.hbm, 179, rfl⟩
abbrev main_call5_v0 : Ref sig .tc := ⟨.hbm, 180, rfl⟩
abbrev main_v137 : Ref sig .tc := ⟨.hbm, 181, rfl⟩
abbrev main_v138 : Ref sig .tc := ⟨.hbm, 182, rfl⟩
abbrev main_c_22 : Ref sig .tc := ⟨.hbm, 183, rfl⟩
abbrev main_v139 : Ref sig .tc := ⟨.hbm, 184, rfl⟩
abbrev main_v140 : Ref sig .tc := ⟨.hbm, 185, rfl⟩
abbrev main_c_23 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_24 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_call6_cst : Ref sig .tc := ⟨.hbm, 202, rfl⟩
abbrev main_call6_v0 : Ref sig .tc := ⟨.hbm, 203, rfl⟩
abbrev main_v155 : Ref sig .tc := ⟨.hbm, 204, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x128_S128x512_S10000x512_1_0_0_1_n_n_wf : DotDims.WF S10000x128 S128x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x512_S10000x512_1_0_0_1_n_n_wf : DotDims.WF S10000x512 S512x512 S10000x512 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Spec.lean ====
/-
  The mathematics both programs are compared against, at the ideal instance (entries are extended reals).
  A graph-convolution layer takes node features X, multiplies by a weight matrix W, aggregates over the
  edges of the graph with a weight w(e) per edge, adds a bias and clamps below at zero.
  It is written here twice:
  * `aggRelu (adj dst src w) (mm X W) b`: through the dense n x n matrix `adj` whose entry (d, s) is the sum
    of the weights of the edges from s to d, then one matrix product;
  * `segRelu dst src w (mm X W) b`: edge by edge, row d receiving w(e) times row src(e) for every edge e
    with dst(e) = d.
  The two agree when the features and the edge weights are real numbers (the law is distributivity of the
  product over the finite sum of the edge weights, which the extended reals only have away from the
  infinities); that is proved in Algebra.lean.
-/
import Idealize.ShloMosaic.PureOps.Ideal
import Idealize.ShloMosaic.Lib.ValueIdx

noncomputable section

open Idealize.ShloMosaic Idealize.ShloMosaic.ValueIdx

namespace Cert.Gcn

/-- An a x b matrix of extended reals, indexed as the printed programs index a rank-2 array. -/
abbrev Mat (a b : Nat) : Type := (⟨2, ![a, b]⟩ : Shape).Idx → EReal

/-- The row coordinate of a matrix index, as a number below the row count. -/
abbrev row {a b : Nat} (i : (⟨2, ![a, b]⟩ : Shape).Idx) : Fin a := i 0
/-- The column coordinate of a matrix index, as a number below the column count. -/
abbrev col {a b : Nat} (i : (⟨2, ![a, b]⟩ : Shape).Idx) : Fin b := i 1

/-- Every entry is a real number (neither infinity). -/
def IsReal {α : Type} (f : α → EReal) : Prop := ∀ a, ∃ r : ℝ, f a = (r : EReal)

/-- The matrix product: entry (p, q) is the sum over k of X(p, k) * W(k, q). -/
def mm {M K N : Nat} (X : Mat M K) (W : Mat K N) : Mat M N :=
  fun i => ∑ k : Fin K, X (ix2 (row i) k) * W (ix2 k (col i))

/-- Dense aggregation: (A * H)(p, q) + b(q), clamped below at zero. -/
def aggRelu {M S N : Nat} (A : Mat M S) (H : Mat S N) (b : Fin N → EReal) : Mat M N :=
  fun i => max (mm A H i + b (col i)) 0

variable {ι : Type} [Fintype ι]

/-- The dense adjacency matrix of an edge list: entry (d, s) is zero plus the sum of w(e) over the edges e
    with dst(e) = d and src(e) = s. -/
def adj {n : Nat} (dst src : ι → Fin n) (w : ι → EReal) : Mat n n :=
  fun i => 0 + ∑ e ∈ Finset.univ.filter (fun e => dst e = row i ∧ src e = col i), w e

/-- Edge-by-edge aggregation: row d is zero plus the sum over the edges e with dst(e) = d of
    H(src(e), q) * w(e); then the bias, clamped below at zero. -/
def segRelu {n N : Nat} (dst src : ι → Fin n) (w : ι → EReal) (H : Mat n N) (b : Fin N → EReal) : Mat n N :=
  fun i => max ((0 + ∑ e ∈ Finset.univ.filter (fun e => dst e = row i), H (ix2 (src e) (col i)) * w e) + b (col i)) 0

/-- Slice l of a stack of four 512 x 512 weight matrices. -/
def wsl (Wm : (⟨3, ![4, 512, 512]⟩ : Shape).Idx → EReal) (l : Fin 4) : Mat 512 512 :=
  fun i => Wm (ix3 l (row i) (col i))

/-- Row l of a stack of four bias vectors. -/
def bsl (bm : Mat 4 512) (l : Fin 4) : Fin 512 → EReal := fun j => bm (ix2 l j)

/-- A rank-1 array of 512 entries as a function of its one coordinate. -/
def vec1 (b : (⟨1, ![512]⟩ : Shape).Idx → EReal) : Fin 512 → EReal := fun j => b (ix1 j)

/-- One layer through the dense matrix. -/
def layerK {n K N : Nat} (A : Mat n n) (X : Mat n K) (W : Mat K N) (b : Fin N → EReal) : Mat n N :=
  aggRelu A (mm X W) b

/-- One layer edge by edge. -/
def layerR {n K N : Nat} (dst src : ι → Fin n) (w : ι → EReal) (X : Mat n K) (W : Mat K N) (b : Fin N → EReal) : Mat n N :=
  segRelu dst src w (mm X W) b

/-- The six layers through the dense matrix A. -/
def gcnK (A : Mat 10000 10000) (X0 : Mat 10000 128) (W1 : Mat 128 512) (b1 : (⟨1, ![512]⟩ : Shape).Idx → EReal)
    (Wm : (⟨3, ![4, 512, 512]⟩ : Shape).Idx → EReal) (bm : Mat 4 512) (Wl : Mat 512 512)
    (bl : (⟨1, ![512]⟩ : Shape).Idx → EReal) : Mat 10000 512 :=
  layerK A (layerK A (layerK A (layerK A (layerK A (layerK A X0 W1 (vec1 b1)) (wsl Wm 0) (bsl bm 0)) (wsl Wm 1) (bsl bm 1))
    (wsl Wm 2) (bsl bm 2)) (wsl Wm 3) (bsl bm 3)) Wl (vec1 bl)

/-- The six layers edge by edge. -/
def gcnR (dst src : ι → Fin 10000) (w : ι → EReal) (X0 : Mat 10000 128) (W1 : Mat 128 512)
    (b1 : (⟨1, ![512]⟩ : Shape).Idx → EReal) (Wm : (⟨3, ![4, 512, 512]⟩ : Shape).Idx → EReal) (bm : Mat 4 512)
    (Wl : Mat 512 512) (bl : (⟨1, ![512]⟩ : Shape).Idx → EReal) : Mat 10000 512 :=
  layerR dst src w (layerR dst src w (layerR dst src w (layerR dst src w (layerR dst src w (layerR dst src w X0 W1 (vec1 b1))
    (wsl Wm 0) (bsl bm 0)) (wsl Wm 1) (bsl bm 1)) (wsl Wm 2) (bsl bm 2)) (wsl Wm 3) (bsl bm 3)) Wl (vec1 bl)

end Cert.Gcn

end
-- ==== Proof.Algebra.lean ====
/-
  The algebra behind the comparison of the two ways of writing a graph-convolution layer.

  Over real entries the dense aggregation (through the n x n adjacency matrix) and the edge-by-edge
  aggregation agree: the product distributes over the finite sum of the edge weights, and the double sum
  over (source node, edge from that source) is the single sum over the edges. The extended reals distribute
  only away from the infinities, so every step is made on real witnesses and carried back by the coercion.
-/
import proofs.«147721_j75531294868021_1_alg».proof.Proof.Spec
import Mathlib.Data.EReal.Basic
import Mathlib.Data.EReal.Operations
import Mathlib.Algebra.BigOperators.Group.Finset.Basic
import Mathlib.Algebra.BigOperators.Ring.Finset

noncomputable section

open Idealize.ShloMosaic Idealize.ShloMosaic.ValueIdx
open Finset BigOperators

namespace Cert.Gcn

variable {ι : Type} [Fintype ι]

/-! ### Real-valued extended reals are closed under the field operations and the maximum -/

/-- A finite sum of coerced reals is the coercion of the real sum. -/
theorem sum_coe {κ : Type} (s : Finset κ) (f : κ → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The row coordinate of the index built from (p, q) is p. -/
theorem row_ix2 {a b : Nat} (p : Fin a) (q : Fin b) : row (ix2 p q) = p := rfl
/-- The column coordinate of the index built from (p, q) is q. -/
theorem col_ix2 {a b : Nat} (p : Fin a) (q : Fin b) : col (ix2 p q) = q := rfl

/-- The matrix product of two real matrices is real. -/
theorem mm_isReal {M K N : Nat} {X : Mat M K} {W : Mat K N} (hX : IsReal X) (hW : IsReal W) :
    IsReal (mm X W) := by
  intro i
  choose x hx using hX
  choose y hy using hW
  refine ⟨∑ k : Fin K, x (ix2 (row i) k) * y (ix2 k (col i)), ?_⟩
  rw [← sum_coe]
  refine Finset.sum_congr rfl fun k _ => ?_
  rw [hx, hy, EReal.coe_mul]

/-- The law over the reals: the product distributes over the sum of the edge weights, and the double sum
    over (source node k, edges from k into d) is the single sum over the edges into d. -/
theorem real_law {n : Nat} (dst src : ι → Fin n) (ω : ι → ℝ) (g : Fin n → ℝ) (d : Fin n) :
    ∑ k : Fin n, (∑ e ∈ Finset.univ.filter (fun e => dst e = d ∧ src e = k), ω e) * g k
      = ∑ e ∈ Finset.univ.filter (fun e => dst e = d), g (src e) * ω e := by
  rw [← Finset.sum_fiberwise (Finset.univ.filter (fun e => dst e = d)) src (fun e => g (src e) * ω e)]
  refine Finset.sum_congr rfl fun k _ => ?_
  rw [Finset.sum_mul, Finset.filter_filter]
  refine Finset.sum_congr rfl fun e he => ?_
  rw [(Finset.mem_filter.mp he).2.2, mul_comm]

/-- Over real weights and real features the dense aggregation through the adjacency matrix is the
    edge-by-edge aggregation. -/
theorem aggRelu_adj_eq_segRelu {n N : Nat} (dst src : ι → Fin n) {w : ι → EReal} (hw : IsReal w)
    {H : Mat n N} (hH : IsReal H) (b : Fin N → EReal) :
    aggRelu (adj dst src w) H b = segRelu dst src w H b := by
  choose ω hω using hw
  choose h hh using hH
  funext i
  have key : mm (adj dst src w) H i
      = 0 + ∑ e ∈ Finset.univ.filter (fun e => dst e = row i), H (ix2 (src e) (col i)) * w e := by
    have hL : mm (adj dst src w) H i
        = ((∑ k : Fin n, (∑ e ∈ Finset.univ.filter (fun e => dst e = row i ∧ src e = k), ω e)
            * h (ix2 k (col i)) : ℝ) : EReal) := by
      rw [← sum_coe]
      refine Finset.sum_congr rfl fun k _ => ?_
      rw [hh, EReal.coe_mul, ← sum_coe]
      simp only [adj, row_ix2, col_ix2, hω, zero_add]
      rfl
    have hR : (0 : EReal) + ∑ e ∈ Finset.univ.filter (fun e => dst e = row i), H (ix2 (src e) (col i)) * w e
        = ((∑ e ∈ Finset.univ.filter (fun e => dst e = row i), h (ix2 (src e) (col i)) * ω e : ℝ) : EReal) := by
      rw [zero_add, ← sum_coe]
      refine Finset.sum_congr rfl fun e _ => ?_
      rw [hh, hω, EReal.coe_mul]
    rw [hL, hR, real_law dst src ω (fun k => h (ix2 k (col i))) (row i)]
  show max (mm (adj dst src w) H i + b (col i)) 0 = _
  rw [key]
  rfl

/-- The edge-by-edge aggregation of real data is real. -/
theorem segRelu_isReal {n N : Nat} (dst src : ι → Fin n) {w : ι → EReal} (hw : IsReal w)
    {H : Mat n N} (hH : IsReal H) {b : Fin N → EReal} (hb : IsReal b) :
    IsReal (segRelu dst src w H b) := by
  choose ω hω using hw
  choose h hh using hH
  choose β hβ using hb
  intro i
  refine ⟨max ((∑ e ∈ Finset.univ.filter (fun e => dst e = row i), h (ix2 (src e) (col i)) * ω e)
    + β (col i)) 0, ?_⟩
  rw [← max_coe, EReal.coe_add, ← sum_coe]
  show max ((0 + ∑ e ∈ Finset.univ.filter (fun e => dst e = row i), H (ix2 (src e) (col i)) * w e)
    + b (col i)) 0 = _
  rw [zero_add, hβ, EReal.coe_zero]
  congr 2
  refine Finset.sum_congr rfl fun e _ => ?_
  rw [hh, hω, EReal.coe_mul]

/-- Slice l of a real stack of weight matrices is real. -/
theorem wsl_isReal {Wm : (⟨3, ![4, 512, 512]⟩ : Shape).Idx → EReal} (h : IsReal Wm) (l : Fin 4) :
    IsReal (wsl Wm l) := fun i => h (ix3 l (row i) (col i))

/-- Row l of a real stack of bias vectors is real. -/
theorem bsl_isReal {bm : Mat 4 512} (h : IsReal bm) (l : Fin 4) : IsReal (bsl bm l) :=
  fun j => h (ix2 l j)

/-- A real rank-1 array is real as a function of its coordinate. -/
theorem vec1_isReal {b : (⟨1, ![512]⟩ : Shape).Idx → EReal} (h : IsReal b) : IsReal (vec1 b) :=
  fun j => h (ix1 j)

/-- One layer: through the dense matrix or edge by edge, the same over real data. -/
theorem layerK_eq_layerR {n K N : Nat} (dst src : ι → Fin n) {w : ι → EReal} (hw : IsReal w)
    {X : Mat n K} {W : Mat K N} (hX : IsReal X) (hW : IsReal W) (b : Fin N → EReal) :
    layerK (adj dst src w) X W b = layerR dst src w X W b :=
  aggRelu_adj_eq_segRelu dst src hw (mm_isReal hX hW) b

/-- One edge-by-edge layer over real data is real. -/
theorem layerR_isReal {n K N : Nat} (dst src : ι → Fin n) {w : ι → EReal} (hw : IsReal w)
    {X : Mat n K} {W : Mat K N} (hX : IsReal X) (hW : IsReal W) {b : Fin N → EReal} (hb : IsReal b) :
    IsReal (layerR dst src w X W b) :=
  segRelu_isReal dst src hw (mm_isReal hX hW) hb

/-- The six layers through the dense adjacency matrix are the six layers edge by edge, over real data. -/
theorem gcnK_eq_gcnR (dst src : ι → Fin 10000) {w : ι → EReal} (hw : IsReal w)
    {X0 : Mat 10000 128} {W1 : Mat 128 512} {b1 : (⟨1, ![512]⟩ : Shape).Idx → EReal}
    {Wm : (⟨3, ![4, 512, 512]⟩ : Shape).Idx → EReal} {bm : Mat 4 512} {Wl : Mat 512 512}
    {bl : (⟨1, ![512]⟩ : Shape).Idx → EReal}
    (h0 : IsReal X0) (h1 : IsReal W1) (h2 : IsReal b1) (h3 : IsReal Wm) (h4 : IsReal bm)
    (h5 : IsReal Wl) (h6 : IsReal bl) :
    gcnK (adj dst src w) X0 W1 b1 Wm bm Wl bl = gcnR dst src w X0 W1 b1 Wm bm Wl bl := by
  have r1 := layerR_isReal dst src hw h0 h1 (vec1_isReal h2)
  have r2 := layerR_isReal dst src hw r1 (wsl_isReal h3 0) (bsl_isReal h4 0)
  have r3 := layerR_isReal dst src hw r2 (wsl_isReal h3 1) (bsl_isReal h4 1)
  have r4 := layerR_isReal dst src hw r3 (wsl_isReal h3 2) (bsl_isReal h4 2)
  have r5 := layerR_isReal dst src hw r4 (wsl_isReal h3 3) (bsl_isReal h4 3)
  unfold gcnK gcnR
  rw [layerK_eq_layerR dst src hw h0 h1, layerK_eq_layerR dst src hw r1 (wsl_isReal h3 0),
    layerK_eq_layerR dst src hw r2 (wsl_isReal h3 1), layerK_eq_layerR dst src hw r3 (wsl_isReal h3 2),
    layerK_eq_layerR dst src hw r4 (wsl_isReal h3 3), layerK_eq_layerR dst src hw r5 h5]

end Cert.Gcn

end
-- ==== Proof.PreFacts.lean ====
/-
  The printed precondition, decoded. The precondition is one bit: the conjunction, over the seven float arrays,
  of "every entry has absolute value below +infinity", and of "every word of the edge list is at least 0 and
  below 10000, read signed". From that bit being 1 we read back: every entry of each float array is a real
  number (neither infinity), and every edge word lies in [0, 10000).
-/
import proofs.«147721_j75531294868021_1_alg».proof.Pre_finite_inputs
import proofs.«147721_j75531294868021_1_alg».proof.Proof.Gen.Pre_finite_inputs
import proofs.«147721_j75531294868021_1_alg».proof.Proof.Spec
import Idealize.ShloMosaic.Lib.ReduceAll
import Idealize.ShloMosaic.Lib.StableHlo.Predicate

noncomputable section

open Idealize.ShloMosaic Idealize.ShloMosaic.ValueIdx

namespace Cert.PreFacts

open Cert.Pre_finite_inputs

/-- The scalar shape has one index. -/
instance : Subsingleton S_.Idx := ⟨fun a b => funext fun d => d.elim0⟩

/-- An extended real whose absolute value max x (-x) is below the pattern of +infinity is a real number:
    the pattern 0x7F800000 denotes the top element, and both infinities have absolute value top. -/
theorem real_of_abs_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- A conjunction of two one-bit arrays that is 1 at an index has both bits 1 there. -/
theorem and_split {s : Shape} (A B : IVec s 1) (j : s.Idx) (e : andi A B j = 1#1) : A j = 1#1 ∧ B j = 1#1 :=
  IntOp.andi_eq_one.1 e

/-- "All of |x| < +infinity" over a whole array says every entry is a real number. -/
theorem isReal_of_all {s : Shape} {axes : List (Fin s.rank)} (hb : S_.BroadcastsInDim s (![] : Fin 0 → Fin s.rank))
    (hr : s.ReducesTo axes S_) (h0 : 0 < S_.numel) (x : FVec Ideal s .f32) (init : IVec S_ 1)
    (e : Host.reduce IntOp.andi
      (cmpf .olt (Host.absf x) (broadcastInDim s ![] hb (constant (F := Ideal) S_ .f32 0x7F800000#32))) init hr h0 ix0 = 1#1) :
    Cert.Gcn.IsReal x := by
  intro i
  have hi := Host.reduce_andi_all _ _ hr h0 _ e i
  exact real_of_abs_lt (x i) hi

/-- "All of 0 <= w and w < 10000", signed, over a whole array of words says every word reads in [0, 10000). -/
theorem range_of_all {s : Shape} {axes : List (Fin s.rank)} (hb : S_.BroadcastsInDim s (![] : Fin 0 → Fin s.rank))
    (hr : s.ReducesTo axes S_) (h0 : 0 < S_.numel) (w : IVec s 32) (init : IVec S_ 1)
    (e : Host.reduce IntOp.andi
      (andi (cmpi .sge w (broadcastInDim s ![] hb (constantI S_ 32 0#32)))
        (cmpi .slt w (broadcastInDim s ![] hb (constantI S_ 32 10000#32)))) init hr h0 ix0 = 1#1) :
    ∀ i, 0 ≤ (w i).toInt ∧ (w i).toInt < 10000 := by
  intro i
  have hi : IntOp.andi (IntOp.cmpi .sge (w i) 0#32) (IntOp.cmpi .slt (w i) 10000#32) = 1#1 :=
    Host.reduce_andi_all _ _ hr h0 _ e i
  obtain ⟨h1, h2⟩ := IntOp.andi_eq_one.1 hi
  have h1' := IntOp.cmpi_sge.1 h1
  have h2' := IntOp.cmpi_slt.1 h2
  have z0 : (0#32 : BitVec 32).toInt = 0 := by decide
  have z1 : (10000#32 : BitVec 32).toInt = 10000 := by decide
  rw [z0] at h1'
  rw [z1] at h2'
  exact ⟨h1', h2'⟩

theorem decode [Cert.Pre_finite_inputs.Facts]
    (a0 : FVec Ideal Cert.Pre_finite_inputs.S10000x128 .f32) (a1 : IVec Cert.Pre_finite_inputs.S2x160000 32)
    (a2 : FVec Ideal Cert.Pre_finite_inputs.S128x512 .f32) (a3 : FVec Ideal Cert.Pre_finite_inputs.S512 .f32)
    (a4 : FVec Ideal Cert.Pre_finite_inputs.S4x512x512 .f32) (a5 : FVec Ideal Cert.Pre_finite_inputs.S4x512 .f32)
    (a6 : FVec Ideal Cert.Pre_finite_inputs.S512x512 .f32) (a7 : FVec Ideal Cert.Pre_finite_inputs.S512 .f32)
    (h : Cert.Pre_finite_inputs.fn (F := Ideal) a0 a1 a2 a3 a4 a5 a6 a7 = (fun _ => 1#1)) :
    Cert.Gcn.IsReal a0 ∧ Cert.Gcn.IsReal a2 ∧ Cert.Gcn.IsReal a3 ∧ Cert.Gcn.IsReal a4 ∧ Cert.Gcn.IsReal a5 ∧
      Cert.Gcn.IsReal a6 ∧ Cert.Gcn.IsReal a7 ∧ (∀ i, 0 ≤ (a1 i).toInt ∧ (a1 i).toInt < 10000) := by
  have e := congrFun h ix0
  dsimp only [Cert.Pre_finite_inputs.fn, Cert.Pre_finite_inputs.fn_part1, Cert.Pre_finite_inputs.fn_part2] at e
  obtain ⟨e, hi⟩ := and_split _ _ _ e
  obtain ⟨e, h7⟩ := and_split _ _ _ e
  obtain ⟨e, h6⟩ := and_split _ _ _ e
  obtain ⟨e, h5⟩ := and_split _ _ _ e
  obtain ⟨e, h4⟩ := and_split _ _ _ e
  obtain ⟨e, h3⟩ := and_split _ _ _ e
  obtain ⟨h0, h2⟩ := and_split _ _ _ e
  exact ⟨isReal_of_all _ _ _ a0 _ h0, isReal_of_all _ _ _ a2 _ h2, isReal_of_all _ _ _ a3 _ h3,
    isReal_of_all _ _ _ a4 _ h4, isReal_of_all _ _ _ a5 _ h5, isReal_of_all _ _ _ a6 _ h6,
    isReal_of_all _ _ _ a7 _ h7, range_of_all _ _ _ a1 _ hi⟩

end Cert.PreFacts

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Head.lean ====
/-
  The graph normalisation both programs begin with, read index by index.
  From the edge list (two rows of 160000 node numbers) the programs form the source and destination words of
  170000 edges: the 160000 given edges followed by one self-loop per node (an iota of 10000). When every given
  node number lies in [0, 10000) so does every word; the negative-index wrap placed in front of every gather
  and scatter is then the identity, and the edge weight (a product of two gathered inverse square roots of a
  degree) is a real number whatever the edge list is.
-/
import proofs.«147721_j75531294868021_1_alg».proof.Proof.RefRead
import proofs.«147721_j75531294868021_1_alg».proof.Proof.Spec
import proofs.«147721_j75531294868021_1_alg».proof.Proof.LibCoe

noncomputable section

open Idealize.ShloMosaic Idealize.ShloMosaic.ValueIdx
open Cert.ReferenceIdeal Cert.ReferenceIdeal.Gen Cert.ReferenceIdeal.Read

namespace Cert.Head

/-- The index type of the 170000 edges. -/
abbrev E : Type := S170000.Idx

/-- The source node of edge e, as a number below 10000 (the source word reduced modulo 10000). -/
def srcN (x1 : IVec S2x160000 32) : E → Fin 10000 :=
  fun e => ⟨(val_main_v3 (F := Ideal) x1 e).toNat % 10000, Nat.mod_lt _ (by decide)⟩

/-- The destination node of edge e, as a number below 10000. -/
def dstN (x1 : IVec S2x160000 32) : E → Fin 10000 :=
  fun e => ⟨(val_main_v6 (F := Ideal) x1 e).toNat % 10000, Nat.mod_lt _ (by decide)⟩

/-- A 32-bit word holding a number below 10000 reads, as a signed integer, as that number. -/
theorem toInt_ofNat_small (k : Nat) (hk : k < 10000) :
    0 ≤ (BitVec.ofNat 32 k).toInt ∧ (BitVec.ofNat 32 k).toInt < 10000 := by
  rw [BitVec.toInt_eq_toNat_cond, BitVec.toNat_ofNat]
  have h1 : k % 2 ^ 32 = k := Nat.mod_eq_of_lt (by omega)
  rw [h1]
  split <;> omega

/-- A word whose signed reading lies in [0, 10000) has that reading equal to its unsigned one modulo 10000. -/
theorem toInt_eq_mod (b : BitVec 32) (h : 0 ≤ b.toInt ∧ b.toInt < 10000) :
    b.toInt = ((b.toNat % 10000 : Nat) : Int) := by
  have hlt := b.isLt
  rcases h with ⟨h0, h1⟩
  rw [BitVec.toInt_eq_toNat_cond] at h0 h1 ⊢
  split at h0 <;> omega

/-- The concatenation of 160000 in-range words with the iota of 10000 is in range at every index: an index below
    160000 reads the first piece, one at or past it reads the iota at the index less 160000. -/
theorem cat_inrange (y : IVec S160000 32) (hy : ∀ i, 0 ≤ (y i).toInt ∧ (y i).toInt < 10000) (e : E) :
    0 ≤ (concatenate S170000 0 [⟨S160000, y⟩, ⟨S10000, val_main_v0 (F := Ideal)⟩]
          concatenates_S160000_S10000_S170000_d0 e).toInt ∧
      (concatenate S170000 0 [⟨S160000, y⟩, ⟨S10000, val_main_v0 (F := Ideal)⟩]
          concatenates_S160000_S10000_S170000_d0 e).toInt < 10000 := by
  have he : (e 0).val < 170000 := (e 0).isLt
  by_cases hlt : (e 0).val < 160000
  · rw [concatenate_pair_apply_left (0 : Fin S170000.rank) y (val_main_v0 (F := Ideal))
      concatenates_S160000_S10000_S170000_d0 e rfl (ix1 ⟨(e 0).val, hlt⟩)
      (fun b => match b with | ⟨0, _⟩ => rfl)]
    exact hy _
  · have hge : 160000 ≤ (e 0).val := Nat.le_of_not_lt hlt
    rw [concatenate_pair_apply_right (0 : Fin S170000.rank) y (val_main_v0 (F := Ideal))
      concatenates_S160000_S10000_S170000_d0 e rfl rfl (ix1 ⟨(e 0).val - 160000, by omega⟩)
      (fun b => match b with | ⟨0, _⟩ => fun hb => absurd rfl hb)
      (by show (e 0).val - 160000 + 160000 = (e 0).val; omega)]
    rw [val_main_v0_apply]
    exact toInt_ofNat_small _ (by show (e 0).val - 160000 < 10000; omega)

theorem src_inrange (x1 : IVec S2x160000 32) (hr : ∀ i, 0 ≤ (x1 i).toInt ∧ (x1 i).toInt < 10000) :
    ∀ e : E, 0 ≤ (val_main_v3 (F := Ideal) x1 e).toInt ∧ (val_main_v3 (F := Ideal) x1 e).toInt < 10000 := by
  intro e
  unfold val_main_v3
  exact cat_inrange _ (fun i => by rw [val_main_v2_apply, val_main_v1_apply]; exact hr _) e

theorem dst_inrange (x1 : IVec S2x160000 32) (hr : ∀ i, 0 ≤ (x1 i).toInt ∧ (x1 i).toInt < 10000) :
    ∀ e : E, 0 ≤ (val_main_v6 (F := Ideal) x1 e).toInt ∧ (val_main_v6 (F := Ideal) x1 e).toInt < 10000 := by
  intro e
  unfold val_main_v6
  exact cat_inrange _ (fun i => by rw [val_main_v5_apply, val_main_v4_apply]; exact hr _) e

theorem src_word (x1 : IVec S2x160000 32) (hr : ∀ i, 0 ≤ (x1 i).toInt ∧ (x1 i).toInt < 10000) (e : E) :
    (val_main_v3 (F := Ideal) x1 e).toInt = ((srcN x1 e).val : Int) :=
  toInt_eq_mod _ (src_inrange x1 hr e)

theorem dst_word (x1 : IVec S2x160000 32) (hr : ∀ i, 0 ≤ (x1 i).toInt ∧ (x1 i).toInt < 10000) (e : E) :
    (val_main_v6 (F := Ideal) x1 e).toInt = ((dstN x1 e).val : Int) :=
  toInt_eq_mod _ (dst_inrange x1 hr e)

/-- The negative-index wrap (add 10000 to a word that reads negative) is the identity on words in [0, 10000). -/
theorem wrap_id (w : IVec S170000 32) (hw : ∀ e, 0 ≤ (w e).toInt ∧ (w e).toInt < 10000)
    (h0 h1 : S_.BroadcastsInDim S170000 (![] : Fin 0 → Fin S170000.rank)) :
    select (cmpi .slt w (broadcastInDim S170000 ![] h0 (constantI S_ 32 0#32)))
      (addi w (broadcastInDim S170000 ![] h1 (constantI S_ 32 10000#32))) w = w := by
  funext e
  have hs : (w e).slt 0#32 = false := by
    rw [Bool.eq_false_iff]
    intro h
    have h2 := BitVec.slt_iff_toInt_lt.1 h
    have h3 : (0#32 : BitVec 32).toInt = 0 := by decide
    have := (hw e).1
    omega
  have hc : IntOp.cmpi .slt (w e) 0#32 = 0#1 := by
    show BitVec.ofBool ((w e).slt 0#32) = 0#1
    rw [hs]; rfl
  show Scalar.select (IntOp.cmpi .slt (w e) 0#32) _ (w e) = w e
  rw [hc]
  exact select_zero _ _

/-- The wrapped source words of the normalisation are the source words. -/
theorem wrap_v21 (x1 : IVec S2x160000 32) (hr : ∀ i, 0 ≤ (x1 i).toInt ∧ (x1 i).toInt < 10000) :
    val_main_v21 (F := Ideal) x1 = val_main_v3 (F := Ideal) x1 := by
  unfold val_main_v21 val_main_v18 val_main_v20 val_main_v17 val_main_v19 val_main_c val_main_c_4
  rw [wrap_id _ (src_inrange x1 hr)]

/-- The wrapped destination words of the normalisation are the destination words. -/
theorem wrap_v28 (x1 : IVec S2x160000 32) (hr : ∀ i, 0 ≤ (x1 i).toInt ∧ (x1 i).toInt < 10000) :
    val_main_v28 (F := Ideal) x1 = val_main_v6 (F := Ideal) x1 := by
  unfold val_main_v28 val_main_v25 val_main_v27 val_main_v24 val_main_v26 val_main_c_5 val_main_c_6
  rw [wrap_id _ (dst_inrange x1 hr)]

/-- The inverse square root of the larger of any extended real and one is a real number. -/
theorem rsqrt_max_one_real (d : EReal) : ∃ r : ℝ, Ideal.rsqrt (max d ((1 : ℝ) : EReal)) = (r : EReal) := by
  have h1 : ((1 : ℝ) : EReal) ≤ max d ((1 : ℝ) : EReal) := le_max_right _ _
  induction hm : max d ((1 : ℝ) : EReal) using EReal.rec with
  | bot => rw [hm] at h1; exact absurd (le_bot_iff.1 h1) (EReal.coe_ne_bot 1)
  | top => exact ⟨0, by simp⟩
  | coe r =>
    rw [hm] at h1
    have hr : (1 : ℝ) ≤ r := EReal.coe_le_coe_iff.1 h1
    exact ⟨(Real.sqrt r)⁻¹, Cert.LibCoe.rsqrt_coe_pos (by linarith)⟩

/-- Every entry of the per-node inverse square root of the degree is a real number, whatever the degree. -/
theorem v16_real (x1 : IVec S2x160000 32) (k : S10000.Idx) :
    ∃ r : ℝ, val_main_v16 (F := Ideal) x1 k = (r : EReal) := by
  rw [val_main_v16_apply]
  by_cases hc : val_main_v12 (F := Ideal) x1 k = 1#1
  · rw [hc, select_one, val_main_v15_apply, val_main_v14_apply]
    have h13 : val_main_v13 (F := Ideal) k = ((1 : ℝ) : EReal) := Cert.LibCoe.ofBits_one
    rw [h13, Ideal.hostUnary_rsqrt_def, Ideal.maximumf_def]
    generalize val_main_v10 (F := Ideal) x1 k = d
    exact rsqrt_max_one_real d
  · rw [eq_zero_of_ne_one hc, select_zero]
    exact ⟨0, Cert.LibCoe.ofBits_zero⟩

/-- The edge weight, a product of two gathered entries of an all-real array, is a real number. -/
theorem norm_isReal (x1 : IVec S2x160000 32) : Cert.Gcn.IsReal (val_main_v31 (F := Ideal) x1) := by
  intro e
  obtain ⟨a, ha⟩ := v16_real x1
    (gather_S10000_S170000x1_S170000_n_0_n_n_0_1_1.operandIdx e (val_main_v22 (F := Ideal) x1))
  obtain ⟨b, hb⟩ := v16_real x1
    (gather_S10000_S170000x1_S170000_n_0_n_n_0_1_1.operandIdx e (val_main_v29 (F := Ideal) x1))
  refine ⟨a * b, ?_⟩
  rw [val_main_v31_apply, Ideal.mulf_def]
  unfold val_main_v23 val_main_v30 Host.gather
  rw [ha, hb]
  exact Cert.LibCoe.mul_coe a b

/-- The [E] to [E, 1] broadcast in front of every gather and scatter index operand reads the word of its row. -/
theorem bcast_col (w : IVec S170000 32)
    (h : S170000.BroadcastsInDim S170000x1 (![0] : Fin 1 → Fin S170000x1.rank)) (e : E) :
    (broadcastInDim S170000x1 ![0] h w) (ValueIdx.ix2 (e 0) 0) = w e :=
  broadcastInDim_apply _ h w (ValueIdx.ix2 (e 0) 0) e (fun a => match a with
    | ⟨0, _⟩ => by show (e 0).val = if (170000 : Nat) = 1 then 0 else (e 0).val; rw [if_neg (by decide)])

end Cert.Head

end
-- ==== Proof.IndexOps.lean ====
/-
  The host's scatter-add and gather read at an index, at the ideal instance, for the three dimension-number
  records of the graph-convolution programs, when the index words are in range.

  * a scatter-add of one scalar per edge into an n x n matrix, the edge's two index words its row and column:
    entry (d, s) receives the updates of the edges e with dst(e) = d and src(e) = s;
  * a scatter-add of one row per edge into an n x c matrix, the edge's index word its row: entry (d, q) receives
    update (e, q) of every edge e with dst(e) = d;
  * a gather of one row per edge out of an n x c matrix: result (e, q) is the operand at (src(e), q).
-/
import proofs.«147721_j75531294868021_1_alg».proof.Proof.Spec
import Idealize.ShloMosaic.PureOps.Ideal
import Idealize.ShloMosaic.Lib.ValueIdx

noncomputable section

open Idealize.ShloMosaic Idealize.ShloMosaic.ValueIdx

namespace Cert.Gcn.IndexOps

/-- The edge index type. -/
abbrev E : Type := (⟨1, ![170000]⟩ : Shape).Idx

/-- The dimension numbers of the scatter of one scalar per edge into a matrix: no window axes, both operand axes
    inserted and named by the two index words, the index vector on axis 1. -/
abbrev sd2 (h : ScatterDims.WF ⟨2, ![10000, 10000]⟩ ⟨2, ![170000, 2]⟩ ⟨1, ![170000]⟩ [] [0, 1] [0, 1] 1) :
    ScatterDims ⟨2, ![10000, 10000]⟩ ⟨2, ![170000, 2]⟩ ⟨1, ![170000]⟩ := ⟨[], [0, 1], [0, 1], 1, h⟩

/-- With both index words in range, the update of edge e lands on entry (dst e, src e): on each operand axis the
    start is that axis's index word read signed, and the window coordinate is zero. -/
theorem res2
    (h : ScatterDims.WF ⟨2, ![10000, 10000]⟩ ⟨2, ![170000, 2]⟩ ⟨1, ![170000]⟩ [] [0, 1] [0, 1] 1)
    (idx : IVec ⟨2, ![170000, 2]⟩ 32) (dst src : E → Fin 10000)
    (hd : ∀ e : E, (idx (ix2 (e 0) 0)).toInt = ((dst e).val : Int))
    (hs : ∀ e : E, (idx (ix2 (e 0) 1)).toInt = ((src e).val : Int)) (e : E) :
    (sd2 h).resultIdx? e idx = some (ix2 (dst e) (src e)) := by
  have hsum : ∀ a, (sd2 h).start e idx a + ((sd2 h).window e a : Int)
      = (((ix2 (dst e) (src e) : (⟨2, ![10000, 10000]⟩ : Shape).Idx) a).val : Int) := by
    intro a
    match a with
    | ⟨0, h0⟩ =>
      have hm : (⟨0, h0⟩ : Fin 2) ∈ (sd2 h).scatterDimsToOperandDims :=
        (by decide : (⟨0, by decide⟩ : Fin 2) ∈ ([0, 1] : List (Fin 2)))
      have hk : (⟨0, h0⟩ : Fin 2) ∉ (sd2 h).sKept :=
        (by decide : (⟨0, by decide⟩ : Fin 2) ∉ (⟨2, ![10000, 10000]⟩ : Shape).kept [0, 1])
      have hsi : ∀ c : Fin (sd2 h).scatterDimsToOperandDims.length, c.val = 0 →
          (sd2 h).siIdx e c = (ix2 (e 0) (0 : Fin 2) : (⟨2, ![170000, 2]⟩ : Shape).Idx) := by
        intro c hc
        funext b
        match b with
        | ⟨0, _⟩ => rfl
        | ⟨1, _⟩ => exact Fin.ext hc
      unfold ScatterDims.start ScatterDims.window
      rw [dif_pos hm, dif_neg hk, hsi _ rfl]
      show (idx (ix2 (e 0) 0)).toInt + ((0 : Nat) : Int) = ((dst e).val : Int)
      rw [hd e]; simp
    | ⟨1, h1⟩ =>
      have hm : (⟨1, h1⟩ : Fin 2) ∈ (sd2 h).scatterDimsToOperandDims :=
        (by decide : (⟨1, by decide⟩ : Fin 2) ∈ ([0, 1] : List (Fin 2)))
      have hk : (⟨1, h1⟩ : Fin 2) ∉ (sd2 h).sKept :=
        (by decide : (⟨1, by decide⟩ : Fin 2) ∉ (⟨2, ![10000, 10000]⟩ : Shape).kept [0, 1])
      have hsi : ∀ c : Fin (sd2 h).scatterDimsToOperandDims.length, c.val = 1 →
          (sd2 h).siIdx e c = (ix2 (e 0) (1 : Fin 2) : (⟨2, ![170000, 2]⟩ : Shape).Idx) := by
        intro c hc
        funext b
        match b with
        | ⟨0, _⟩ => rfl
        | ⟨1, _⟩ => exact Fin.ext hc
      unfold ScatterDims.start ScatterDims.window
      rw [dif_pos hm, dif_neg hk, hsi _ rfl]
      show (idx (ix2 (e 0) 1)).toInt + ((0 : Nat) : Int) = ((src e).val : Int)
      rw [hs e]; simp
  have hin : ∀ a, 0 ≤ (sd2 h).start e idx a + ((sd2 h).window e a : Int) ∧
      (sd2 h).start e idx a + ((sd2 h).window e a : Int) < ((⟨2, ![10000, 10000]⟩ : Shape).size a : Int) := by
    intro a
    rw [hsum a]
    exact ⟨Int.natCast_nonneg _, Int.ofNat_lt.2 (Fin.isLt _)⟩
  unfold ScatterDims.resultIdx?
  rw [dif_pos hin]
  congr 1
  funext a
  apply Fin.ext
  show ((sd2 h).start e idx a + ((sd2 h).window e a : Int)).toNat = _
  rw [hsum a, Int.toNat_natCast]

/-- The scatter-add of one scalar per edge, at an entry: the operand's entry plus the updates of the edges whose
    index words are the entry's row and column. -/
theorem scatter2_apply
    (h : ScatterDims.WF ⟨2, ![10000, 10000]⟩ ⟨2, ![170000, 2]⟩ ⟨1, ![170000]⟩ [] [0, 1] [0, 1] 1)
    (x : Mat 10000 10000) (idx : IVec ⟨2, ![170000, 2]⟩ 32) (upd : E → EReal) (dst src : E → Fin 10000)
    (hd : ∀ e : E, (idx (ix2 (e 0) 0)).toInt = ((dst e).val : Int))
    (hs : ∀ e : E, (idx (ix2 (e 0) 1)).toInt = ((src e).val : Int)) :
    Ideal.hostScatterAdd (⟨[], [0, 1], [0, 1], 1, h⟩ : ScatterDims ⟨2, ![10000, 10000]⟩ ⟨2, ![170000, 2]⟩ ⟨1, ![170000]⟩) x idx upd
      = fun i => x i + ∑ e ∈ Finset.univ.filter (fun e => dst e = row i ∧ src e = col i), upd e := by
  funext i
  unfold Ideal.hostScatterAdd
  refine congrArg (x i + ·) ?_
  refine Finset.sum_congr ?_ (fun _ _ => rfl)
  ext e
  simp only [Finset.mem_filter, Finset.mem_univ, true_and]
  rw [res2 h idx dst src hd hs e]
  constructor
  · intro hh
    have := Option.some.inj hh
    subst this
    exact ⟨rfl, rfl⟩
  · rintro ⟨h1, h2⟩
    rw [eq_ix2 i]
    show some (ix2 (dst e) (src e)) = some (ix2 (row i) (col i))
    rw [h1, h2]

/-- The dimension numbers of the scatter of one row per edge: update axis 1 is the window axis, operand axis 0 is
    inserted and named by the one index word, the index vector on axis 1. -/
abbrev sdR (h : ScatterDims.WF ⟨2, ![10000, 512]⟩ ⟨2, ![170000, 1]⟩ ⟨2, ![170000, 512]⟩ [1] [0] [0] 1) :
    ScatterDims ⟨2, ![10000, 512]⟩ ⟨2, ![170000, 1]⟩ ⟨2, ![170000, 512]⟩ := ⟨[1], [0], [0], 1, h⟩

/-- With the index word in range, update entry (e, q) lands on entry (dst e, q): on axis 0 the start is the index
    word read signed and the window coordinate zero; on axis 1 the start is zero and the window coordinate q. -/
theorem resR
    (h : ScatterDims.WF ⟨2, ![10000, 512]⟩ ⟨2, ![170000, 1]⟩ ⟨2, ![170000, 512]⟩ [1] [0] [0] 1)
    (idx : IVec ⟨2, ![170000, 1]⟩ 32) (dst : E → Fin 10000)
    (hd : ∀ e : E, (idx (ix2 (e 0) 0)).toInt = ((dst e).val : Int)) (j : (⟨2, ![170000, 512]⟩ : Shape).Idx) :
    (sdR h).resultIdx? j idx = some (ix2 (dst (ix1 (row j))) (col j)) := by
  have hsum : ∀ a, (sdR h).start j idx a + ((sdR h).window j a : Int)
      = (((ix2 (dst (ix1 (row j))) (col j) : (⟨2, ![10000, 512]⟩ : Shape).Idx) a).val : Int) := by
    intro a
    match a with
    | ⟨0, h0⟩ =>
      have hm : (⟨0, h0⟩ : Fin 2) ∈ (sdR h).scatterDimsToOperandDims :=
        (by decide : (⟨0, by decide⟩ : Fin 2) ∈ ([0] : List (Fin 2)))
      have hk : (⟨0, h0⟩ : Fin 2) ∉ (sdR h).sKept :=
        (by decide : (⟨0, by decide⟩ : Fin 2) ∉ (⟨2, ![10000, 512]⟩ : Shape).kept [0])
      have hsi : ∀ c : Fin (sdR h).scatterDimsToOperandDims.length,
          (sdR h).siIdx j c = (ix2 (row j) (0 : Fin 1) : (⟨2, ![170000, 1]⟩ : Shape).Idx) := by
        intro c
        funext b
        match b with
        | ⟨0, _⟩ => rfl
        | ⟨1, _⟩ =>
          apply Fin.ext
          have hc : c.val < 1 := c.isLt
          show c.val = 0
          omega
      unfold ScatterDims.start ScatterDims.window
      rw [dif_pos hm, dif_neg hk, hsi]
      show (idx (ix2 ((ix1 (row j) : E) 0) 0)).toInt + ((0 : Nat) : Int) = ((dst (ix1 (row j))).val : Int)
      rw [hd (ix1 (row j))]; simp
    | ⟨1, h1⟩ =>
      have hm : (⟨1, h1⟩ : Fin 2) ∉ (sdR h).scatterDimsToOperandDims :=
        (by decide : (⟨1, by decide⟩ : Fin 2) ∉ ([0] : List (Fin 2)))
      have hk : (⟨1, h1⟩ : Fin 2) ∈ (sdR h).sKept :=
        (by decide : (⟨1, by decide⟩ : Fin 2) ∈ (⟨2, ![10000, 512]⟩ : Shape).kept [0])
      unfold ScatterDims.start ScatterDims.window
      rw [dif_neg hm, dif_pos hk]
      show (0 : Int) + (((j 1).val : Nat) : Int) = ((col j).val : Int)
      simp
  have hin : ∀ a, 0 ≤ (sdR h).start j idx a + ((sdR h).window j a : Int) ∧
      (sdR h).start j idx a + ((sdR h).window j a : Int) < ((⟨2, ![10000, 512]⟩ : Shape).size a : Int) := by
    intro a
    rw [hsum a]
    exact ⟨Int.natCast_nonneg _, Int.ofNat_lt.2 (Fin.isLt _)⟩
  unfold ScatterDims.resultIdx?
  rw [dif_pos hin]
  congr 1
  funext a
  apply Fin.ext
  show ((sdR h).start j idx a + ((sdR h).window j a : Int)).toNat = _
  rw [hsum a, Int.toNat_natCast]

/-- The scatter-add of one row per edge, at an entry (d, q): the operand's entry plus update (e, q) of every edge e
    with dst e = d. The update indices landing on (d, q) are exactly the (e, q) with dst e = d, so the sum over
    them is re-indexed by the edge. -/
theorem scatterRows_apply
    (h : ScatterDims.WF ⟨2, ![10000, 512]⟩ ⟨2, ![170000, 1]⟩ ⟨2, ![170000, 512]⟩ [1] [0] [0] 1)
    (x : Mat 10000 512) (idx : IVec ⟨2, ![170000, 1]⟩ 32) (upd : Mat 170000 512) (dst : E → Fin 10000)
    (hd : ∀ e : E, (idx (ix2 (e 0) 0)).toInt = ((dst e).val : Int)) :
    Ideal.hostScatterAdd (⟨[1], [0], [0], 1, h⟩ : ScatterDims ⟨2, ![10000, 512]⟩ ⟨2, ![170000, 1]⟩ ⟨2, ![170000, 512]⟩) x idx upd
      = fun i => x i + ∑ e ∈ Finset.univ.filter (fun e : E => dst e = row i), upd (ix2 (e 0) (col i)) := by
  funext i
  unfold Ideal.hostScatterAdd
  refine congrArg (x i + ·) ?_
  -- an update index landing on i has i's column and an edge whose destination is i's row
  have hmem : ∀ j : (⟨2, ![170000, 512]⟩ : Shape).Idx, (sdR h).resultIdx? j idx = some i →
      dst (ix1 (row j)) = row i ∧ col j = col i := by
    intro j hj
    rw [resR h idx dst hd j] at hj
    have := Option.some.inj hj
    subst this
    exact ⟨rfl, rfl⟩
  refine Finset.sum_nbij' (fun j => (ix1 (row j) : E)) (fun e => ix2 (e 0) (col i)) ?_ ?_ ?_ ?_ ?_
  · intro j hj
    simp only [Finset.mem_filter, Finset.mem_univ, true_and] at hj ⊢
    exact (hmem j hj).1
  · intro e he
    simp only [Finset.mem_filter, Finset.mem_univ, true_and] at he ⊢
    rw [resR h idx dst hd]
    refine congrArg some ?_
    have h1 : (ix1 (row (ix2 (e 0) (col i) : (⟨2, ![170000, 512]⟩ : Shape).Idx)) : E) = e := (eq_ix1 e).symm
    have h2 : dst (ix1 (row (ix2 (e 0) (col i) : (⟨2, ![170000, 512]⟩ : Shape).Idx))) = row i :=
      (congrArg dst h1).trans he
    have h3 : (ix2 (dst (ix1 (row (ix2 (e 0) (col i) : (⟨2, ![170000, 512]⟩ : Shape).Idx)))) (col i) :
        (⟨2, ![10000, 512]⟩ : Shape).Idx) = ix2 (row i) (col i) :=
      congrArg (fun r => (ix2 r (col i) : (⟨2, ![10000, 512]⟩ : Shape).Idx)) h2
    exact h3.trans (eq_ix2 i).symm
  · intro j hj
    simp only [Finset.mem_filter, Finset.mem_univ, true_and] at hj
    show ix2 (row j) (col i) = j
    rw [← (hmem j hj).2]
    exact (eq_ix2 j).symm
  · intro e _
    show ix1 (e 0) = e
    exact (eq_ix1 e).symm
  · intro j hj
    simp only [Finset.mem_filter, Finset.mem_univ, true_and] at hj
    show upd j = upd (ix2 (row j) (col i))
    rw [← (hmem j hj).2]
    exact congrArg upd (eq_ix2 j)

/-- The dimension numbers of the gather of one row per edge: result axis 1 is the offset axis, operand axis 0 is
    collapsed and named by the one index word, the index vector on axis 1, slices of one row. -/
abbrev gd (h : GatherDims.WF ⟨2, ![10000, 512]⟩ ⟨2, ![170000, 1]⟩ ⟨2, ![170000, 512]⟩ [1] [0] [] [0] [] 1 ![1, 512]) :
    GatherDims ⟨2, ![10000, 512]⟩ ⟨2, ![170000, 1]⟩ ⟨2, ![170000, 512]⟩ :=
  { offsetDims := [1], collapsedSliceDims := [0], operandBatchingDims := [], startIndicesBatchingDims := [], startIndexMap := [0], indexVectorDim := 1, sliceSizes := ![1, 512], wf := h }

/-- The gather of one row per edge, at a result entry (e, q): the operand at (src e, q). The start on axis 0 is the
    index word read signed and clamped to the last row, and in range the clamp changes nothing; on axis 1 the start
    is zero and the offset coordinate is q. -/
theorem gatherRows_apply
    (h : GatherDims.WF ⟨2, ![10000, 512]⟩ ⟨2, ![170000, 1]⟩ ⟨2, ![170000, 512]⟩ [1] [0] [] [0] [] 1 ![1, 512])
    {α : Type} (x : (⟨2, ![10000, 512]⟩ : Shape).Idx → α) (idx : IVec ⟨2, ![170000, 1]⟩ 32) (src : E → Fin 10000)
    (hs : ∀ e : E, (idx (ix2 (e 0) 0)).toInt = ((src e).val : Int)) :
    Host.gather ({ offsetDims := [1], collapsedSliceDims := [0], operandBatchingDims := [], startIndicesBatchingDims := [], startIndexMap := [0], indexVectorDim := 1, sliceSizes := ![1, 512], wf := h } :
        GatherDims ⟨2, ![10000, 512]⟩ ⟨2, ![170000, 1]⟩ ⟨2, ![170000, 512]⟩) x idx
      = fun j => x (ix2 (src (ix1 (row j))) (col j)) := by
  funext j
  show x ((gd h).operandIdx j idx) = _
  congr 1
  funext a
  apply Fin.ext
  match a with
  | ⟨0, h0⟩ =>
    have hb : (⟨0, h0⟩ : Fin 2) ∉ (gd h).operandBatchingDims := List.not_mem_nil
    have hk : (⟨0, h0⟩ : Fin 2) ∉ (gd h).sKept :=
      (by decide : (⟨0, by decide⟩ : Fin 2) ∉ (⟨2, ![10000, 512]⟩ : Shape).kept ([0] ++ []))
    have hm : (⟨0, h0⟩ : Fin 2) ∈ (gd h).startIndexMap := List.mem_singleton.mpr rfl
    simp only [GatherDims.operandIdx, GatherDims.batchCoord_eq_zero _ _ _ hb, GatherDims.offCoord_eq_zero _ _ _ hk,
      Nat.add_zero, GatherDims.start, dif_pos hm]
    have hst : ∀ c : Fin (gd h).startIndexMap.length,
        (idx ((gd h).siIdx j c)).toInt = ((src (ix1 (row j))).val : Int) := by
      intro c
      have hsi : (gd h).siIdx j c = (ix2 (row j) (0 : Fin 1) : (⟨2, ![170000, 1]⟩ : Shape).Idx) := by
        funext b
        match b with
        | ⟨0, _⟩ => rfl
        | ⟨1, _⟩ =>
          apply Fin.ext
          have hc : c.val < 1 := c.isLt
          show c.val = 0
          omega
      rw [hsi]
      exact hs (ix1 (row j))
    rw [hst]
    show min (Int.toNat ((src (ix1 (row j))).val : Int)) (10000 - 1) = (src (ix1 (row j))).val
    rw [Int.toNat_natCast]
    have := (src (ix1 (row j))).isLt
    omega
  | ⟨1, h1⟩ =>
    have hb : (⟨1, h1⟩ : Fin 2) ∉ (gd h).operandBatchingDims := List.not_mem_nil
    have hm : (⟨1, h1⟩ : Fin 2) ∉ (gd h).startIndexMap :=
      (by decide : (⟨1, by decide⟩ : Fin 2) ∉ ([0] : List (Fin 2)))
    simp only [GatherDims.operandIdx, GatherDims.batchCoord_eq_zero _ _ _ hb,
      Nat.add_zero, GatherDims.start, dif_neg hm, Nat.zero_add]
    rfl

end Cert.Gcn.IndexOps

end
-- ==== Proof.RefValue.lean ====
/-
  The reference program's value. The reference computes six graph-convolution layers, each as: a matrix product
  with the layer's weights, a gather of the source rows of the 170000 edges, a product with the edge weights, a
  scatter-add into the destination rows of a zero array, the bias, a clamp at zero. Read index by index, each layer
  is the edge-by-edge layer of the specification: the scatter-add collects, for row d, the edges whose destination
  is d; the gather reads, for edge e, row src(e); the broadcasts read the edge's weight and the column's bias.
  The index operands hold the node numbers because every index word is in range (so the negative-index wrap in
  front of each gather is the identity).
-/
import proofs.«147721_j75531294868021_1_alg».proof.Proof.RefRead
import proofs.«147721_j75531294868021_1_alg».proof.Proof.Spec
import proofs.«147721_j75531294868021_1_alg».proof.Proof.IndexOps
import proofs.«147721_j75531294868021_1_alg».proof.Proof.Head
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx Idealize.ShloMosaic.StableHlo

/-- The edge index type: 160000 listed edges followed by 10000 self loops. -/
abbrev E : Type := S170000.Idx

/-- The all-zero 10000 x 512 array the programs broadcast from the zero word reads 0 everywhere. -/
theorem zeros_apply (i : S10000x512.Idx) :
    broadcastInDim S10000x512 ![] bcast_S_S10000x512 (constant (F := Ideal) S_ .f32 0x00000000#32) i = (0 : EReal) := by
  rw [broadcastInDim_apply _ bcast_S_S10000x512 _ i ix0 (fun a => a.elim0), constant_apply]
  exact Ideal.ofBits_zero_f32

/-- The per-edge weight broadcast along the feature axis reads the edge's weight. -/
theorem nrm_apply (nrm : FVec Ideal S170000 .f32) (j : S170000x512.Idx) :
    broadcastInDim S170000x512 ![0, 1] bcast_S170000x1_S170000x512_0_1
      (broadcastInDim S170000x1 ![0] bcast_S170000_S170000x1_0 nrm) j = nrm (ix1 (j 0)) := by
  rw [broadcastInDim_apply _ bcast_S170000x1_S170000x512_0_1 _ j (ix2 (j 0) 0) (fun a => match a with
    | ⟨0, _⟩ => by show (j 0).val = if (170000 : Nat) = 1 then 0 else (j 0).val; rw [if_neg (by decide)]
    | ⟨1, _⟩ => by show 0 = if (1 : Nat) = 1 then 0 else (j 1).val; rw [if_pos rfl])]
  exact broadcastInDim_apply _ bcast_S170000_S170000x1_0 nrm (ix2 (j 0) 0) (ix1 (j 0)) (fun a => match a with
    | ⟨0, _⟩ => by show (j 0).val = if (170000 : Nat) = 1 then 0 else (j 0).val; rw [if_neg (by decide)])

/-- The bias broadcast along the node axis reads the bias of the column. -/
theorem bias_apply (b : FVec Ideal S512 .f32) (i : S10000x512.Idx) :
    broadcastInDim S10000x512 ![0, 1] bcast_S1x512_S10000x512_0_1
      (broadcastInDim S1x512 ![1] bcast_S512_S1x512_1 b) i = b (ix1 (i 1)) := by
  rw [broadcastInDim_apply _ bcast_S1x512_S10000x512_0_1 _ i (ix2 0 (i 1)) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])]
  exact broadcastInDim_apply _ bcast_S512_S1x512_1 b (ix2 0 (i 1)) (ix1 (i 1)) (fun a => match a with
    | ⟨0, _⟩ => by show (i 1).val = if (512 : Nat) = 1 then 0 else (i 1).val; rw [if_neg (by decide)])

/-- One layer's aggregation as the reference prints it (gather the source rows, scale by the edge weight, scatter-add
    into the destination rows of a zero array, add the bias, clamp at zero) is the edge-by-edge aggregation. -/
theorem layer_read (H : Cert.Gcn.Mat 10000 512) (idxD idxS : IVec S170000x1 32) (nrm : FVec Ideal S170000 .f32)
    (b : FVec Ideal S512 .f32) (dst src : E → Fin 10000)
    (hD : ∀ e : E, (idxD (ix2 (e 0) 0)).toInt = ((dst e).val : Int))
    (hS : ∀ e : E, (idxS (ix2 (e 0) 0)).toInt = ((src e).val : Int)) :
    maximumf (addf (Host.scatterAdd scatter_S10000x512_S170000x1_S170000x512_1_0_0_1
        (broadcastInDim S10000x512 ![] bcast_S_S10000x512 (constant (F := Ideal) S_ .f32 0x00000000#32)) idxD
        (mulf (Host.gather gather_S10000x512_S170000x1_S170000x512_1_0_n_n_0_1_1512 H idxS)
          (broadcastInDim S170000x512 ![0, 1] bcast_S170000x1_S170000x512_0_1
            (broadcastInDim S170000x1 ![0] bcast_S170000_S170000x1_0 nrm))))
        (broadcastInDim S10000x512 ![0, 1] bcast_S1x512_S10000x512_0_1 (broadcastInDim S1x512 ![1] bcast_S512_S1x512_1 b)))
      (broadcastInDim S10000x512 ![] bcast_S_S10000x512 (constant (F := Ideal) S_ .f32 0x00000000#32))
    = Cert.Gcn.segRelu dst src nrm H (Cert.Gcn.vec1 b) := by
  have hg : Host.gather gather_S10000x512_S170000x1_S170000x512_1_0_n_n_0_1_1512 H idxS
      = fun j => H (ix2 (src (ix1 (Cert.Gcn.row j))) (Cert.Gcn.col j)) :=
    Cert.Gcn.IndexOps.gatherRows_apply _ H idxS src hS
  rw [hg]
  generalize hU : mulf (fun j => H (ix2 (src (ix1 (Cert.Gcn.row j))) (Cert.Gcn.col j)))
          (broadcastInDim S170000x512 ![0, 1] bcast_S170000x1_S170000x512_0_1
            (broadcastInDim S170000x1 ![0] bcast_S170000_S170000x1_0 nrm)) = U
  have hsc : Host.scatterAdd scatter_S10000x512_S170000x1_S170000x512_1_0_0_1
        (broadcastInDim S10000x512 ![] bcast_S_S10000x512 (constant (F := Ideal) S_ .f32 0x00000000#32)) idxD U
      = fun i => (broadcastInDim S10000x512 ![] bcast_S_S10000x512 (constant (F := Ideal) S_ .f32 0x00000000#32)) i
          + ∑ e ∈ Finset.univ.filter (fun e : E => dst e = Cert.Gcn.row i), U (ix2 (e 0) (Cert.Gcn.col i)) :=
    Cert.Gcn.IndexOps.scatterRows_apply _ _ idxD U dst hD
  rw [hsc]
  funext i
  rw [maximumf_apply, addf_apply, zeros_apply, bias_apply]
  have hsum : ∀ e : E, U (ix2 (e 0) (Cert.Gcn.col i)) = H (ix2 (src e) (Cert.Gcn.col i)) * nrm e := by
    intro e
    rw [← hU, mulf_apply, nrm_apply]
    exact congrArg (fun t : E => H (ix2 (src t) (Cert.Gcn.col i)) * nrm t) (eq_ix1 e).symm
  rw [Finset.sum_congr rfl (fun e _ => hsum e)]
  rfl

/-- The product of operation 32 is the matrix product of its operands. -/
theorem mm_v32 (x0 : FVec Ideal S10000x128 .f32) (x2 : FVec Ideal S128x512 .f32) :
    val_main_v32 (F := Ideal) x0 x2 = Cert.Gcn.mm x0 x2 := by
  funext i
  rw [val_main_v32_apply]
  unfold Cert.Gcn.mm
  refine Finset.sum_congr rfl fun k _ => ?_
  have el : lidx_main_v32 i k = ix2 (Cert.Gcn.row i) k := funext fun a => match a with
    | ⟨0, _⟩ => rfl
    | ⟨1, _⟩ => rfl
  have er : ridx_main_v32 i k = ix2 k (Cert.Gcn.col i) := funext fun a => match a with
    | ⟨0, _⟩ => rfl
    | ⟨1, _⟩ => rfl
  rw [el, er]

/-- The product of operation 54 is the matrix product of its operands. -/
theorem mm_v54 (x0 : FVec Ideal S10000x128 .f32) (x1 : IVec S2x160000 32) (x2 : FVec Ideal S128x512 .f32) (x3 : FVec Ideal S512 .f32) (x4 : FVec Ideal S4x512x512 .f32) :
    val_main_v54 (F := Ideal) x0 x1 x2 x3 x4 = Cert.Gcn.mm (val_main_v49 (F := Ideal) x0 x1 x2 x3) (val_main_v51 (F := Ideal) x4) := by
  funext i
  rw [val_main_v54_apply]
  unfold Cert.Gcn.mm
  refine Finset.sum_congr rfl fun k _ => ?_
  have el : lidx_main_v54 i k = ix2 (Cert.Gcn.row i) k := funext fun a => match a with
    | ⟨0, _⟩ => rfl
    | ⟨1, _⟩ => rfl
  have er : ridx_main_v54 i k = ix2 k (Cert.Gcn.col i) := funext fun a => match a with
    | ⟨0, _⟩ => rfl
    | ⟨1, _⟩ => rfl
  rw [el, er]

/-- The product of operation 76 is the matrix product of its operands. -/
theorem mm_v76 (x0 : FVec Ideal S10000x128 .f32) (x1 : IVec S2x160000 32) (x2 : FVec Ideal S128x512 .f32) (x3 : FVec Ideal S512 .f32) (x4 : FVec Ideal S4x512x512 .f32) (x5 : FVec Ideal S4x512 .f32) :
    val_main_v76 (F := Ideal) x0 x1 x2 x3 x4 x5 = Cert.Gcn.mm (val_main_v71 (F := Ideal) x0 x1 x2 x3 x4 x5) (val_main_v73 (F := Ideal) x4) := by
  funext i
  rw [val_main_v76_apply]
  unfold Cert.Gcn.mm
  refine Finset.sum_congr rfl fun k _ => ?_
  have el : lidx_main_v76 i k = ix2 (Cert.Gcn.row i) k := funext fun a => match a with
    | ⟨0, _⟩ => rfl
    | ⟨1, _⟩ => rfl
  have er : ridx_main_v76 i k = ix2 k (Cert.Gcn.col i) := funext fun a => match a with
    | ⟨0, _⟩ => rfl
    | ⟨1, _⟩ => rfl
  rw [el, er]

/-- The product of operation 98 is the matrix product of its operands. -/
theorem mm_v98 (x0 : FVec Ideal S10000x128 .f32) (x1 : IVec S2x160000 32) (x2 : FVec Ideal S128x512 .f32) (x3 : FVec Ideal S512 .f32) (x4 : FVec Ideal S4x512x512 .f32) (x5 : FVec Ideal S4x512 .f32) :
    val_main_v98 (F := Ideal) x0 x1 x2 x3 x4 x5 = Cert.Gcn.mm (val_main_v93 (F := Ideal) x0 x1 x2 x3 x4 x5) (val_main_v95 (F := Ideal) x4) := by
  funext i
  rw [val_main_v98_apply]
  unfold Cert.Gcn.mm
  refine Finset.sum_congr rfl fun k _ => ?_
  have el : lidx_main_v98 i k = ix2 (Cert.Gcn.row i) k := funext fun a => match a with
    | ⟨0, _⟩ => rfl
    | ⟨1, _⟩ => rfl
  have er : ridx_main_v98 i k = ix2 k (Cert.Gcn.col i) := funext fun a => match a with
    | ⟨0, _⟩ => rfl
    | ⟨1, _⟩ => rfl
  rw [el, er]

/-- The product of operation 120 is the matrix product of its operands. -/
theorem mm_v120 (x0 : FVec Ideal S10000x128 .f32) (x1 : IVec S2x160000 32) (x2 : FVec Ideal S128x512 .f32) (x3 : FVec Ideal S512 .f32) (x4 : FVec Ideal S4x512x512 .f32) (x5 : FVec Ideal S4x512 .f32) :
    val_main_v120 (F := Ideal) x0 x1 x2 x3 x4 x5 = Cert.Gcn.mm (val_main_v115 (F := Ideal) x0 x1 x2 x3 x4 x5) (val_main_v117 (F := Ideal) x4) := by
  funext i
  rw [val_main_v120_apply]
  unfold Cert.Gcn.mm
  refine Finset.sum_congr rfl fun k _ => ?_
  have el : lidx_main_v120 i k = ix2 (Cert.Gcn.row i) k := funext fun a => match a with
    | ⟨0, _⟩ => rfl
    | ⟨1, _⟩ => rfl
  have er : ridx_main_v120 i k = ix2 k (Cert.Gcn.col i) := funext fun a => match a with
    | ⟨0, _⟩ => rfl
    | ⟨1, _⟩ => rfl
  rw [el, er]

/-- The product of operation 138 is the matrix product of its operands. -/
theorem mm_v138 (x0 : FVec Ideal S10000x128 .f32) (x1 : IVec S2x160000 32) (x2 : FVec Ideal S128x512 .f32) (x3 : FVec Ideal S512 .f32) (x4 : FVec Ideal S4x512x512 .f32) (x5 : FVec Ideal S4x512 .f32) (x6 : FVec Ideal S512x512 .f32) :
    val_main_v138 (F := Ideal) x0 x1 x2 x3 x4 x5 x6 = Cert.Gcn.mm (val_main_v137 (F := Ideal) x0 x1 x2 x3 x4 x5) x6 := by
  funext i
  rw [val_main_v138_apply]
  unfold Cert.Gcn.mm
  refine Finset.sum_congr rfl fun k _ => ?_
  have el : lidx_main_v138 i k = ix2 (Cert.Gcn.row i) k := funext fun a => match a with
    | ⟨0, _⟩ => rfl
    | ⟨1, _⟩ => rfl
  have er : ridx_main_v138 i k = ix2 k (Cert.Gcn.col i) := funext fun a => match a with
    | ⟨0, _⟩ => rfl
    | ⟨1, _⟩ => rfl
  rw [el, er]

/-- Slice 0 of the stacked weights, as the reference cuts and reshapes it. -/
theorem wsl_v51 (x4 : FVec Ideal S4x512x512 .f32) : val_main_v51 (F := Ideal) x4 = Cert.Gcn.wsl x4 0 := by
  funext i
  rw [val_main_v51_apply, val_main_v50_apply]
  unfold Cert.Gcn.wsl
  refine congrArg x4 (funext fun a => Fin.ext ?_)
  have h0 := idx2_lt0 i
  have h1 := idx2_lt1 i
  match a with
  | ⟨0, _⟩ => rfl
  | ⟨1, _⟩ => show ((i 0).val * 512 + (i 1).val) / 512 % 512 = (i 0).val; omega
  | ⟨2, _⟩ => show ((i 0).val * 512 + (i 1).val) % 512 = (i 1).val; omega

/-- Row 0 of the stacked biases, as the reference cuts and reshapes it. -/
theorem bsl_v53 (x5 : FVec Ideal S4x512 .f32) : Cert.Gcn.vec1 (val_main_v53 (F := Ideal) x5) = Cert.Gcn.bsl x5 0 := by
  funext j
  unfold Cert.Gcn.vec1 Cert.Gcn.bsl
  rw [val_main_v53_apply, val_main_v52_apply]
  refine congrArg x5 (funext fun a => Fin.ext ?_)
  match a with
  | ⟨0, _⟩ => rfl
  | ⟨1, _⟩ => show j.val % 512 = j.val; exact Nat.mod_eq_of_lt j.isLt

/-- Slice 1 of the stacked weights, as the reference cuts and reshapes it. -/
theorem wsl_v73 (x4 : FVec Ideal S4x512x512 .f32) : val_main_v73 (F := Ideal) x4 = Cert.Gcn.wsl x4 1 := by
  funext i
  rw [val_main_v73_apply, val_main_v72_apply]
  unfold Cert.Gcn.wsl
  refine congrArg x4 (funext fun a => Fin.ext ?_)
  have h0 := idx2_lt0 i
  have h1 := idx2_lt1 i
  match a with
  | ⟨0, _⟩ => rfl
  | ⟨1, _⟩ => show ((i 0).val * 512 + (i 1).val) / 512 % 512 = (i 0).val; omega
  | ⟨2, _⟩ => show ((i 0).val * 512 + (i 1).val) % 512 = (i 1).val; omega

/-- Row 1 of the stacked biases, as the reference cuts and reshapes it. -/
theorem bsl_v75 (x5 : FVec Ideal S4x512 .f32) : Cert.Gcn.vec1 (val_main_v75 (F := Ideal) x5) = Cert.Gcn.bsl x5 1 := by
  funext j
  unfold Cert.Gcn.vec1 Cert.Gcn.bsl
  rw [val_main_v75_apply, val_main_v74_apply]
  refine congrArg x5 (funext fun a => Fin.ext ?_)
  match a with
  | ⟨0, _⟩ => rfl
  | ⟨1, _⟩ => show j.val % 512 = j.val; exact Nat.mod_eq_of_lt j.isLt

/-- Slice 2 of the stacked weights, as the reference cuts and reshapes it. -/
theorem wsl_v95 (x4 : FVec Ideal S4x512x512 .f32) : val_main_v95 (F := Ideal) x4 = Cert.Gcn.wsl x4 2 := by
  funext i
  rw [val_main_v95_apply, val_main_v94_apply]
  unfold Cert.Gcn.wsl
  refine congrArg x4 (funext fun a => Fin.ext ?_)
  have h0 := idx2_lt0 i
  have h1 := idx2_lt1 i
  match a with
  | ⟨0, _⟩ => rfl
  | ⟨1, _⟩ => show ((i 0).val * 512 + (i 1).val) / 512 % 512 = (i 0).val; omega
  | ⟨2, _⟩ => show ((i 0).val * 512 + (i 1).val) % 512 = (i 1).val; omega

/-- Row 2 of the stacked biases, as the reference cuts and reshapes it. -/
theorem bsl_v97 (x5 : FVec Ideal S4x512 .f32) : Cert.Gcn.vec1 (val_main_v97 (F := Ideal) x5) = Cert.Gcn.bsl x5 2 := by
  funext j
  unfold Cert.Gcn.vec1 Cert.Gcn.bsl
  rw [val_main_v97_apply, val_main_v96_apply]
  refine congrArg x5 (funext fun a => Fin.ext ?_)
  match a with
  | ⟨0, _⟩ => rfl
  | ⟨1, _⟩ => show j.val % 512 = j.val; exact Nat.mod_eq_of_lt j.isLt

/-- Slice 3 of the stacked weights, as the reference cuts and reshapes it. -/
theorem wsl_v117 (x4 : FVec Ideal S4x512x512 .f32) : val_main_v117 (F := Ideal) x4 = Cert.Gcn.wsl x4 3 := by
  funext i
  rw [val_main_v117_apply, val_main_v116_apply]
  unfold Cert.Gcn.wsl
  refine congrArg x4 (funext fun a => Fin.ext ?_)
  have h0 := idx2_lt0 i
  have h1 := idx2_lt1 i
  match a with
  | ⟨0, _⟩ => rfl
  | ⟨1, _⟩ => show ((i 0).val * 512 + (i 1).val) / 512 % 512 = (i 0).val; omega
  | ⟨2, _⟩ => show ((i 0).val * 512 + (i 1).val) % 512 = (i 1).val; omega

/-- Row 3 of the stacked biases, as the reference cuts and reshapes it. -/
theorem bsl_v119 (x5 : FVec Ideal S4x512 .f32) : Cert.Gcn.vec1 (val_main_v119 (F := Ideal) x5) = Cert.Gcn.bsl x5 3 := by
  funext j
  unfold Cert.Gcn.vec1 Cert.Gcn.bsl
  rw [val_main_v119_apply, val_main_v118_apply]
  refine congrArg x5 (funext fun a => Fin.ext ?_)
  match a with
  | ⟨0, _⟩ => rfl
  | ⟨1, _⟩ => show j.val % 512 = j.val; exact Nat.mod_eq_of_lt j.isLt

/-- The destination index operand (the destination words as a column) holds the destination node of each edge. -/
theorem dst_col (x1 : IVec S2x160000 32) (hr : ∀ i, 0 ≤ (x1 i).toInt ∧ (x1 i).toInt < 10000)
    (h : S170000.BroadcastsInDim S170000x1 (![0] : Fin 1 → Fin S170000x1.rank)) (e : E) :
    ((broadcastInDim S170000x1 ![0] h (val_main_v6 (F := Ideal) x1)) (ix2 (e 0) 0)).toInt = ((Cert.Head.dstN x1 e).val : Int) := by
  rw [Cert.Head.bcast_col]
  exact Cert.Head.dst_word x1 hr e

/-- The source index operand (the source words behind the negative-index wrap, as a column) holds the source node of
    each edge: the words are in range, so the wrap changes nothing. -/
theorem src_col (x1 : IVec S2x160000 32) (hr : ∀ i, 0 ≤ (x1 i).toInt ∧ (x1 i).toInt < 10000)
    (h : S170000.BroadcastsInDim S170000x1 (![0] : Fin 1 → Fin S170000x1.rank))
    (h0 h1 : S_.BroadcastsInDim S170000 (![] : Fin 0 → Fin S170000.rank)) (e : E) :
    ((broadcastInDim S170000x1 ![0] h
      (select (cmpi .slt (val_main_v3 (F := Ideal) x1) (broadcastInDim S170000 ![] h0 (constantI S_ 32 0#32)))
        (addi (val_main_v3 (F := Ideal) x1) (broadcastInDim S170000 ![] h1 (constantI S_ 32 10000#32)))
        (val_main_v3 (F := Ideal) x1))) (ix2 (e 0) 0)).toInt = ((Cert.Head.srcN x1 e).val : Int) := by
  rw [Cert.Head.wrap_id _ (Cert.Head.src_inrange x1 hr), Cert.Head.bcast_col]
  exact Cert.Head.src_word x1 hr e

/-- Layer 1 of the reference is one edge-by-edge layer of the specification. -/
theorem layer1 (x0 : FVec Ideal S10000x128 .f32) (x1 : IVec S2x160000 32) (x2 : FVec Ideal S128x512 .f32) (x3 : FVec Ideal S512 .f32) (hr : ∀ i, 0 ≤ (x1 i).toInt ∧ (x1 i).toInt < 10000) :
    val_main_v49 (F := Ideal) x0 x1 x2 x3 = Cert.Gcn.layerR (Cert.Head.dstN x1) (Cert.Head.srcN x1) (val_main_v31 (F := Ideal) x1) x0 x2 (Cert.Gcn.vec1 x3) := by
  unfold val_main_v49 val_main_v48 val_main_v45 val_main_v42 val_main_v39 val_main_v41 val_main_v40 val_main_v43 val_main_cst_9 val_main_v44 val_main_v47 val_main_v46 val_main_call1_v0 val_main_call1_cst val_main_v38 val_main_v37 val_main_v34 val_main_v36 val_main_v33 val_main_v35 val_main_c_7 val_main_c_8
  refine (layer_read _ _ _ _ _ (Cert.Head.dstN x1) (Cert.Head.srcN x1) (fun e => dst_col x1 hr _ e)
    (fun e => src_col x1 hr _ _ _ e)).trans ?_
  unfold Cert.Gcn.layerR
  rw [mm_v32]

/-- Layer 2 of the reference is one edge-by-edge layer of the specification. -/
theorem layer2 (x0 : FVec Ideal S10000x128 .f32) (x1 : IVec S2x160000 32) (x2 : FVec Ideal S128x512 .f32) (x3 : FVec Ideal S512 .f32) (x4 : FVec Ideal S4x512x512 .f32) (x5 : FVec Ideal S4x512 .f32) (hr : ∀ i, 0 ≤ (x1 i).toInt ∧ (x1 i).toInt < 10000) :
    val_main_v71 (F := Ideal) x0 x1 x2 x3 x4 x5 = Cert.Gcn.layerR (Cert.Head.dstN x1) (Cert.Head.srcN x1) (val_main_v31 (F := Ideal) x1) (val_main_v49 (F := Ideal) x0 x1 x2 x3) (Cert.Gcn.wsl x4 0) (Cert.Gcn.bsl x5 0) := by
  unfold val_main_v71 val_main_v70 val_main_v67 val_main_v64 val_main_v61 val_main_v63 val_main_v62 val_main_v65 val_main_cst_12 val_main_v66 val_main_v69 val_main_v68 val_main_call2_v0 val_main_call2_cst val_main_v60 val_main_v59 val_main_v56 val_main_v58 val_main_v55 val_main_v57 val_main_c_10 val_main_c_11
  refine (layer_read _ _ _ _ _ (Cert.Head.dstN x1) (Cert.Head.srcN x1) (fun e => dst_col x1 hr _ e)
    (fun e => src_col x1 hr _ _ _ e)).trans ?_
  unfold Cert.Gcn.layerR
  rw [mm_v54, wsl_v51, bsl_v53]

/-- Layer 3 of the reference is one edge-by-edge layer of the specification. -/
theorem layer3 (x0 : FVec Ideal S10000x128 .f32) (x1 : IVec S2x160000 32) (x2 : FVec Ideal S128x512 .f32) (x3 : FVec Ideal S512 .f32) (x4 : FVec Ideal S4x512x512 .f32) (x5 : FVec Ideal S4x512 .f32) (hr : ∀ i, 0 ≤ (x1 i).toInt ∧ (x1 i).toInt < 10000) :
    val_main_v93 (F := Ideal) x0 x1 x2 x3 x4 x5 = Cert.Gcn.layerR (Cert.Head.dstN x1) (Cert.Head.srcN x1) (val_main_v31 (F := Ideal) x1) (val_main_v71 (F := Ideal) x0 x1 x2 x3 x4 x5) (Cert.Gcn.wsl x4 1) (Cert.Gcn.bsl x5 1) := by
  unfold val_main_v93 val_main_v92 val_main_v89 val_main_v86 val_main_v83 val_main_v85 val_main_v84 val_main_v87 val_main_cst_15 val_main_v88 val_main_v91 val_main_v90 val_main_call3_v0 val_main_call3_cst val_main_v82 val_main_v81 val_main_v78 val_main_v80 val_main_v77 val_main_v79 val_main_c_13 val_main_c_14
  refine (layer_read _ _ _ _ _ (Cert.Head.dstN x1) (Cert.Head.srcN x1) (fun e => dst_col x1 hr _ e)
    (fun e => src_col x1 hr _ _ _ e)).trans ?_
  unfold Cert.Gcn.layerR
  rw [mm_v76, wsl_v73, bsl_v75]

/-- Layer 4 of the reference is one edge-by-edge layer of the specification. -/
theorem layer4 (x0 : FVec Ideal S10000x128 .f32) (x1 : IVec S2x160000 32) (x2 : FVec Ideal S128x512 .f32) (x3 : FVec Ideal S512 .f32) (x4 : FVec Ideal S4x512x512 .f32) (x5 : FVec Ideal S4x512 .f32) (hr : ∀ i, 0 ≤ (x1 i).toInt ∧ (x1 i).toInt < 10000) :
    val_main_v115 (F := Ideal) x0 x1 x2 x3 x4 x5 = Cert.Gcn.layerR (Cert.Head.dstN x1) (Cert.Head.srcN x1) (val_main_v31 (F := Ideal) x1) (val_main_v93 (F := Ideal) x0 x1 x2 x3 x4 x5) (Cert.Gcn.wsl x4 2) (Cert.Gcn.bsl x5 2) := by
  unfold val_main_v115 val_main_v114 val_main_v111 val_main_v108 val_main_v105 val_main_v107 val_main_v106 val_main_v109 val_main_cst_18 val_main_v110 val_main_v113 val_main_v112 val_main_call4_v0 val_main_call4_cst val_main_v104 val_main_v103 val_main_v100 val_main_v102 val_main_v99 val_main_v101 val_main_c_16 val_main_c_17
  refine (layer_read _ _ _ _ _ (Cert.Head.dstN x1) (Cert.Head.srcN x1) (fun e => dst_col x1 hr _ e)
    (fun e => src_col x1 hr _ _ _ e)).trans ?_
  unfold Cert.Gcn.layerR
  rw [mm_v98, wsl_v95, bsl_v97]

/-- Layer 5 of the reference is one edge-by-edge layer of the specification. -/
theorem layer5 (x0 : FVec Ideal S10000x128 .f32) (x1 : IVec S2x160000 32) (x2 : FVec Ideal S128x512 .f32) (x3 : FVec Ideal S512 .f32) (x4 : FVec Ideal S4x512x512 .f32) (x5 : FVec Ideal S4x512 .f32) (hr : ∀ i, 0 ≤ (x1 i).toInt ∧ (x1 i).toInt < 10000) :
    val_main_v137 (F := Ideal) x0 x1 x2 x3 x4 x5 = Cert.Gcn.layerR (Cert.Head.dstN x1) (Cert.Head.srcN x1) (val_main_v31 (F := Ideal) x1) (val_main_v115 (F := Ideal) x0 x1 x2 x3 x4 x5) (Cert.Gcn.wsl x4 3) (Cert.Gcn.bsl x5 3) := by
  unfold val_main_v137 val_main_v136 val_main_v133 val_main_v130 val_main_v127 val_main_v129 val_main_v128 val_main_v131 val_main_cst_21 val_main_v132 val_main_v135 val_main_v134 val_main_call5_v0 val_main_call5_cst val_main_v126 val_main_v125 val_main_v122 val_main_v124 val_main_v121 val_main_v123 val_main_c_19 val_main_c_20
  refine (layer_read _ _ _ _ _ (Cert.Head.dstN x1) (Cert.Head.srcN x1) (fun e => dst_col x1 hr _ e)
    (fun e => src_col x1 hr _ _ _ e)).trans ?_
  unfold Cert.Gcn.layerR
  rw [mm_v120, wsl_v117, bsl_v119]

/-- Layer 6 of the reference is one edge-by-edge layer of the specification. -/
theorem layer6 (x0 : FVec Ideal S10000x128 .f32) (x1 : IVec S2x160000 32) (x2 : FVec Ideal S128x512 .f32) (x3 : FVec Ideal S512 .f32) (x4 : FVec Ideal S4x512x512 .f32) (x5 : FVec Ideal S4x512 .f32) (x6 : FVec Ideal S512x512 .f32) (x7 : FVec Ideal S512 .f32) (hr : ∀ i, 0 ≤ (x1 i).toInt ∧ (x1 i).toInt < 10000) :
    val_main_v155 (F := Ideal) x0 x1 x2 x3 x4 x5 x6 x7 = Cert.Gcn.layerR (Cert.Head.dstN x1) (Cert.Head.srcN x1) (val_main_v31 (F := Ideal) x1) (val_main_v137 (F := Ideal) x0 x1 x2 x3 x4 x5) x6 (Cert.Gcn.vec1 x7) := by
  unfold val_main_v155 val_main_v154 val_main_v151 val_main_v148 val_main_v145 val_main_v147 val_main_v146 val_main_v149 val_main_cst_24 val_main_v150 val_main_v153 val_main_v152 val_main_call6_v0 val_main_call6_cst val_main_v144 val_main_v143 val_main_v140 val_main_v142 val_main_v139 val_main_v141 val_main_c_22 val_main_c_23
  refine (layer_read _ _ _ _ _ (Cert.Head.dstN x1) (Cert.Head.srcN x1) (fun e => dst_col x1 hr _ e)
    (fun e => src_col x1 hr _ _ _ e)).trans ?_
  unfold Cert.Gcn.layerR
  rw [mm_v138]

/-- The reference program's result is the six edge-by-edge layers of the specification, over the destination and
    source nodes of the 170000 edges and the edge weights the program computes from them. -/
theorem ref_value (x0 : FVec Ideal S10000x128 .f32) (x1 : IVec S2x160000 32) (x2 : FVec Ideal S128x512 .f32) (x3 : FVec Ideal S512 .f32) (x4 : FVec Ideal S4x512x512 .f32) (x5 : FVec Ideal S4x512 .f32) (x6 : FVec Ideal S512x512 .f32) (x7 : FVec Ideal S512 .f32)
    (hr : ∀ i, 0 ≤ (x1 i).toInt ∧ (x1 i).toInt < 10000) :
    val_main_v155 (F := Ideal) x0 x1 x2 x3 x4 x5 x6 x7
      = Cert.Gcn.gcnR (Cert.Head.dstN x1) (Cert.Head.srcN x1) (val_main_v31 (F := Ideal) x1) x0 x2 x3 x4 x5 x6 x7 := by
  unfold Cert.Gcn.gcnR
  rw [layer6 x0 x1 x2 x3 x4 x5 x6 x7 hr, layer5 x0 x1 x2 x3 x4 x5 hr, layer4 x0 x1 x2 x3 x4 x5 hr,
    layer3 x0 x1 x2 x3 x4 x5 hr, layer2 x0 x1 x2 x3 x4 x5 hr, layer1 x0 x1 x2 x3 hr]

end Cert.RefValue

end
-- ==== Proof.KAdj.lean ====
/-
  The dense normalised adjacency matrix the kernel program builds on the host before its first kernel region.

  From the edge list the program forms the destination and source words of the 170000 edges and one weight per
  edge (the same first operations as the reference function), and scatters the weights into a 10000 x 10000
  matrix of zeros: entry (d, s) receives the weight of every edge from s to d. With every node number in
  [0, 10000) the negative-index wrap in front of the scatter is the identity, the scatter's index pairs are
  (dst e, src e), and the matrix is Cert.Gcn.adj of the edge list and the weights.
-/
import proofs.«147721_j75531294868021_1_alg».proof.Proof.Gen.KernelIdeal.Frame
import proofs.«147721_j75531294868021_1_alg».proof.Proof.RefRead
import proofs.«147721_j75531294868021_1_alg».proof.Proof.Spec
import proofs.«147721_j75531294868021_1_alg».proof.Proof.IndexOps
import proofs.«147721_j75531294868021_1_alg».proof.Proof.Head
import Idealize.ShloMosaic.Lib.StableHlo.Run
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The host operations read at a buffer

The three stretches of host operations before the first kernel region, read at the buffers the adjacency matrix
is made from, over any contents the stretch starts from. -/

/-- Two index columns side by side: the scatter's index pairs. -/
def cat2 (a b : IVec S170000x1 32) : IVec S170000x2 32 :=
  concatenate S170000x2 1 [⟨S170000x1, a⟩, ⟨S170000x1, b⟩] concatenates_S170000x1_S170000x1_S170000x2_d1

theorem cat2_def (a b : IVec S170000x1 32) :
    cat2 a b = concatenate S170000x2 1 [⟨S170000x1, a⟩, ⟨S170000x1, b⟩] concatenates_S170000x1_S170000x1_S170000x2_d1 := rfl

/-- The negative-index wrap the programs place in front of every gather and scatter. -/
def wrapK (w : IVec S170000 32) : IVec S170000 32 :=
  select (cmpi .slt w (broadcastInDim S170000 ![] bcast_S_S170000 (constantI S_ 32 0#32)))
    (addi w (broadcastInDim S170000 ![] bcast_S_S170000 (constantI S_ 32 10000#32))) w

/-- The edge weights from the source words, the destination words and the inverse square roots of the degrees. -/
def weightK (s d : IVec S170000 32) (r : FVec Ideal S10000 .f32) : FVec Ideal S170000 .f32 :=
  mulf (Host.gather gather_S10000_S170000x1_S170000_n_0_n_n_0_1_1 r (broadcastInDim S170000x1 ![0] bcast_S170000_S170000x1_0 (wrapK s)))
    (Host.gather gather_S10000_S170000x1_S170000_n_0_n_n_0_1_1 r (broadcastInDim S170000x1 ![0] bcast_S170000_S170000x1_0 (wrapK d)))

/-- The matrix the third stretch leaves: the weights scattered into zeros at the pairs (dst, src). -/
def adjK (s d : IVec S170000 32) (w : FVec Ideal S170000 .f32) : FVec Ideal S10000x10000 .bf16 :=
  truncf .bf16 (Host.scatterAdd scatter_S10000x10000_S170000x2_S170000_n_01_01_1
    (broadcastInDim S10000x10000 ![] bcast_S_S10000x10000 (constant (F := Ideal) S_ .f32 0x00000000#32))
    (cat2 (broadcastInDim S170000x1 ![0] bcast_S170000_S170000x1_0 (wrapK d))
      (broadcastInDim S170000x1 ![0] bcast_S170000_S170000x1_0 (wrapK s))) w) bitsLt_bf16_f32

set_option maxHeartbeats 1000000 in
theorem ops2_v47 (V : Valuation τ sig (Elt Ideal)) :
    (StableHlo.after hostOps0_2 V (Proc.devRef .tc main_v47) : S10000x10000.Idx → EReal)
      = adjK (V (Proc.devRef .tc main_v3)) (V (Proc.devRef .tc main_v6))
          (weightK (V (Proc.devRef .tc main_v3)) (V (Proc.devRef .tc main_v6)) (V (Proc.devRef .tc main_v16))) := by
  simp only [hostOps0_2]
  after_results_simp
  rw [← cat2_def]
  after_results_simp
  rfl

/-- The 160000 given words followed by the 10000 self-loop words. -/
def catE (a : IVec S160000 32) (b : IVec S10000 32) : IVec S170000 32 :=
  concatenate S170000 0 [⟨S160000, a⟩, ⟨S10000, b⟩] concatenates_S160000_S10000_S170000_d0

theorem catE_def (a : IVec S160000 32) (b : IVec S10000 32) :
    catE a b = concatenate S170000 0 [⟨S160000, a⟩, ⟨S10000, b⟩] concatenates_S160000_S10000_S170000_d0 := rfl

open Cert.ReferenceIdeal.Read in
theorem ops0_v3 (V : Valuation τ sig (Elt Ideal)) :
    (StableHlo.after hostOps0 V (Proc.devRef .tc main_v3) : (⟨S170000, .i32⟩ : BufTy).Contents (Elt Ideal))
      = val_main_v3 (F := Ideal) (V (Proc.devRef .tc main_arg1)) := by
  simp only [hostOps0]
  after_results_simp
  rw [← catE_def]
  after_results_simp
  rfl

open Cert.ReferenceIdeal.Read in
theorem ops0_v6 (V : Valuation τ sig (Elt Ideal)) :
    (StableHlo.after hostOps0 V (Proc.devRef .tc main_v6) : (⟨S170000, .i32⟩ : BufTy).Contents (Elt Ideal))
      = val_main_v6 (F := Ideal) (V (Proc.devRef .tc main_arg1)) := by
  simp only [hostOps0]
  after_results_simp
  rw [← catE_def]
  after_results_simp
  rfl

open Cert.ReferenceIdeal.Read in
theorem ops0_v12 (V : Valuation τ sig (Elt Ideal)) :
    (StableHlo.after hostOps0 V (Proc.devRef .tc main_v12) : (⟨S10000, .i1⟩ : BufTy).Contents (Elt Ideal))
      = val_main_v12 (F := Ideal) (V (Proc.devRef .tc main_arg1)) := by
  simp only [hostOps0]
  after_results_simp
  rw [← catE_def]
  after_results_simp
  rfl

open Cert.ReferenceIdeal.Read in
theorem ops0_v15 (V : Valuation τ sig (Elt Ideal)) :
    (StableHlo.after hostOps0 V (Proc.devRef .tc main_v15) : (⟨S10000, .f32⟩ : BufTy).Contents (Elt Ideal))
      = val_main_v15 (F := Ideal) (V (Proc.devRef .tc main_arg1)) := by
  simp only [hostOps0]
  after_results_simp
  rw [← catE_def]
  after_results_simp
  rfl

open Cert.ReferenceIdeal.Read in
theorem ops0_cst_3 (V : Valuation τ sig (Elt Ideal)) :
    (StableHlo.after hostOps0 V (Proc.devRef .tc main_cst_3) : (⟨S_, .f32⟩ : BufTy).Contents (Elt Ideal))
      = val_main_cst_3 (F := Ideal) := by
  simp only [hostOps0]
  after_results_simp
  rfl

theorem ops1_v3 (V : Valuation τ sig (Elt Ideal)) :
    StableHlo.after hostOps0_1 V (Proc.devRef .tc main_v3) = V (Proc.devRef .tc main_v3) := by
  simp only [hostOps0_1]
  after_results_simp

theorem ops1_v6 (V : Valuation τ sig (Elt Ideal)) :
    StableHlo.after hostOps0_1 V (Proc.devRef .tc main_v6) = V (Proc.devRef .tc main_v6) := by
  simp only [hostOps0_1]
  after_results_simp

theorem ops1_v16 (V : Valuation τ sig (Elt Ideal)) :
    (StableHlo.after hostOps0_1 V (Proc.devRef .tc main_v16) : (⟨S10000, .f32⟩ : BufTy).Contents (Elt Ideal))
      = select (V (Proc.devRef .tc main_v12)) (V (Proc.devRef .tc main_v15))
          (broadcastInDim S10000 ![] bcast_S_S10000 (id (V (Proc.devRef .tc main_cst_3)))) := by
  simp only [hostOps0_1]
  after_results_simp
  rfl

/-! ## The reference's values

The kernel program's first operations are the reference function's: at the same edge list the source words, the
destination words, the inverse square roots of the degrees and the edge weights are the same terms. -/

open Cert.ReferenceIdeal.Read in
/-- The source words when the first kernel region is entered. -/
theorem W2_v3 (c : Dev nD) :
    (W2 m ρ c (Proc.devRef .tc main_v3) : (⟨S170000, .i32⟩ : BufTy).Contents (Elt Ideal))
      = val_main_v3 (F := Ideal) (m ((c : Thread nD τ).loc main_arg1)) := by
  show StableHlo.after hostOps0_1 (W1 m ρ c) (Proc.devRef .tc main_v3) = _
  rw [ops1_v3]
  show StableHlo.after hostOps0 (W0 m ρ c) (Proc.devRef .tc main_v3) = _
  rw [ops0_v3]

open Cert.ReferenceIdeal.Read in
/-- The destination words when the first kernel region is entered. -/
theorem W2_v6 (c : Dev nD) :
    (W2 m ρ c (Proc.devRef .tc main_v6) : (⟨S170000, .i32⟩ : BufTy).Contents (Elt Ideal))
      = val_main_v6 (F := Ideal) (m ((c : Thread nD τ).loc main_arg1)) := by
  show StableHlo.after hostOps0_1 (W1 m ρ c) (Proc.devRef .tc main_v6) = _
  rw [ops1_v6]
  show StableHlo.after hostOps0 (W0 m ρ c) (Proc.devRef .tc main_v6) = _
  rw [ops0_v6]

open Cert.ReferenceIdeal.Read in
/-- The inverse square roots of the degrees (zero where the degree is not positive). -/
theorem W2_v16 (c : Dev nD) :
    (W2 m ρ c (Proc.devRef .tc main_v16) : (⟨S10000, .f32⟩ : BufTy).Contents (Elt Ideal))
      = val_main_v16 (F := Ideal) (m ((c : Thread nD τ).loc main_arg1)) := by
  show StableHlo.after hostOps0_1 (W1 m ρ c) (Proc.devRef .tc main_v16) = _
  rw [ops1_v16]
  rw [show W1 m ρ c = StableHlo.after hostOps0 (W0 m ρ c) from rfl]
  rw [ops0_v12, ops0_v15, ops0_cst_3]
  rfl

open Cert.ReferenceIdeal.Read in
/-- The edge weights are the reference's. -/
theorem weightK_ref (x1 : (⟨S2x160000, .i32⟩ : BufTy).Contents (Elt Ideal)) :
    weightK (val_main_v3 (F := Ideal) x1) (val_main_v6 (F := Ideal) x1) (val_main_v16 (F := Ideal) x1)
      = val_main_v31 (F := Ideal) x1 := rfl

/-! ## The scatter read at an index -/

/-- In range the wrap is the identity. -/
theorem wrapK_id (w : IVec S170000 32) (hw : ∀ e, 0 ≤ (w e).toInt ∧ (w e).toInt < 10000) : wrapK w = w :=
  Cert.Head.wrap_id w hw bcast_S_S170000 bcast_S_S170000

open Idealize.ShloMosaic.ValueIdx in
/-- Column 0 of the index pairs is the first column. -/
theorem cat2_col0 (a b : IVec S170000x1 32) (p : Fin 170000) :
    cat2 a b (ix2 p (0 : Fin 2)) = a (ix2 p (0 : Fin 1)) := by
  unfold cat2
  refine concatenate_pair_apply_left (t := S170000x2) (s₁ := S170000x1) (s₂ := S170000x1) (1 : Fin 2) a b
    concatenates_S170000x1_S170000x1_S170000x2_d1 (ix2 p (0 : Fin 2)) rfl (ix2 p (0 : Fin 1)) ?_
  intro k
  match k with
  | ⟨0, _⟩ => rfl
  | ⟨1, _⟩ => rfl

open Idealize.ShloMosaic.ValueIdx in
/-- Column 1 of the index pairs is the second column. -/
theorem cat2_col1 (a b : IVec S170000x1 32) (p : Fin 170000) :
    cat2 a b (ix2 p (1 : Fin 2)) = b (ix2 p (0 : Fin 1)) := by
  unfold cat2
  refine concatenate_pair_apply_right (t := S170000x2) (s₁ := S170000x1) (s₂ := S170000x1) (1 : Fin 2) a b
    concatenates_S170000x1_S170000x1_S170000x2_d1 (ix2 p (1 : Fin 2)) rfl rfl (ix2 p (0 : Fin 1)) ?_ ?_
  · intro k
    match k with
    | ⟨0, _⟩ => exact fun _ => rfl
    | ⟨1, _⟩ => exact fun h => absurd rfl h
  · rfl

/-- The scatter's operand: zeros. -/
theorem zeros_apply (i : S10000x10000.Idx) :
    (broadcastInDim S10000x10000 ![] bcast_S_S10000x10000 (constant (F := Ideal) S_ .f32 0x00000000#32)) i = (0 : EReal) := by
  rw [broadcastInDim_apply (s := S_) (t := S10000x10000) ![] bcast_S_S10000x10000
    (constant (F := Ideal) S_ .f32 0x00000000#32) i (fun a => a.elim0) (fun a => a.elim0)]
  exact Ideal.ofBits_zero_f32

open Idealize.ShloMosaic.ValueIdx in
/-- The scatter into zeros at index pairs (dst e, src e) is the dense adjacency matrix. -/
theorem scatterK_eq (idx : IVec S170000x2 32) (w : FVec Ideal S170000 .f32) (dst src : Cert.Gcn.IndexOps.E → Fin 10000)
    (hd : ∀ e : Cert.Gcn.IndexOps.E, (idx (ix2 (e 0) 0)).toInt = ((dst e).val : Int))
    (hs : ∀ e : Cert.Gcn.IndexOps.E, (idx (ix2 (e 0) 1)).toInt = ((src e).val : Int)) :
    (Host.scatterAdd scatter_S10000x10000_S170000x2_S170000_n_01_01_1
      (broadcastInDim S10000x10000 ![] bcast_S_S10000x10000 (constant (F := Ideal) S_ .f32 0x00000000#32)) idx w
        : S10000x10000.Idx → EReal) = Cert.Gcn.adj dst src w := by
  have key := Cert.Gcn.IndexOps.scatter2_apply scatter_S10000x10000_S170000x2_S170000_n_01_01_1_wf
    (broadcastInDim S10000x10000 ![] bcast_S_S10000x10000 (constant (F := Ideal) S_ .f32 0x00000000#32)) idx w dst src hd hs
  unfold Host.scatterAdd
  rw [Ideal.hostScatterAdd_def]
  rw [show scatter_S10000x10000_S170000x2_S170000_n_01_01_1
    = (⟨[], [0, 1], [0, 1], 1, scatter_S10000x10000_S170000x2_S170000_n_01_01_1_wf⟩ : ScatterDims S10000x10000 S170000x2 S170000) from rfl]
  rw [key]
  unfold Cert.Gcn.adj
  funext i
  rw [zeros_apply]

open Idealize.ShloMosaic.ValueIdx in
/-- With the words in range the scattered matrix is the dense adjacency matrix of the edge list. -/
theorem adjK_eq (s d : IVec S170000 32) (w : FVec Ideal S170000 .f32) (dst src : Cert.Gcn.IndexOps.E → Fin 10000)
    (hsr : ∀ e, 0 ≤ (s e).toInt ∧ (s e).toInt < 10000) (hdr : ∀ e, 0 ≤ (d e).toInt ∧ (d e).toInt < 10000)
    (hs : ∀ e, (s e).toInt = ((src e).val : Int)) (hd : ∀ e, (d e).toInt = ((dst e).val : Int)) :
    (adjK s d w : S10000x10000.Idx → EReal) = Cert.Gcn.adj dst src w := by
  unfold adjK
  rw [wrapK_id d hdr, wrapK_id s hsr]
  funext i
  rw [truncf_apply]
  refine congrFun (scatterK_eq _ w dst src (fun e => ?_) (fun e => ?_)) i
  · exact (congrArg BitVec.toInt ((cat2_col0 _ _ (e 0)).trans (Cert.Head.bcast_col d bcast_S170000_S170000x1_0 e))).trans (hd e)
  · exact (congrArg BitVec.toInt ((cat2_col1 _ _ (e 0)).trans (Cert.Head.bcast_col s bcast_S170000_S170000x1_0 e))).trans (hs e)

/-! ## The adjacency matrix the first kernel region finds -/

/-- The matrix the first kernel region finds in the adjacency buffer is the dense adjacency matrix of the edge
    list with the normalised weights. -/
theorem adj3 (c : Dev nD)
    (hr : ∀ i, 0 ≤ ((m ((c : Thread nD τ).loc main_arg1) : S2x160000.Idx → BitVec 32) i).toInt
      ∧ ((m ((c : Thread nD τ).loc main_arg1) : S2x160000.Idx → BitVec 32) i).toInt < 10000) :
    (W3 m ρ c (Proc.devRef .tc main_v47) : S10000x10000.Idx → EReal)
      = Cert.Gcn.adj (Cert.Head.dstN (m ((c : Thread nD τ).loc main_arg1))) (Cert.Head.srcN (m ((c : Thread nD τ).loc main_arg1)))
          (Cert.ReferenceIdeal.Read.val_main_v31 (F := Ideal) (m ((c : Thread nD τ).loc main_arg1))) := by
  show StableHlo.after hostOps0_2 (W2 m ρ c) (Proc.devRef .tc main_v47) = _
  rw [ops2_v47, W2_v3, W2_v6, W2_v16, weightK_ref]
  exact adjK_eq _ _ _ _ _ (Cert.Head.src_inrange _ hr) (Cert.Head.dst_inrange _ hr) (Cert.Head.src_word _ hr) (Cert.Head.dst_word _ hr)

end Cert.KernelIdeal.Hand

end
-- ==== Proof.KRegion0.lean ====
/-
  The value of matmul region 0 of the kernel program: whatever the buffers hold when the region is entered,
  its output array ends holding the matrix product of its two input arrays. The output block of grid point t
  (rows 400 t .. 400 t + 399, all 512 columns) is the product of rows 400 t .. 400 t + 399 of the left
  array (all 128 columns) with the whole right array; the 25 blocks tile the 10000 rows.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The body's payload at an index -/

/-- The left operand of the product is read at the output's row, -/
private theorem lhs_mm0_0 (i : S400x512.Idx) (q : dot_S400x128_S128x512_S400x512_1_0_0_1_n_n.contr.Idx) :
    (dot_S400x128_S128x512_S400x512_1_0_0_1_n_n.lhsIdx i q 0).val = (i 0).val := by
  unfold DotDims.lhsIdx
  rw [dif_neg (show ¬(0 : Fin S400x128.rank) ∈ dot_S400x128_S128x512_S400x512_1_0_0_1_n_n.lhsBatch by decide), dif_pos (show (0 : Fin S400x128.rank) ∈ dot_S400x128_S128x512_S400x512_1_0_0_1_n_n.lhsNonContracting by decide)]
  rfl
/-- and at the contracted index as its column; -/
private theorem lhs_mm0_1 (i : S400x512.Idx) (q : dot_S400x128_S128x512_S400x512_1_0_0_1_n_n.contr.Idx) :
    (dot_S400x128_S128x512_S400x512_1_0_0_1_n_n.lhsIdx i q 1).val = (q ⟨0, by decide⟩).val :=
  dot_S400x128_S128x512_S400x512_1_0_0_1_n_n.lhsIdx_val_of_single rfl i q
/-- the right operand at the contracted index as its row, -/
private theorem rhs_mm0_0 (i : S400x512.Idx) (q : dot_S400x128_S128x512_S400x512_1_0_0_1_n_n.contr.Idx) :
    (dot_S400x128_S128x512_S400x512_1_0_0_1_n_n.rhsIdx i q 0).val = (q ⟨0, by decide⟩).val :=
  dot_S400x128_S128x512_S400x512_1_0_0_1_n_n.rhsIdx_val_of_single rfl i q
/-- and at the output's column. -/
private theorem rhs_mm0_1 (i : S400x512.Idx) (q : dot_S400x128_S128x512_S400x512_1_0_0_1_n_n.contr.Idx) :
    (dot_S400x128_S128x512_S400x512_1_0_0_1_n_n.rhsIdx i q 1).val = (i 1).val := by
  unfold DotDims.rhsIdx
  rw [dif_neg (show ¬(1 : Fin S128x512.rank) ∈ dot_S400x128_S128x512_S400x512_1_0_0_1_n_n.rhsBatch by decide), dif_pos (show (1 : Fin S128x512.rank) ∈ dot_S400x128_S128x512_S400x512_1_0_0_1_n_n.rhsNonContracting by decide)]
  rfl

/-- Entry (p, q) of the body's payload is the sum over k of the left block at (p, k) times the right block at (k, q):
    the shape casts are identities, the product accumulates into zero, and narrowing the result does nothing to an
    extended real. -/
private theorem pay0_apply (x0 : Vec Ideal S400x128 .bf16) (x1 : Vec Ideal S128x512 .bf16) (p : Fin 400) (q : Fin 512) :
    k0_pay1 x0 x1 (ix2 p q) = ∑ k : Fin 128, x0 (ix2 p k) * x1 (ix2 k q) := by
  unfold k0_pay1
  rw [truncf_apply, shapeCast_self, shapeCast_self]
  simp only [matmul]
  rw [Ideal.matmul_constant_zero_apply, ← Equiv.sum_comp (contrEquiv1 dot_S400x128_S128x512_S400x512_1_0_0_1_n_n 128 rfl rfl).symm]
  refine Finset.sum_congr rfl fun k _ => ?_
  have hk := contrEquiv1_symm_val dot_S400x128_S128x512_S400x512_1_0_0_1_n_n 128 rfl rfl k
  have el : dot_S400x128_S128x512_S400x512_1_0_0_1_n_n.lhsIdx (ix2 p q) ((contrEquiv1 dot_S400x128_S128x512_S400x512_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S400x128_S128x512_S400x512_1_0_0_1_n_n.rhsIdx (ix2 p q) ((contrEquiv1 dot_S400x128_S128x512_S400x512_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-! ## From a block of the product to the product of the arrays -/

/-- If the left block's row p is row (row i) of X and the right block's column q is column (col i) of W,
    entry (p, q) of the payload is entry i of the product X W. -/
private theorem pay0_eq_mm (X : S10000x128.Idx → EReal) (W : S128x512.Idx → EReal)
    (x0 : Vec Ideal S400x128 .bf16) (x1 : Vec Ideal S128x512 .bf16) (i : S10000x512.Idx) (p : Fin 400) (q : Fin 512)
    (h0 : ∀ k : Fin 128, x0 (ix2 p k) = X (ix2 (Cert.Gcn.row i) k))
    (h1 : ∀ k : Fin 128, x1 (ix2 k q) = W (ix2 k (Cert.Gcn.col i))) :
    k0_pay1 x0 x1 (ix2 p q) = Cert.Gcn.mm X W i := by
  rw [pay0_apply]
  unfold Cert.Gcn.mm
  exact Finset.sum_congr rfl fun k _ => by rw [h0 k, h1 k]

private theorem zeroOffsets : (![0, 0] : Fin 2 → Nat) = fun _ => 0 := funext fun a => by fin_cases a <;> rfl

/-- The printed index maps, decided over the 25 grid points: the left window and the output window are at block row t,
    block column 0; the right window stays at block (0, 0). -/
private theorem blockIdx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxHeartbeats 1000000 in
/-- What grid point t writes back is block t of the product of the two input arrays as the region finds them. -/
private theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.Gcn.mm (V c (Pipeline.arrRef spec0 0) : S10000x128.Idx → EReal) (V c (Pipeline.arrRef spec0 1) : S128x512.Idx → EReal)) := by
  show (cfg0.win 2).cut (grid0.coords t) ((dat0 (F := Ideal) V c).after 2 t) = _
  rw [after0_2]
  unfold out0_2
  rw [View.canon_unit_zero zeroOffsets]
  simp only [View.ld_unit_zero (S := S400x128) zeroOffsets, View.ld_unit_zero (S := S128x512) zeroOffsets]
  obtain ⟨e0, e1, e2, e3, e4, e5⟩ := blockIdx0 t
  funext j
  obtain ⟨p, q, rfl⟩ : ∃ (p : Fin 400) (q : Fin 512), j = ix2 p q := ⟨j 0, j 1, eq_ix2 j⟩
  show k0_pay1 (iblk0 V c 0 t) (iblk0 V c 1 t) (ix2 p q)
    = Cert.Gcn.mm (V c (Pipeline.arrRef spec0 0) : S10000x128.Idx → EReal) (V c (Pipeline.arrRef spec0 1) : S128x512.Idx → EReal)
        (((cfg0.win 2).blk t).view.emb (ix2 p q))
  refine pay0_eq_mm _ _ _ _ _ p q (fun k => ?_) (fun k => ?_)
  · -- the left block's row p is row 400 t + p of the left array
    show V c (Pipeline.arrRef spec0 0) (((cfg0.win 0).blk t).view.emb (ix2 p k)) = V c (Pipeline.arrRef spec0 0) _
    refine congrArg _ (funext fun a => Fin.ext ?_)
    match a with
    | ⟨0, _⟩ => show win0_0.index t (0 : Fin 2) * 400 + 1 * p.val = win0_2.index t (0 : Fin 2) * 400 + 1 * p.val; omega
    | ⟨1, _⟩ => show win0_0.index t (1 : Fin 2) * 128 + 1 * k.val = k.val; omega
  · -- the right block is the whole right array
    show V c (Pipeline.arrRef spec0 1) (((cfg0.win 1).blk t).view.emb (ix2 k q)) = V c (Pipeline.arrRef spec0 1) _
    refine congrArg _ (funext fun a => Fin.ext ?_)
    match a with
    | ⟨0, _⟩ => show win0_1.index t (0 : Fin 2) * 128 + 1 * k.val = k.val; omega
    | ⟨1, _⟩ => show win0_1.index t (1 : Fin 2) * 512 + 1 * q.val = win0_2.index t (1 : Fin 2) * 512 + 1 * q.val; omega

/-- An index of the output array is in point t's block iff each coordinate is in the block's range on its axis. -/
private theorem mem_blk0 (t : Fin cfg0.N) (i : S10000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole (Pipeline.arrRef spec0 2)).slice (win0_2.rect t)).set ↔ _
  rw [View.set_slice_whole, Rect.mem_set_unit]
  exact Iff.rfl

/-- Row r of the output array is in the block of grid point r / 400: the 25 blocks tile the 10000 rows. -/
private theorem cover0 (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 25 := N_0
  have hd : (i 0).val / 400 < cfg0.N := by omega
  obtain ⟨e0, e1, e2, e3, e4, e5⟩ := blockIdx0 ⟨(i 0).val / 400, hd⟩
  refine ⟨⟨(i 0).val / 400, hd⟩, flush0_2 _, ?_⟩
  rw [mem_blk0]
  intro a
  match a with
  | ⟨0, _⟩ =>
    show win0_2.index ⟨(i 0).val / 400, hd⟩ (0 : Fin 2) * 400 ≤ (i 0).val ∧ (i 0).val < win0_2.index ⟨(i 0).val / 400, hd⟩ (0 : Fin 2) * 400 + 400
    rw [e4]; show (i 0).val / 400 * 400 ≤ (i 0).val ∧ (i 0).val < (i 0).val / 400 * 400 + 400; omega
  | ⟨1, _⟩ =>
    show win0_2.index ⟨(i 0).val / 400, hd⟩ (1 : Fin 2) * 512 ≤ (i 1).val ∧ (i 1).val < win0_2.index ⟨(i 0).val / 400, hd⟩ (1 : Fin 2) * 512 + 512
    rw [e5]; omega

/-! ## The region's value -/

/-- The output array after the region is the matrix product of the two input arrays as the region finds them. -/
theorem arr0 (V : (c : Dev nD) → (b : Ref sig .tc) → Buf (Elt Ideal) ((c : Thread nD τ).loc b)) (c : Dev nD) :
    ((dat0 (F := Ideal) V c).arrAt 2 cfg0.N : S10000x512.Idx → EReal)
      = Cert.Gcn.mm (V c (Pipeline.arrRef spec0 0) : S10000x128.Idx → EReal) (V c (Pipeline.arrRef spec0 1) : S128x512.Idx → EReal) :=
  (dat0 (F := Ideal) V c).arrAt_eq_of_cover 2 _ (fun t _ => flushed0_eq V c t) cover0

end Cert.KernelIdeal.Hand

end
-- ==== Proof.KRegion1.lean ====
/-
  The value of an aggregation region of the kernel program: whatever the buffers hold when the region is entered,
  the output array after the last grid point is max (A * H + b, 0), entry by entry, A being read in blocks of
  400 rows and H and the bias row whole.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's payload at an index -/

/-- The left operand's index of the product at output (i, ·) and contraction index q has row i's row … -/
private theorem lhs_agg_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
/-- … and the contraction coordinate as its column; -/
private theorem lhs_agg_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
/-- the right operand's has the contraction coordinate as its row … -/
private theorem rhs_agg_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
/-- … and the output's column. -/
private theorem rhs_agg_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The block product into the zero accumulator, read at (p, q): the sum over the 10000 columns of the row block. -/
private theorem agg_matmul_apply (x0 : FVec Ideal S400x10000 .bf16) (x1 : FVec Ideal S10000x512 .bf16) (p : Fin 400) (q : Fin 512) :
    matmul dot_S400x10000_S10000x512_S400x512_1_0_0_1_n_n none x0 x1 (constant (F := Ideal) S400x512 .f32 0x00000000#32) (ix2 p q)
      = ∑ s : Fin 10000, x0 (ix2 p s) * x1 (ix2 s q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The bias row broadcast down the 400 rows, read at (p, q): the row's entry in column q. -/
private theorem agg_bias_apply (x2 : FVec Ideal S1x512 .f32) (p : Fin 400) (q : Fin 512) :
    broadcastTo S400x512 x2 broadcasts_S1x512_S400x512 (ix2 p q) = x2 (ix2 0 q) := by
  refine broadcastTo_apply x2 broadcasts_S1x512_S400x512 (ix2 p q) (ix2 0 q) fun a => ?_
  match a with
  | ⟨0, _⟩ => rfl
  | ⟨1, _⟩ => rfl

/-- THE PAYLOAD AT AN INDEX: max (sum over s of x0(p, s) * x1(s, q) + x2(0, q), 0). -/
private theorem agg_pay_apply (x0 : Vec Ideal S400x10000 .bf16) (x1 : Vec Ideal S10000x512 .bf16) (x2 : Vec Ideal S1x512 .f32)
    (p : Fin 400) (q : Fin 512) :
    k1_pay1 x0 x1 x2 (ix2 p q) = max ((∑ s : Fin 10000, x0 (ix2 p s) * x1 (ix2 s q)) + x2 (ix2 0 q)) 0 := by
  unfold k1_pay1
  simp only [shapeCast_self]
  rw [truncf_apply, maximumf_apply, addf_apply, broadcast_apply, agg_matmul_apply, agg_bias_apply]
  show max _ (Ideal.ofBits .f32 0x00000000#32) = _
  rw [Ideal.ofBits_zero_f32]

/-- The payload at a block index against the aggregation read at an array index: when the first operand's row p is the
    array A's row r, and the other two operands are H and the bias row, entry (p, q) of the payload is entry (r, q) of
    max (A * H + b, 0). The hypotheses are on coordinates, so that they can be given at a block's own index types. -/
private theorem agg_point (A : S10000x10000.Idx → EReal) (H : S10000x512.Idx → EReal) (B : S1x512.Idx → EReal)
    (x0 : Vec Ideal S400x10000 .bf16) (x1 : Vec Ideal S10000x512 .bf16) (x2 : Vec Ideal S1x512 .f32)
    (y : S400x512.Idx) (i : S10000x512.Idx)
    (h0 : ∀ (a : S400x10000.Idx) (k : S10000x10000.Idx), (a 0).val = (y 0).val → (k 0).val = (i 0).val → (k 1).val = (a 1).val → x0 a = A k)
    (h1 : x1 = H) (h2 : x2 = B) (hi : (i 1).val = (y 1).val) :
    k1_pay1 x0 x1 x2 y = Cert.Gcn.aggRelu A H (fun j => B (ix2 0 j)) i := by
  obtain ⟨p, q, rfl⟩ : ∃ (p : Fin 400) (q : Fin 512), y = ix2 p q := ⟨y 0, y 1, eq_ix2 y⟩
  obtain ⟨r, q', rfl⟩ : ∃ (r : Fin 10000) (q' : Fin 512), i = ix2 r q' := ⟨i 0, i 1, eq_ix2 i⟩
  obtain rfl : q' = q := Fin.ext hi
  subst h1 h2
  rw [agg_pay_apply]
  unfold Cert.Gcn.aggRelu Cert.Gcn.mm
  show max ((∑ s : Fin 10000, x0 (ix2 p s) * x1 (ix2 s q')) + x2 (ix2 0 q')) 0
    = max ((∑ s : Fin 10000, A (ix2 r s) * x1 (ix2 s q')) + x2 (ix2 0 q')) 0
  rw [Finset.sum_congr rfl fun s _ => by rw [h0 (ix2 p s) (ix2 r s) rfl rfl rfl]]

/-! ## From blocks to the array -/

private theorem zero_offsets : (![0, 0] : Fin 2 → Nat) = fun _ => 0 := funext fun a => by fin_cases a <;> rfl

/-- The printed index maps, decided over the 25 grid points: the blocks of A and of the output are block row t, all
    columns; H and the bias row are their one whole block at every point. -/
private theorem agg_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- Block t of A is rows 400 t … 400 t + 399 of A, all its columns. -/
private theorem blockA_apply (t : Fin cfg1.N) (x : S400x10000.Idx) (k : S10000x10000.Idx)
    (hk0 : (k 0).val = 400 * t.val + (x 0).val) (hk1 : (k 1).val = (x 1).val) :
    (iblk1 (F := Ideal) V c 0 t : Vec Ideal S400x10000 .bf16) x = (V c (Pipeline.arrRef spec1 0) : S10000x10000.Idx → EReal) k := by
  obtain ⟨e0, e1, -⟩ := agg_index t
  unfold iblk1
  rw [View.read_apply]
  show (V c (Pipeline.arrRef spec1 0) : S10000x10000.Idx → EReal) (((cfg1.win 0).blk t).view.emb x) = _
  refine congrArg _ (funext fun a => Fin.ext ?_)
  match a with
  | ⟨0, _⟩ => show win1_0.index t (0 : Fin 2) * 400 + 1 * (x 0).val = (k 0).val; omega
  | ⟨1, _⟩ => show win1_0.index t (1 : Fin 2) * 10000 + 1 * (x 1).val = (k 1).val; omega

/-- The one block of H is H. -/
private theorem blockH_eq (t : Fin cfg1.N) :
    (iblk1 (F := Ideal) V c 1 t : Vec Ideal S10000x512 .bf16) = (V c (Pipeline.arrRef spec1 1) : S10000x512.Idx → EReal) := by
  obtain ⟨-, -, e2, e3, -⟩ := agg_index t
  funext x
  unfold iblk1
  rw [View.read_apply]
  show (V c (Pipeline.arrRef spec1 1) : S10000x512.Idx → EReal) (((cfg1.win 1).blk t).view.emb x) = _
  refine congrArg _ (funext fun a => Fin.ext ?_)
  match a with
  | ⟨0, _⟩ => show win1_1.index t (0 : Fin 2) * 10000 + 1 * (x 0).val = (x 0).val; omega
  | ⟨1, _⟩ => show win1_1.index t (1 : Fin 2) * 512 + 1 * (x 1).val = (x 1).val; omega

/-- The one block of the bias row is the bias row. -/
private theorem blockB_eq (t : Fin cfg1.N) :
    (iblk1 (F := Ideal) V c 2 t : Vec Ideal S1x512 .f32) = (V c (Pipeline.arrRef spec1 2) : S1x512.Idx → EReal) := by
  obtain ⟨-, -, -, -, e4, e5, -⟩ := agg_index t
  funext x
  unfold iblk1
  rw [View.read_apply]
  show (V c (Pipeline.arrRef spec1 2) : S1x512.Idx → EReal) (((cfg1.win 2).blk t).view.emb x) = _
  refine congrArg _ (funext fun a => Fin.ext ?_)
  match a with
  | ⟨0, _⟩ => show win1_2.index t (0 : Fin 2) * 1 + 1 * (x 0).val = (x 0).val; omega
  | ⟨1, _⟩ => show win1_2.index t (1 : Fin 2) * 512 + 1 * (x 1).val = (x 1).val; omega

/-- The aggregation of the arrays the region finds: max (A * H + b, 0). -/
private abbrev aggOf : S10000x512.Idx → EReal :=
  Cert.Gcn.aggRelu (V c (Pipeline.arrRef spec1 0) : S10000x10000.Idx → EReal)
    (V c (Pipeline.arrRef spec1 1) : S10000x512.Idx → EReal)
    (fun j => (V c (Pipeline.arrRef spec1 2) : S1x512.Idx → EReal) (ValueIdx.ix2 0 j))

/-- WHAT POINT t WRITES BACK is block t of the aggregation: rows 400 t … 400 t + 399. -/
private theorem agg_flushed (t : Fin cfg1.N) :
    (dat1 (F := Ideal) V c).flushed 3 t = ((cfg1.win 3).blk t).view.read (Elt Ideal) (aggOf V c) := by
  show (cfg1.win 3).cut (grid1.coords t) ((dat1 (F := Ideal) V c).after 3 t) = _
  rw [after1_3]
  unfold out1_3
  rw [View.canon_unit_zero zero_offsets]
  simp only [View.ld_unit_zero (S := S400x10000) zero_offsets, View.ld_unit_zero (S := S10000x512) zero_offsets,
    View.ld_unit_zero (S := S1x512) zero_offsets]
  obtain ⟨-, -, -, -, -, -, e6, e7⟩ := agg_index t
  funext j
  rw [View.read_apply]
  show k1_pay1 (iblk1 (F := Ideal) V c 0 t) (iblk1 (F := Ideal) V c 1 t) (iblk1 (F := Ideal) V c 2 t) j
    = aggOf V c (((cfg1.win 3).blk t).view.emb j)
  have hr : ((((cfg1.win 3).blk t).view.emb j) 0).val = win1_3.index t (0 : Fin 2) * 400 + 1 * (j 0).val := rfl
  have hq : ((((cfg1.win 3).blk t).view.emb j) 1).val = win1_3.index t (1 : Fin 2) * 512 + 1 * (j 1).val := rfl
  refine agg_point _ _ _ _ _ _ j _ (fun a k ha hk0 hk1 => blockA_apply V c t a k ?_ hk1) (blockH_eq V c t) (blockB_eq V c t) ?_
  · rw [hk0, hr, ha, e6]; omega
  · rw [hq, e7]; omega

/-- An index of the array is in point t's block iff each coordinate is in the block's range on its axis. -/
private theorem mem_block (t : Fin cfg1.N) (i : S10000x512.Idx) :
    i ∈ ((cfg1.win 3).blk t).view.set ↔ ∀ a : Fin 2, win1_3.index t a * S400x512.size a ≤ (i a).val ∧ (i a).val < win1_3.index t a * S400x512.size a + S400x512.size a := by
  show i ∈ ((View.whole (Pipeline.arrRef spec1 3)).slice (win1_3.rect t)).set ↔ _
  rw [View.set_slice_whole, Rect.mem_set_unit]
  exact Iff.rfl

/-- THE COVER: row r of the array is in the block of point r / 400. -/
private theorem agg_cover (i : S10000x512.Idx) :
    ∃ t : Fin cfg1.N, (cfg1.win 3).flush t = true ∧ i ∈ ((cfg1.win 3).blk t).view.set := by
  have hi0 : (i 0).val < 10000 := (i 0).isLt
  have hi1 : (i 1).val < 512 := (i 1).isLt
  have hN : cfg1.N = 25 := N_1
  refine ⟨⟨(i 0).val / 400, by rw [hN]; omega⟩, flush1_3 _, ?_⟩
  obtain ⟨-, -, -, -, -, -, e6, e7⟩ := agg_index ⟨(i 0).val / 400, by rw [hN]; omega⟩
  rw [mem_block]
  intro a
  match a with
  | ⟨0, _⟩ =>
    show win1_3.index _ (0 : Fin 2) * 400 ≤ (i 0).val ∧ (i 0).val < win1_3.index _ (0 : Fin 2) * 400 + 400
    rw [e6]; show (i 0).val / 400 * 400 ≤ (i 0).val ∧ (i 0).val < (i 0).val / 400 * 400 + 400; omega
  | ⟨1, _⟩ =>
    show win1_3.index _ (1 : Fin 2) * 512 ≤ (i 1).val ∧ (i 1).val < win1_3.index _ (1 : Fin 2) * 512 + 512
    rw [e7]; omega

end

/-- THE ARRAY after the region's last point: max (A * H + b, 0) of the arrays the region found. -/
theorem arr1 (V : (c : Dev nD) → (b : Ref sig .tc) → Buf (Elt Ideal) ((c : Thread nD τ).loc b)) (c : Dev nD) :
    ((dat1 (F := Ideal) V c).arrAt 3 cfg1.N : S10000x512.Idx → EReal)
      = Cert.Gcn.aggRelu (V c (Pipeline.arrRef spec1 0) : S10000x10000.Idx → EReal)
          (V c (Pipeline.arrRef spec1 1) : S10000x512.Idx → EReal)
          (fun j => (V c (Pipeline.arrRef spec1 2) : S1x512.Idx → EReal) (ValueIdx.ix2 0 j)) :=
  (dat1 (F := Ideal) V c).arrAt_eq_of_cover 3 (aggOf V c) (fun t _ => agg_flushed V c t) (agg_cover)

end Cert.KernelIdeal.Hand
-- ==== Proof.KLayer0.lean ====
/-
  The first layer of the kernel program: the host operations that prepare the operands (the feature and weight
  matrices pass through a rounding that is the identity on extended reals, the bias vector is viewed as one row),
  the matrix-product region and the aggregation region. What the output array of the aggregation region holds
  afterwards is one dense layer, max (A * (X * W) + b, 0), of the launch contents X, W, b and of the adjacency
  matrix A the host operations built; A itself and the later layers' arguments are left as they were.
-/
import proofs.«147721_j75531294868021_1_alg».proof.Proof.Gen.KernelIdeal.Frame
import proofs.«147721_j75531294868021_1_alg».proof.Proof.Spec
import proofs.«147721_j75531294868021_1_alg».proof.Proof.KRegion0
import proofs.«147721_j75531294868021_1_alg».proof.Proof.KRegion1
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## Buffers a stretch of host operations does not write -/

/-- Closes `StableHlo.after ops V b = V b` for one of this layer's literal stretches `ops` and a literal reference
    `b` that none of its operations writes: the written references are read off the builders and told apart from
    `b` by evaluation. -/
local macro "unwritten" : tactic => `(tactic| (
  refine StableHlo.after_of_forall_not_mem _ _ (List.forall_iff_forall_mem.mp ?_)
  simp only [hostOps0, hostOps0_1, hostOps0_2, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- An argument array still holds its launch contents after the first two stretches of host operations … -/
theorem W2_arg (c : Dev nD) (b : Ref sig .tc)
    (hb : b = main_arg0 ∨ b = main_arg2 ∨ b = main_arg3 ∨ b = main_arg4 ∨ b = main_arg5 ∨ b = main_arg6 ∨ b = main_arg7) :
    W2 m ρ c (Proc.devRef .tc b) = m ((c : Thread nD τ).loc b) := by
  have h1 : W2 m ρ c (Proc.devRef .tc b) = W1 m ρ c (Proc.devRef .tc b) := by
    rcases hb with rfl | rfl | rfl | rfl | rfl | rfl | rfl <;> unwritten
  have h0 : W1 m ρ c (Proc.devRef .tc b) = W0 m ρ c (Proc.devRef .tc b) := by
    rcases hb with rfl | rfl | rfl | rfl | rfl | rfl | rfl <;> unwritten
  exact h1.trans (h0.trans rfl)

/-- … and after the third, when the first region is entered: no host operation writes an argument. -/
theorem W3_arg (c : Dev nD) (b : Ref sig .tc)
    (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) := by
  have h2 : W3 m ρ c (Proc.devRef .tc b) = W2 m ρ c (Proc.devRef .tc b) := by
    rcases hb with rfl | rfl | rfl | rfl | rfl | rfl | rfl <;> unwritten
  exact h2.trans (W2_arg m ρ c b hb)

/-! ## What the host operations wrote for the two regions -/

/-- The rounded feature matrix is the feature matrix: at extended reals the rounding is the identity. -/
theorem W3_v48 (c : Dev nD) :
    (W3 m ρ c (Proc.devRef .tc main_v48) : S10000x128.Idx → EReal) = (m ((c : Thread nD τ).loc main_arg0) : S10000x128.Idx → EReal) := by
  funext i
  show StableHlo.after hostOps0_2 (W2 m ρ c) (Proc.devRef .tc main_v48) i = _
  after_results
  exact congrFun (W2_arg m ρ c main_arg0 (Or.inl rfl)) i

/-- The rounded weight matrix is the weight matrix. -/
theorem W3_v49 (c : Dev nD) :
    (W3 m ρ c (Proc.devRef .tc main_v49) : S128x512.Idx → EReal) = (m ((c : Thread nD τ).loc main_arg2) : S128x512.Idx → EReal) := by
  funext i
  show StableHlo.after hostOps0_2 (W2 m ρ c) (Proc.devRef .tc main_v49) i = _
  after_results
  exact congrFun (W2_arg m ρ c main_arg2 (Or.inr (Or.inl rfl))) i

/-- The bias row the aggregation region reads is the bias vector viewed as one row: its entry (0, j) is entry j
    (the two have the same row-major position, 0 * 512 + j = j). -/
theorem W5_v51 (c : Dev nD) (j : Fin 512) :
    (W5 m ρ c (Proc.devRef .tc main_v51) : S1x512.Idx → EReal) (ix2 0 j)
      = (m ((c : Thread nD τ).loc main_arg3) : S512.Idx → EReal) (ix1 j) := by
  show StableHlo.after hostOps1 (W4 m ρ c) (Proc.devRef .tc main_v51) (ix2 0 j) = _
  after_results
  show shapeCast S1x512 (W4 m ρ c (Proc.devRef .tc main_arg3) : S512.Idx → EReal) shapeCasts_S512_S1x512 (ix2 0 j) = _
  rw [shapeCast_apply _ _ _ (ix1 j) (by
    rw [Shape.rowMajor_val_one, Shape.rowMajor_val_two]
    show (j : ℕ) = (0 : ℕ) * 512 + (j : ℕ)
    omega)]
  rw [W4_of_ne m ρ c main_arg3 (by decide), W3_arg m ρ c main_arg3 (Or.inr (Or.inr (Or.inl rfl)))]

/-! ## The layer -/

/-- The adjacency matrix the aggregation region reads is the one the host operations built: the reshape and the
    matrix-product region between do not write it. -/
theorem W5_v47 (c : Dev nD) : W5 m ρ c (Proc.devRef .tc main_v47) = W3 m ρ c (Proc.devRef .tc main_v47) :=
  calc W5 m ρ c (Proc.devRef .tc main_v47)
    _ = W4 m ρ c (Proc.devRef .tc main_v47) := by unwritten
    _ = W3 m ρ c (Proc.devRef .tc main_v47) := W4_of_ne m ρ c main_v47 (by decide)

/-- The matrix the aggregation region multiplies the adjacency matrix by is the product of the launch features and
    weights: the matrix-product region's output array, which the reshape after it does not write. -/
theorem W5_v50 (c : Dev nD) :
    (W5 m ρ c (Proc.devRef .tc main_v50) : S10000x512.Idx → EReal)
      = Cert.Gcn.mm (m ((c : Thread nD τ).loc main_arg0) : S10000x128.Idx → EReal)
          (m ((c : Thread nD τ).loc main_arg2) : S128x512.Idx → EReal) := by
  have h4 : W5 m ρ c (Proc.devRef .tc main_v50) = W4 m ρ c (Proc.devRef .tc main_v50) := by unwritten
  have ha : W4 m ρ c (Proc.devRef .tc main_v50) = (dat0 (V3 m ρ) c).arrAt 2 cfg0.N := W4_arr m ρ c 2
  rw [h4, ha, arr0 (V3 m ρ) c]
  exact congrArg₂ Cert.Gcn.mm (W3_v48 m ρ c) (W3_v49 m ρ c)

theorem step0 (c : Dev nD) :
    (W6 m ρ c (Proc.devRef .tc main_v52) : S10000x512.Idx → EReal)
      = Cert.Gcn.layerK (W3 m ρ c (Proc.devRef .tc main_v47) : S10000x10000.Idx → EReal)
          (m ((c : Thread nD τ).loc main_arg0) : S10000x128.Idx → EReal)
          (m ((c : Thread nD τ).loc main_arg2) : S128x512.Idx → EReal)
          (Cert.Gcn.vec1 (m ((c : Thread nD τ).loc main_arg3) : S512.Idx → EReal)) := by
  have h6 : W6 m ρ c (Proc.devRef .tc main_v52) = (dat1 (V5 m ρ) c).arrAt 3 cfg1.N := W6_arr m ρ c 3
  rw [h6, arr1 (V5 m ρ) c]
  unfold Cert.Gcn.layerK
  have hA : (V5 m ρ c (Pipeline.arrRef spec1 0) : S10000x10000.Idx → EReal)
      = (W3 m ρ c (Proc.devRef .tc main_v47) : S10000x10000.Idx → EReal) := W5_v47 m ρ c
  have hH : (V5 m ρ c (Pipeline.arrRef spec1 1) : S10000x512.Idx → EReal)
      = Cert.Gcn.mm (m ((c : Thread nD τ).loc main_arg0) : S10000x128.Idx → EReal)
          (m ((c : Thread nD τ).loc main_arg2) : S128x512.Idx → EReal) := W5_v50 m ρ c
  have hb : (fun j => (V5 m ρ c (Pipeline.arrRef spec1 2) : S1x512.Idx → EReal) (ix2 0 j))
      = Cert.Gcn.vec1 (m ((c : Thread nD τ).loc main_arg3) : S512.Idx → EReal) :=
    funext fun j => W5_v51 m ρ c j
  rw [hA, hH, hb]

/-- The adjacency matrix is an input of the aggregation region, which leaves its inputs as it found them. -/
theorem keep0 (c : Dev nD) : W6 m ρ c (Proc.devRef .tc main_v47) = W3 m ρ c (Proc.devRef .tc main_v47) :=
  calc W6 m ρ c (Proc.devRef .tc main_v47)
    _ = (dat1 (V5 m ρ) c).arrAt 0 cfg1.N := W6_arr m ρ c 0
    _ = (dat1 (V5 m ρ) c).A 0 := (dat1 (V5 m ρ) c).arrAt_in 0 rfl cfg1.N
    _ = W5 m ρ c (Proc.devRef .tc main_v47) := A_eq1 (V5 m ρ) c 0
    _ = W3 m ρ c (Proc.devRef .tc main_v47) := W5_v47 m ρ c

/-- The later layers' argument arrays hold their launch contents after this layer: neither its host operations nor
    its two regions write them. -/
theorem args6 (c : Dev nD) (b : Ref sig .tc) (hb : b = main_arg4 ∨ b = main_arg5 ∨ b = main_arg6 ∨ b = main_arg7) :
    W6 m ρ c (Proc.devRef .tc b) = m ((c : Thread nD τ).loc b) := by
  have h5 : W6 m ρ c (Proc.devRef .tc b) = W5 m ρ c (Proc.devRef .tc b) := by
    rcases hb with rfl | rfl | rfl | rfl <;> exact W6_of_ne m ρ c _ (by decide)
  have h4 : W5 m ρ c (Proc.devRef .tc b) = W4 m ρ c (Proc.devRef .tc b) := by
    rcases hb with rfl | rfl | rfl | rfl <;> unwritten
  have h3 : W4 m ρ c (Proc.devRef .tc b) = W3 m ρ c (Proc.devRef .tc b) := by
    rcases hb with rfl | rfl | rfl | rfl <;> exact W4_of_ne m ρ c _ (by decide)
  exact h5.trans (h4.trans (h3.trans (W3_arg m ρ c b (Or.inr (Or.inr (Or.inr hb))))))

end Cert.KernelIdeal.Hand
-- ==== Proof.KRegion2.lean ====
/-
  The value of matmul region 2 of the kernel program: whatever the buffers hold when the region is entered,
  its output array ends holding the matrix product of its two input arrays. The output block of grid point t
  (rows 400 t .. 400 t + 399, all 512 columns) is the product of rows 400 t .. 400 t + 399 of the left
  array (all 512 columns) with the whole right array; the 25 blocks tile the 10000 rows.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The body's payload at an index -/

/-- The left operand of the product is read at the output's row, -/
private theorem lhs_mm2_0 (i : S400x512.Idx) (q : dot_S400x512_S512x512_S400x512_1_0_0_1_n_n.contr.Idx) :
    (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
/-- and at the contracted index as its column; -/
private theorem lhs_mm2_1 (i : S400x512.Idx) (q : dot_S400x512_S512x512_S400x512_1_0_0_1_n_n.contr.Idx) :
    (dot_S400x512_S512x512_S400x512_1_0_0_1_n_n.lhsIdx i q 1).val = (q ⟨0, by decide⟩).val :=
  dot_S400x512_S512x512_S400x512_1_0_0_1_n_n.lhsIdx_val_of_single rfl i q
/-- the right operand at the contracted index as its row, -/
private theorem rhs_mm2_0 (i : S400x512.Idx) (q : dot_S400x512_S512x512_S400x512_1_0_0_1_n_n.contr.Idx) :
    (dot_S400x512_S512x512_S400x512_1_0_0_1_n_n.rhsIdx i q 0).val = (q ⟨0, by decide⟩).val :=
  dot_S400x512_S512x512_S400x512_1_0_0_1_n_n.rhsIdx_val_of_single rfl i q
/-- and at the output's column. -/
private theorem rhs_mm2_1 (i : S400x512.Idx) (q : dot_S400x512_S512x512_S400x512_1_0_0_1_n_n.contr.Idx) :
    (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- Entry (p, q) of the body's payload is the sum over k of the left block at (p, k) times the right block at (k, q):
    the shape casts are identities, the product accumulates into zero, and narrowing the result does nothing to an
    extended real. -/
private theorem pay2_apply (x0 : Vec Ideal S400x512 .bf16) (x1 : Vec Ideal S512x512 .bf16) (p : Fin 400) (q : Fin 512) :
    k2_pay1 x0 x1 (ix2 p q) = ∑ k : Fin 512, x0 (ix2 p k) * x1 (ix2 k q) := by
  unfold k2_pay1
  rw [truncf_apply, shapeCast_self, shapeCast_self]
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S400x512_S512x512_S400x512_1_0_0_1_n_n.rhsIdx (ix2 p q) ((contrEquiv1 dot_S400x512_S512x512_S400x512_1_0_0_1_n_n 512 rfl rfl).symm k) = ix2 k q := funext fun a => Fin.ext (by
    match a with
    | ⟨0, _⟩ => exact (rhs_mm2_0 _ _).trans hk
    | ⟨1, _⟩ => exact rhs_mm2_1 _ _)
  rw [el, er]

/-! ## From a block of the product to the product of the arrays -/

/-- If the left block's row p is row (row i) of X and the right block's column q is column (col i) of W,
    entry (p, q) of the payload is entry i of the product X W. -/
private theorem pay2_eq_mm (X : S10000x512.Idx → EReal) (W : S512x512.Idx → EReal)
    (x0 : Vec Ideal S400x512 .bf16) (x1 : Vec Ideal S512x512 .bf16) (i : S10000x512.Idx) (p : Fin 400) (q : Fin 512)
    (h0 : ∀ k : Fin 512, x0 (ix2 p k) = X (ix2 (Cert.Gcn.row i) k))
    (h1 : ∀ k : Fin 512, x1 (ix2 k q) = W (ix2 k (Cert.Gcn.col i))) :
    k2_pay1 x0 x1 (ix2 p q) = Cert.Gcn.mm X W i := by
  rw [pay2_apply]
  unfold Cert.Gcn.mm
  exact Finset.sum_congr rfl fun k _ => by rw [h0 k, h1 k]

private theorem zeroOffsets : (![0, 0] : Fin 2 → Nat) = fun _ => 0 := funext fun a => by fin_cases a <;> rfl

/-- The printed index maps, decided over the 25 grid points: the left window and the output window are at block row t,
    block column 0; the right window stays at block (0, 0). -/
private theorem blockIdx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 1000000 in
/-- What grid point t writes back is block t of the product of the two input arrays as the region finds them. -/
private theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Cert.Gcn.mm (V c (Pipeline.arrRef spec2 0) : S10000x512.Idx → EReal) (V c (Pipeline.arrRef spec2 1) : S512x512.Idx → EReal)) := by
  show (cfg2.win 2).cut (grid2.coords t) ((dat2 (F := Ideal) V c).after 2 t) = _
  rw [after2_2]
  unfold out2_2
  rw [View.canon_unit_zero zeroOffsets]
  simp only [View.ld_unit_zero (S := S400x512) zeroOffsets, View.ld_unit_zero (S := S512x512) zeroOffsets]
  obtain ⟨e0, e1, e2, e3, e4, e5⟩ := blockIdx2 t
  funext j
  obtain ⟨p, q, rfl⟩ : ∃ (p : Fin 400) (q : Fin 512), j = ix2 p q := ⟨j 0, j 1, eq_ix2 j⟩
  show k2_pay1 (iblk2 V c 0 t) (iblk2 V c 1 t) (ix2 p q)
    = Cert.Gcn.mm (V c (Pipeline.arrRef spec2 0) : S10000x512.Idx → EReal) (V c (Pipeline.arrRef spec2 1) : S512x512.Idx → EReal)
        (((cfg2.win 2).blk t).view.emb (ix2 p q))
  refine pay2_eq_mm _ _ _ _ _ p q (fun k => ?_) (fun k => ?_)
  · -- the left block's row p is row 400 t + p of the left array
    show V c (Pipeline.arrRef spec2 0) (((cfg2.win 0).blk t).view.emb (ix2 p k)) = V c (Pipeline.arrRef spec2 0) _
    refine congrArg _ (funext fun a => Fin.ext ?_)
    match a with
    | ⟨0, _⟩ => show win2_0.index t (0 : Fin 2) * 400 + 1 * p.val = win2_2.index t (0 : Fin 2) * 400 + 1 * p.val; omega
    | ⟨1, _⟩ => show win2_0.index t (1 : Fin 2) * 512 + 1 * k.val = k.val; omega
  · -- the right block is the whole right array
    show V c (Pipeline.arrRef spec2 1) (((cfg2.win 1).blk t).view.emb (ix2 k q)) = V c (Pipeline.arrRef spec2 1) _
    refine congrArg _ (funext fun a => Fin.ext ?_)
    match a with
    | ⟨0, _⟩ => show win2_1.index t (0 : Fin 2) * 512 + 1 * k.val = k.val; omega
    | ⟨1, _⟩ => show win2_1.index t (1 : Fin 2) * 512 + 1 * q.val = win2_2.index t (1 : Fin 2) * 512 + 1 * q.val; omega

/-- An index of the output array is in point t's block iff each coordinate is in the block's range on its axis. -/
private theorem mem_blk2 (t : Fin cfg2.N) (i : S10000x512.Idx) :
    i ∈ ((cfg2.win 2).blk t).view.set ↔ ∀ a : Fin 2, win2_2.index t a * S400x512.size a ≤ (i a).val ∧ (i a).val < win2_2.index t a * S400x512.size a + S400x512.size a := by
  show i ∈ ((View.whole (Pipeline.arrRef spec2 2)).slice (win2_2.rect t)).set ↔ _
  rw [View.set_slice_whole, Rect.mem_set_unit]
  exact Iff.rfl

/-- Row r of the output array is in the block of grid point r / 400: the 25 blocks tile the 10000 rows. -/
private theorem cover2 (i : S10000x512.Idx) :
    ∃ t : Fin cfg2.N, (cfg2.win 2).flush t = true ∧ i ∈ ((cfg2.win 2).blk t).view.set := by
  have hi0 : (i 0).val < 10000 := (i 0).isLt
  have hi1 : (i 1).val < 512 := (i 1).isLt
  have hN : cfg2.N = 25 := N_2
  have hd : (i 0).val / 400 < cfg2.N := by omega
  obtain ⟨e0, e1, e2, e3, e4, e5⟩ := blockIdx2 ⟨(i 0).val / 400, hd⟩
  refine ⟨⟨(i 0).val / 400, hd⟩, flush2_2 _, ?_⟩
  rw [mem_blk2]
  intro a
  match a with
  | ⟨0, _⟩ =>
    show win2_2.index ⟨(i 0).val / 400, hd⟩ (0 : Fin 2) * 400 ≤ (i 0).val ∧ (i 0).val < win2_2.index ⟨(i 0).val / 400, hd⟩ (0 : Fin 2) * 400 + 400
    rw [e4]; show (i 0).val / 400 * 400 ≤ (i 0).val ∧ (i 0).val < (i 0).val / 400 * 400 + 400; omega
  | ⟨1, _⟩ =>
    show win2_2.index ⟨(i 0).val / 400, hd⟩ (1 : Fin 2) * 512 ≤ (i 1).val ∧ (i 1).val < win2_2.index ⟨(i 0).val / 400, hd⟩ (1 : Fin 2) * 512 + 512
    rw [e5]; omega

/-! ## The region's value -/

/-- The output array after the region is the matrix product of the two input arrays as the region finds them. -/
theorem arr2 (V : (c : Dev nD) → (b : Ref sig .tc) → Buf (Elt Ideal) ((c : Thread nD τ).loc b)) (c : Dev nD) :
    ((dat2 (F := Ideal) V c).arrAt 2 cfg2.N : S10000x512.Idx → EReal)
      = Cert.Gcn.mm (V c (Pipeline.arrRef spec2 0) : S10000x512.Idx → EReal) (V c (Pipeline.arrRef spec2 1) : S512x512.Idx → EReal) :=
  (dat2 (F := Ideal) V c).arrAt_eq_of_cover 2 _ (fun t _ => flushed2_eq V c t) cover2

end Cert.KernelIdeal.Hand

end
-- ==== Proof.KRegion3.lean ====
/-
  The value of an aggregation region of the kernel program: whatever the buffers hold when the region is entered,
  the output array after the last grid point is max (A * H + b, 0), entry by entry, A being read in blocks of
  400 rows and H and the bias row whole.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's payload at an index -/

/-- The left operand's index of the product at output (i, ·) and contraction index q has row i's row … -/
private theorem lhs_agg_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
/-- … and the contraction coordinate as its column; -/
private theorem lhs_agg_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
/-- the right operand's has the contraction coordinate as its row … -/
private theorem rhs_agg_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
/-- … and the output's column. -/
private theorem rhs_agg_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The block product into the zero accumulator, read at (p, q): the sum over the 10000 columns of the row block. -/
private theorem agg_matmul_apply (x0 : FVec Ideal S400x10000 .bf16) (x1 : FVec Ideal S10000x512 .bf16) (p : Fin 400) (q : Fin 512) :
    matmul dot_S400x10000_S10000x512_S400x512_1_0_0_1_n_n none x0 x1 (constant (F := Ideal) S400x512 .f32 0x00000000#32) (ix2 p q)
      = ∑ s : Fin 10000, x0 (ix2 p s) * x1 (ix2 s q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The bias row broadcast down the 400 rows, read at (p, q): the row's entry in column q. -/
private theorem agg_bias_apply (x2 : FVec Ideal S1x512 .f32) (p : Fin 400) (q : Fin 512) :
    broadcastTo S400x512 x2 broadcasts_S1x512_S400x512 (ix2 p q) = x2 (ix2 0 q) := by
  refine broadcastTo_apply x2 broadcasts_S1x512_S400x512 (ix2 p q) (ix2 0 q) fun a => ?_
  match a with
  | ⟨0, _⟩ => rfl
  | ⟨1, _⟩ => rfl

/-- THE PAYLOAD AT AN INDEX: max (sum over s of x0(p, s) * x1(s, q) + x2(0, q), 0). -/
private theorem agg_pay_apply (x0 : Vec Ideal S400x10000 .bf16) (x1 : Vec Ideal S10000x512 .bf16) (x2 : Vec Ideal S1x512 .f32)
    (p : Fin 400) (q : Fin 512) :
    k3_pay1 x0 x1 x2 (ix2 p q) = max ((∑ s : Fin 10000, x0 (ix2 p s) * x1 (ix2 s q)) + x2 (ix2 0 q)) 0 := by
  unfold k3_pay1
  simp only [shapeCast_self]
  rw [truncf_apply, maximumf_apply, addf_apply, broadcast_apply, agg_matmul_apply, agg_bias_apply]
  show max _ (Ideal.ofBits .f32 0x00000000#32) = _
  rw [Ideal.ofBits_zero_f32]

/-- The payload at a block index against the aggregation read at an array index: when the first operand's row p is the
    array A's row r, and the other two operands are H and the bias row, entry (p, q) of the payload is entry (r, q) of
    max (A * H + b, 0). The hypotheses are on coordinates, so that they can be given at a block's own index types. -/
private theorem agg_point (A : S10000x10000.Idx → EReal) (H : S10000x512.Idx → EReal) (B : S1x512.Idx → EReal)
    (x0 : Vec Ideal S400x10000 .bf16) (x1 : Vec Ideal S10000x512 .bf16) (x2 : Vec Ideal S1x512 .f32)
    (y : S400x512.Idx) (i : S10000x512.Idx)
    (h0 : ∀ (a : S400x10000.Idx) (k : S10000x10000.Idx), (a 0).val = (y 0).val → (k 0).val = (i 0).val → (k 1).val = (a 1).val → x0 a = A k)
    (h1 : x1 = H) (h2 : x2 = B) (hi : (i 1).val = (y 1).val) :
    k3_pay1 x0 x1 x2 y = Cert.Gcn.aggRelu A H (fun j => B (ix2 0 j)) i := by
  obtain ⟨p, q, rfl⟩ : ∃ (p : Fin 400) (q : Fin 512), y = ix2 p q := ⟨y 0, y 1, eq_ix2 y⟩
  obtain ⟨r, q', rfl⟩ : ∃ (r : Fin 10000) (q' : Fin 512), i = ix2 r q' := ⟨i 0, i 1, eq_ix2 i⟩
  obtain rfl : q' = q := Fin.ext hi
  subst h1 h2
  rw [agg_pay_apply]
  unfold Cert.Gcn.aggRelu Cert.Gcn.mm
  show max ((∑ s : Fin 10000, x0 (ix2 p s) * x1 (ix2 s q')) + x2 (ix2 0 q')) 0
    = max ((∑ s : Fin 10000, A (ix2 r s) * x1 (ix2 s q')) + x2 (ix2 0 q')) 0
  rw [Finset.sum_congr rfl fun s _ => by rw [h0 (ix2 p s) (ix2 r s) rfl rfl rfl]]

/-! ## From blocks to the array -/

private theorem zero_offsets : (![0, 0] : Fin 2 → Nat) = fun _ => 0 := funext fun a => by fin_cases a <;> rfl

/-- The printed index maps, decided over the 25 grid points: the blocks of A and of the output are block row t, all
    columns; H and the bias row are their one whole block at every point. -/
private theorem agg_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b)) (c : Dev nD)

/-- Block t of A is rows 400 t … 400 t + 399 of A, all its columns. -/
private theorem blockA_apply (t : Fin cfg3.N) (x : S400x10000.Idx) (k : S10000x10000.Idx)
    (hk0 : (k 0).val = 400 * t.val + (x 0).val) (hk1 : (k 1).val = (x 1).val) :
    (iblk3 (F := Ideal) V c 0 t : Vec Ideal S400x10000 .bf16) x = (V c (Pipeline.arrRef spec3 0) : S10000x10000.Idx → EReal) k := by
  obtain ⟨e0, e1, -⟩ := agg_index t
  unfold iblk3
  rw [View.read_apply]
  show (V c (Pipeline.arrRef spec3 0) : S10000x10000.Idx → EReal) (((cfg3.win 0).blk t).view.emb x) = _
  refine congrArg _ (funext fun a => Fin.ext ?_)
  match a with
  | ⟨0, _⟩ => show win3_0.index t (0 : Fin 2) * 400 + 1 * (x 0).val = (k 0).val; omega
  | ⟨1, _⟩ => show win3_0.index t (1 : Fin 2) * 10000 + 1 * (x 1).val = (k 1).val; omega

/-- The one block of H is H. -/
private theorem blockH_eq (t : Fin cfg3.N) :
    (iblk3 (F := Ideal) V c 1 t : Vec Ideal S10000x512 .bf16) = (V c (Pipeline.arrRef spec3 1) : S10000x512.Idx → EReal) := by
  obtain ⟨-, -, e2, e3, -⟩ := agg_index t
  funext x
  unfold iblk3
  rw [View.read_apply]
  show (V c (Pipeline.arrRef spec3 1) : S10000x512.Idx → EReal) (((cfg3.win 1).blk t).view.emb x) = _
  refine congrArg _ (funext fun a => Fin.ext ?_)
  match a with
  | ⟨0, _⟩ => show win3_1.index t (0 : Fin 2) * 10000 + 1 * (x 0).val = (x 0).val; omega
  | ⟨1, _⟩ => show win3_1.index t (1 : Fin 2) * 512 + 1 * (x 1).val = (x 1).val; omega

/-- The one block of the bias row is the bias row. -/
private theorem blockB_eq (t : Fin cfg3.N) :
    (iblk3 (F := Ideal) V c 2 t : Vec Ideal S1x512 .f32) = (V c (Pipeline.arrRef spec3 2) : S1x512.Idx → EReal) := by
  obtain ⟨-, -, -, -, e4, e5, -⟩ := agg_index t
  funext x
  unfold iblk3
  rw [View.read_apply]
  show (V c (Pipeline.arrRef spec3 2) : S1x512.Idx → EReal) (((cfg3.win 2).blk t).view.emb x) = _
  refine congrArg _ (funext fun a => Fin.ext ?_)
  match a with
  | ⟨0, _⟩ => show win3_2.index t (0 : Fin 2) * 1 + 1 * (x 0).val = (x 0).val; omega
  | ⟨1, _⟩ => show win3_2.index t (1 : Fin 2) * 512 + 1 * (x 1).val = (x 1).val; omega

/-- The aggregation of the arrays the region finds: max (A * H + b, 0). -/
private abbrev aggOf : S10000x512.Idx → EReal :=
  Cert.Gcn.aggRelu (V c (Pipeline.arrRef spec3 0) : S10000x10000.Idx → EReal)
    (V c (Pipeline.arrRef spec3 1) : S10000x512.Idx → EReal)
    (fun j => (V c (Pipeline.arrRef spec3 2) : S1x512.Idx → EReal) (ValueIdx.ix2 0 j))

/-- WHAT POINT t WRITES BACK is block t of the aggregation: rows 400 t … 400 t + 399. -/
private theorem agg_flushed (t : Fin cfg3.N) :
    (dat3 (F := Ideal) V c).flushed 3 t = ((cfg3.win 3).blk t).view.read (Elt Ideal) (aggOf V c) := by
  show (cfg3.win 3).cut (grid3.coords t) ((dat3 (F := Ideal) V c).after 3 t) = _
  rw [after3_3]
  unfold out3_3
  rw [View.canon_unit_zero zero_offsets]
  simp only [View.ld_unit_zero (S := S400x10000) zero_offsets, View.ld_unit_zero (S := S10000x512) zero_offsets,
    View.ld_unit_zero (S := S1x512) zero_offsets]
  obtain ⟨-, -, -, -, -, -, e6, e7⟩ := agg_index t
  funext j
  rw [View.read_apply]
  show k3_pay1 (iblk3 (F := Ideal) V c 0 t) (iblk3 (F := Ideal) V c 1 t) (iblk3 (F := Ideal) V c 2 t) j
    = aggOf V c (((cfg3.win 3).blk t).view.emb j)
  have hr : ((((cfg3.win 3).blk t).view.emb j) 0).val = win3_3.index t (0 : Fin 2) * 400 + 1 * (j 0).val := rfl
  have hq : ((((cfg3.win 3).blk t).view.emb j) 1).val = win3_3.index t (1 : Fin 2) * 512 + 1 * (j 1).val := rfl
  refine agg_point _ _ _ _ _ _ j _ (fun a k ha hk0 hk1 => blockA_apply V c t a k ?_ hk1) (blockH_eq V c t) (blockB_eq V c t) ?_
  · rw [hk0, hr, ha, e6]; omega
  · rw [hq, e7]; omega

/-- An index of the array is in point t's block iff each coordinate is in the block's range on its axis. -/
private theorem mem_block (t : Fin cfg3.N) (i : S10000x512.Idx) :
    i ∈ ((cfg3.win 3).blk t).view.set ↔ ∀ a : Fin 2, win3_3.index t a * S400x512.size a ≤ (i a).val ∧ (i a).val < win3_3.index t a * S400x512.size a + S400x512.size a := by
  show i ∈ ((View.whole (Pipeline.arrRef spec3 3)).slice (win3_3.rect t)).set ↔ _
  rw [View.set_slice_whole, Rect.mem_set_unit]
  exact Iff.rfl

/-- THE COVER: row r of the array is in the block of point r / 400. -/
private theorem agg_cover (i : S10000x512.Idx) :
    ∃ t : Fin cfg3.N, (cfg3.win 3).flush t = true ∧ i ∈ ((cfg3.win 3).blk t).view.set := by
  have hi0 : (i 0).val < 10000 := (i 0).isLt
  have hi1 : (i 1).val < 512 := (i 1).isLt
  have hN : cfg3.N = 25 := N_3
  refine ⟨⟨(i 0).val / 400, by rw [hN]; omega⟩, flush3_3 _, ?_⟩
  obtain ⟨-, -, -, -, -, -, e6, e7⟩ := agg_index ⟨(i 0).val / 400, by rw [hN]; omega⟩
  rw [mem_block]
  intro a
  match a with
  | ⟨0, _⟩ =>
    show win3_3.index _ (0 : Fin 2) * 400 ≤ (i 0).val ∧ (i 0).val < win3_3.index _ (0 : Fin 2) * 400 + 400
    rw [e6]; show (i 0).val / 400 * 400 ≤ (i 0).val ∧ (i 0).val < (i 0).val / 400 * 400 + 400; omega
  | ⟨1, _⟩ =>
    show win3_3.index _ (1 : Fin 2) * 512 ≤ (i 1).val ∧ (i 1).val < win3_3.index _ (1 : Fin 2) * 512 + 512
    rw [e7]; omega

end

/-- THE ARRAY after the region's last point: max (A * H + b, 0) of the arrays the region found. -/
theorem arr3 (V : (c : Dev nD) → (b : Ref sig .tc) → Buf (Elt Ideal) ((c : Thread nD τ).loc b)) (c : Dev nD) :
    ((dat3 (F := Ideal) V c).arrAt 3 cfg3.N : S10000x512.Idx → EReal)
      = Cert.Gcn.aggRelu (V c (Pipeline.arrRef spec3 0) : S10000x10000.Idx → EReal)
          (V c (Pipeline.arrRef spec3 1) : S10000x512.Idx → EReal)
          (fun j => (V c (Pipeline.arrRef spec3 2) : S1x512.Idx → EReal) (ValueIdx.ix2 0 j)) :=
  (dat3 (F := Ideal) V c).arrAt_eq_of_cover 3 (aggOf V c) (fun t _ => agg_flushed V c t) (agg_cover)

end Cert.KernelIdeal.Hand
-- ==== Proof.KLayer1.lean ====
import proofs.«147721_j75531294868021_1_alg».proof.Proof.Gen.KernelIdeal.Frame
import proofs.«147721_j75531294868021_1_alg».proof.Proof.Spec
import proofs.«147721_j75531294868021_1_alg».proof.Proof.KRegion2
import proofs.«147721_j75531294868021_1_alg».proof.Proof.KRegion3
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! # Layer 1 of the kernel program: from the contents at the layer's entry to the contents at its exit

The layer is two host stretches and two kernel regions. The first stretch cuts the layer's weight matrix and bias
row out of the stacked arguments; the first region multiplies the incoming features by the weight matrix; the second
stretch views the bias as one row; the second region multiplies the adjacency matrix by that product, adds the bias and
clamps below at zero. Read index by index this is the specification's `layerK`. -/

/-! ## Layout operations of the two host stretches, read at an index -/

/-- The weight slice of the stack, viewed as a 512 x 512 matrix and converted to the narrower float type (the identity on
    extended reals), is the specification's slice: entry (p, q) is entry (slice, p, q) of the stack, the row-major
    position ((0 * 512) + p) * 512 + q of the one-slice block being p * 512 + q of the matrix. -/
private theorem weight_slice_read (x : FVec Ideal S4x512x512 .f32) :
    (truncf .bf16 (fun i => shapeCast S512x512 (extractStridedSlice S1x512x512 ![0, 0, 0] x slices_S4x512x512_S1x512x512_0_0_0)
        shapeCasts_S1x512x512_S512x512 i) bitsLt_bf16_f32 : FVec Ideal S512x512 .bf16)
      = Cert.Gcn.wsl x (0 : Fin 4) := by
  funext i
  obtain ⟨p, q, rfl⟩ : ∃ (p : Fin 512) (q : Fin 512), i = ix2 p q := ⟨i 0, i 1, eq_ix2 i⟩
  rw [truncf_apply]
  refine (shapeCast_apply _ _ (ix2 p q) (ix3 (0 : Fin 1) p q) ?_).trans ?_
  · rw [Shape.rowMajor_val_three, Shape.rowMajor_val_two]
    show (0 * 512 + p.val) * 512 + q.val = p.val * 512 + q.val
    omega
  · refine (extractStridedSlice_apply _ _ _ (ix3 (0 : Fin 1) p q) (ix3 (0 : Fin 4) p q) fun a => ?_).trans rfl
    match a with
    | ⟨0, _⟩ => rfl
    | ⟨1, _⟩ => show p.val = 0 + p.val; omega
    | ⟨2, _⟩ => show q.val = 0 + q.val; omega

/-- The bias row of the stack, viewed as a vector of 512 entries, read at j is entry (row, j) of the stack. -/
private theorem bias_slice_read (x : FVec Ideal S4x512 .f32) (j : Fin 512) :
    shapeCast S512 (extractStridedSlice S1x512 ![0, 0] x slices_S4x512_S1x512_0_0) shapeCasts_S1x512_S512 (ix1 j)
      = x (ix2 (0 : Fin 4) j) := by
  refine (shapeCast_apply _ _ (ix1 j) (ix2 (0 : Fin 1) j) ?_).trans ?_
  · rw [Shape.rowMajor_val_two, Shape.rowMajor_val_one]
    show 0 * 512 + j.val = j.val
    omega
  · refine (extractStridedSlice_apply _ _ _ (ix2 (0 : Fin 1) j) (ix2 (0 : Fin 4) j) fun a => ?_).trans rfl
    match a with
    | ⟨0, _⟩ => rfl
    | ⟨1, _⟩ => show j.val = 0 + j.val; omega

/-- A vector of 512 entries viewed as one row: entry (0, j) of the row is entry j of the vector. -/
private theorem row_of_vector_read {α : Type} (v : S512.Idx → α) (j : Fin 512) :
    shapeCast S1x512 v shapeCasts_S512_S1x512 (ix2 (0 : Fin 1) j) = v (ix1 j) := by
  refine shapeCast_apply _ _ (ix2 (0 : Fin 1) j) (ix1 j) ?_
  rw [Shape.rowMajor_val_two, Shape.rowMajor_val_one]
  show j.val = 0 * 512 + j.val
  omega

/-! ## Buffers the layer's pieces leave alone -/

/-- A host stretch leaves a buffer none of its operations writes: each operation's written set is its one result, and
    the buffer in question is a different reference. -/
local macro "host_untouched" : tactic =>
  `(tactic| (refine StableHlo.after_of_forall_not_mem _ _ (List.forall_iff_forall_mem.mp ?_)
             simp only [hostOps2, hostOps3, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first host stretch writes only the slices, their reshapes and the converted weight matrix. -/
private theorem keep_first_stretch (c : Dev nD) (b : Ref sig .tc)
    (hb : b = main_v47 ∨ b = main_v52 ∨ b = main_arg4 ∨ b = main_arg5 ∨ b = main_arg6 ∨ b = main_arg7) :
    W7 m ρ c (Proc.devRef .tc b) = W6 m ρ c (Proc.devRef .tc b) := by
  rcases hb with rfl | rfl | rfl | rfl | rfl | rfl <;> host_untouched

/-- The product region writes only its own three arrays. -/
private theorem keep_product_region (c : Dev nD) (b : Ref sig .tc)
    (hb : b = main_v47 ∨ b = main_v56 ∨ b = main_arg4 ∨ b = main_arg5 ∨ b = main_arg6 ∨ b = main_arg7) :
    W8 m ρ c (Proc.devRef .tc b) = W7 m ρ c (Proc.devRef .tc b) := by
  rcases hb with rfl | rfl | rfl | rfl | rfl | rfl <;> exact W8_of_ne m ρ c _ (by decide)

/-- The second host stretch writes only the bias row. -/
private theorem keep_second_stretch (c : Dev nD) (b : Ref sig .tc)
    (hb : b = main_v47 ∨ b = main_v58 ∨ b = main_arg4 ∨ b = main_arg5 ∨ b = main_arg6 ∨ b = main_arg7) :
    W9 m ρ c (Proc.devRef .tc b) = W8 m ρ c (Proc.devRef .tc b) := by
  rcases hb with rfl | rfl | rfl | rfl | rfl | rfl <;> host_untouched

/-- The aggregation region writes only its own four arrays, -/
private theorem keep_aggregation_region (c : Dev nD) (b : Ref sig .tc)
    (hb : b = main_arg4 ∨ b = main_arg5 ∨ b = main_arg6 ∨ b = main_arg7) :
    W10 m ρ c (Proc.devRef .tc b) = W9 m ρ c (Proc.devRef .tc b) := by
  rcases hb with rfl | rfl | rfl | rfl <;> exact W10_of_ne m ρ c _ (by decide)

/-- and of those the adjacency matrix is an input window's array, which no write-back touches. -/
private theorem keep_adjacency (c : Dev nD) :
    W10 m ρ c (Proc.devRef .tc main_v47) = W9 m ρ c (Proc.devRef .tc main_v47) := by
  refine (W10_arr m ρ c 0).trans ?_
  refine ((dat3 (V9 m ρ) c).arrAt_in 0 rfl cfg3.N).trans ?_
  exact A_eq3 (V9 m ρ) c 0

/-- The adjacency matrix and the stacked and last-layer arguments pass through the whole layer. -/
theorem keep1 (c : Dev nD) (b : Ref sig .tc)
    (hb : b = main_v47 ∨ b = main_arg4 ∨ b = main_arg5 ∨ b = main_arg6 ∨ b = main_arg7) :
    W10 m ρ c (Proc.devRef .tc b) = W6 m ρ c (Proc.devRef .tc b) := by
  have h9 : b = main_v47 ∨ b = main_v58 ∨ b = main_arg4 ∨ b = main_arg5 ∨ b = main_arg6 ∨ b = main_arg7 := by
    rcases hb with h | h | h | h | h <;> simp [h]
  have h8 : b = main_v47 ∨ b = main_v56 ∨ b = main_arg4 ∨ b = main_arg5 ∨ b = main_arg6 ∨ b = main_arg7 := by
    rcases hb with h | h | h | h | h <;> simp [h]
  have h7 : b = main_v47 ∨ b = main_v52 ∨ b = main_arg4 ∨ b = main_arg5 ∨ b = main_arg6 ∨ b = main_arg7 := by
    rcases hb with h | h | h | h | h <;> simp [h]
  refine Eq.trans ?_ ((keep_second_stretch m ρ c b h9).trans
    ((keep_product_region m ρ c b h8).trans (keep_first_stretch m ρ c b h7)))
  rcases hb with rfl | hb
  · exact keep_adjacency m ρ c
  · exact keep_aggregation_region m ρ c b hb

/-! ## What the host stretches write, read back -/

/-- The product region's weight window holds the stack's slice. -/
private theorem weight_window (c : Dev nD) :
    (W7 m ρ c (Proc.devRef .tc main_v57) : S512x512.Idx → EReal)
      = Cert.Gcn.wsl (W6 m ρ c (Proc.devRef .tc main_arg4) : S4x512x512.Idx → EReal) (0 : Fin 4) := by
  show StableHlo.after hostOps2 (W6 m ρ c) (Proc.devRef .tc main_v57) = _
  after_results
  exact weight_slice_read _

/-- The bias vector the first stretch cuts out, at entry j, is entry (row, j) of the stacked biases. -/
private theorem bias_vector (c : Dev nD) (j : Fin 512) :
    (W7 m ρ c (Proc.devRef .tc main_v56) : S512.Idx → EReal) (ix1 j)
      = (W6 m ρ c (Proc.devRef .tc main_arg5) : S4x512.Idx → EReal) (ix2 (0 : Fin 4) j) := by
  show StableHlo.after hostOps2 (W6 m ρ c) (Proc.devRef .tc main_v56) (ix1 j) = _
  after_results
  exact bias_slice_read _ j

/-- The aggregation region's bias window, one row, at (0, j) is the bias vector at j as the region before it left it. -/
private theorem bias_window (c : Dev nD) (j : Fin 512) :
    (W9 m ρ c (Proc.devRef .tc main_v59) : S1x512.Idx → EReal) (ix2 (0 : Fin 1) j)
      = (W8 m ρ c (Proc.devRef .tc main_v56) : S512.Idx → EReal) (ix1 j) := by
  show StableHlo.after hostOps3 (W8 m ρ c) (Proc.devRef .tc main_v59) (ix2 (0 : Fin 1) j) = _
  after_results
  exact row_of_vector_read _ j

/-! ## The layer -/

/-- The aggregation region's second window holds the product of the incoming features and the weight slice. -/
private theorem product_window (c : Dev nD) :
    (W9 m ρ c (Proc.devRef .tc main_v58) : S10000x512.Idx → EReal)
      = Cert.Gcn.mm (W6 m ρ c (Proc.devRef .tc main_v52) : S10000x512.Idx → EReal)
          (Cert.Gcn.wsl (W6 m ρ c (Proc.devRef .tc main_arg4) : S4x512x512.Idx → EReal) (0 : Fin 4)) := by
  refine (keep_second_stretch m ρ c main_v58 (by decide)).trans ?_
  refine (W8_arr m ρ c 2).trans ?_
  refine (arr2 (V7 m ρ) c).trans ?_
  exact congrArg₂ Cert.Gcn.mm (keep_first_stretch m ρ c main_v52 (by decide)) (weight_window m ρ c)

/-- The layer's exit contents of its result array are the specification's layer of its entry contents. -/
theorem step1 (c : Dev nD) :
    (W10 m ρ c (Proc.devRef .tc main_v60) : S10000x512.Idx → EReal)
      = Cert.Gcn.layerK (W6 m ρ c (Proc.devRef .tc main_v47) : S10000x10000.Idx → EReal)
          (W6 m ρ c (Proc.devRef .tc main_v52) : S10000x512.Idx → EReal)
          (Cert.Gcn.wsl (W6 m ρ c (Proc.devRef .tc main_arg4) : S4x512x512.Idx → EReal) (0 : Fin 4))
          (Cert.Gcn.bsl (W6 m ρ c (Proc.devRef .tc main_arg5) : S4x512.Idx → EReal) (0 : Fin 4)) := by
  have hA : (W9 m ρ c (Proc.devRef .tc main_v47) : S10000x10000.Idx → EReal) = W6 m ρ c (Proc.devRef .tc main_v47) :=
    (keep_second_stretch m ρ c main_v47 (by decide)).trans
      ((keep_product_region m ρ c main_v47 (by decide)).trans (keep_first_stretch m ρ c main_v47 (by decide)))
  have hb : (fun j : Fin 512 => (W9 m ρ c (Proc.devRef .tc main_v59) : S1x512.Idx → EReal) (ix2 (0 : Fin 1) j))
      = Cert.Gcn.bsl (W6 m ρ c (Proc.devRef .tc main_arg5) : S4x512.Idx → EReal) (0 : Fin 4) := by
    funext j
    refine (bias_window m ρ c j).trans ?_
    refine (congrFun (keep_product_region m ρ c main_v56 (by decide) :
      (W8 m ρ c (Proc.devRef .tc main_v56) : S512.Idx → EReal) = W7 m ρ c (Proc.devRef .tc main_v56)) (ix1 j)).trans ?_
    exact bias_vector m ρ c j
  refine (W10_arr m ρ c 3).trans ?_
  refine (arr3 (V9 m ρ) c).trans ?_
  show Cert.Gcn.aggRelu (W9 m ρ c (Proc.devRef .tc main_v47) : S10000x10000.Idx → EReal)
      (W9 m ρ c (Proc.devRef .tc main_v58) : S10000x512.Idx → EReal)
      (fun j : Fin 512 => (W9 m ρ c (Proc.devRef .tc main_v59) : S1x512.Idx → EReal) (ix2 (0 : Fin 1) j)) = _
  rw [hA, product_window m ρ c, hb]
  rfl

end Cert.KernelIdeal.Hand

end
-- ==== Proof.KRegion4.lean ====
/-
  The value of matmul region 2 of the kernel program: whatever the buffers hold when the region is entered,
  its output array ends holding the matrix product of its two input arrays. The output block of grid point t
  (rows 400 t .. 400 t + 399, all 512 columns) is the product of rows 400 t .. 400 t + 399 of the left
  array (all 512 columns) with the whole right array; the 25 blocks tile the 10000 rows.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The body's payload at an index -/

/-- The left operand of the product is read at the output's row, -/
private theorem lhs_mm2_0 (i : S400x512.Idx) (q : dot_S400x512_S512x512_S400x512_1_0_0_1_n_n.contr.Idx) :
    (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
/-- and at the contracted index as its column; -/
private theorem lhs_mm2_1 (i : S400x512.Idx) (q : dot_S400x512_S512x512_S400x512_1_0_0_1_n_n.contr.Idx) :
    (dot_S400x512_S512x512_S400x512_1_0_0_1_n_n.lhsIdx i q 1).val = (q ⟨0, by decide⟩).val :=
  dot_S400x512_S512x512_S400x512_1_0_0_1_n_n.lhsIdx_val_of_single rfl i q
/-- the right operand at the contracted index as its row, -/
private theorem rhs_mm2_0 (i : S400x512.Idx) (q : dot_S400x512_S512x512_S400x512_1_0_0_1_n_n.contr.Idx) :
    (dot_S400x512_S512x512_S400x512_1_0_0_1_n_n.rhsIdx i q 0).val = (q ⟨0, by decide⟩).val :=
  dot_S400x512_S512x512_S400x512_1_0_0_1_n_n.rhsIdx_val_of_single rfl i q
/-- and at the output's column. -/
private theorem rhs_mm2_1 (i : S400x512.Idx) (q : dot_S400x512_S512x512_S400x512_1_0_0_1_n_n.contr.Idx) :
    (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- Entry (p, q) of the body's payload is the sum over k of the left block at (p, k) times the right block at (k, q):
    the shape casts are identities, the product accumulates into zero, and narrowing the result does nothing to an
    extended real. -/
private theorem pay2_apply (x0 : Vec Ideal S400x512 .bf16) (x1 : Vec Ideal S512x512 .bf16) (p : Fin 400) (q : Fin 512) :
    k4_pay1 x0 x1 (ix2 p q) = ∑ k : Fin 512, x0 (ix2 p k) * x1 (ix2 k q) := by
  unfold k4_pay1
  rw [truncf_apply, shapeCast_self, shapeCast_self]
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S400x512_S512x512_S400x512_1_0_0_1_n_n.rhsIdx (ix2 p q) ((contrEquiv1 dot_S400x512_S512x512_S400x512_1_0_0_1_n_n 512 rfl rfl).symm k) = ix2 k q := funext fun a => Fin.ext (by
    match a with
    | ⟨0, _⟩ => exact (rhs_mm2_0 _ _).trans hk
    | ⟨1, _⟩ => exact rhs_mm2_1 _ _)
  rw [el, er]

/-! ## From a block of the product to the product of the arrays -/

/-- If the left block's row p is row (row i) of X and the right block's column q is column (col i) of W,
    entry (p, q) of the payload is entry i of the product X W. -/
private theorem pay2_eq_mm (X : S10000x512.Idx → EReal) (W : S512x512.Idx → EReal)
    (x0 : Vec Ideal S400x512 .bf16) (x1 : Vec Ideal S512x512 .bf16) (i : S10000x512.Idx) (p : Fin 400) (q : Fin 512)
    (h0 : ∀ k : Fin 512, x0 (ix2 p k) = X (ix2 (Cert.Gcn.row i) k))
    (h1 : ∀ k : Fin 512, x1 (ix2 k q) = W (ix2 k (Cert.Gcn.col i))) :
    k4_pay1 x0 x1 (ix2 p q) = Cert.Gcn.mm X W i := by
  rw [pay2_apply]
  unfold Cert.Gcn.mm
  exact Finset.sum_congr rfl fun k _ => by rw [h0 k, h1 k]

private theorem zeroOffsets : (![0, 0] : Fin 2 → Nat) = fun _ => 0 := funext fun a => by fin_cases a <;> rfl

/-- The printed index maps, decided over the 25 grid points: the left window and the output window are at block row t,
    block column 0; the right window stays at block (0, 0). -/
private theorem blockIdx2 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

set_option maxHeartbeats 1000000 in
/-- What grid point t writes back is block t of the product of the two input arrays as the region finds them. -/
private theorem flushed2_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (Cert.Gcn.mm (V c (Pipeline.arrRef spec4 0) : S10000x512.Idx → EReal) (V c (Pipeline.arrRef spec4 1) : S512x512.Idx → EReal)) := by
  show (cfg4.win 2).cut (grid4.coords t) ((dat4 (F := Ideal) V c).after 2 t) = _
  rw [after4_2]
  unfold out4_2
  rw [View.canon_unit_zero zeroOffsets]
  simp only [View.ld_unit_zero (S := S400x512) zeroOffsets, View.ld_unit_zero (S := S512x512) zeroOffsets]
  obtain ⟨e0, e1, e2, e3, e4, e5⟩ := blockIdx2 t
  funext j
  obtain ⟨p, q, rfl⟩ : ∃ (p : Fin 400) (q : Fin 512), j = ix2 p q := ⟨j 0, j 1, eq_ix2 j⟩
  show k4_pay1 (iblk4 V c 0 t) (iblk4 V c 1 t) (ix2 p q)
    = Cert.Gcn.mm (V c (Pipeline.arrRef spec4 0) : S10000x512.Idx → EReal) (V c (Pipeline.arrRef spec4 1) : S512x512.Idx → EReal)
        (((cfg4.win 2).blk t).view.emb (ix2 p q))
  refine pay2_eq_mm _ _ _ _ _ p q (fun k => ?_) (fun k => ?_)
  · -- the left block's row p is row 400 t + p of the left array
    show V c (Pipeline.arrRef spec4 0) (((cfg4.win 0).blk t).view.emb (ix2 p k)) = V c (Pipeline.arrRef spec4 0) _
    refine congrArg _ (funext fun a => Fin.ext ?_)
    match a with
    | ⟨0, _⟩ => show win4_0.index t (0 : Fin 2) * 400 + 1 * p.val = win4_2.index t (0 : Fin 2) * 400 + 1 * p.val; omega
    | ⟨1, _⟩ => show win4_0.index t (1 : Fin 2) * 512 + 1 * k.val = k.val; omega
  · -- the right block is the whole right array
    show V c (Pipeline.arrRef spec4 1) (((cfg4.win 1).blk t).view.emb (ix2 k q)) = V c (Pipeline.arrRef spec4 1) _
    refine congrArg _ (funext fun a => Fin.ext ?_)
    match a with
    | ⟨0, _⟩ => show win4_1.index t (0 : Fin 2) * 512 + 1 * k.val = k.val; omega
    | ⟨1, _⟩ => show win4_1.index t (1 : Fin 2) * 512 + 1 * q.val = win4_2.index t (1 : Fin 2) * 512 + 1 * q.val; omega

/-- An index of the output array is in point t's block iff each coordinate is in the block's range on its axis. -/
private theorem mem_blk2 (t : Fin cfg4.N) (i : S10000x512.Idx) :
    i ∈ ((cfg4.win 2).blk t).view.set ↔ ∀ a : Fin 2, win4_2.index t a * S400x512.size a ≤ (i a).val ∧ (i a).val < win4_2.index t a * S400x512.size a + S400x512.size a := by
  show i ∈ ((View.whole (Pipeline.arrRef spec4 2)).slice (win4_2.rect t)).set ↔ _
  rw [View.set_slice_whole, Rect.mem_set_unit]
  exact Iff.rfl

/-- Row r of the output array is in the block of grid point r / 400: the 25 blocks tile the 10000 rows. -/
private theorem cover2 (i : S10000x512.Idx) :
    ∃ t : Fin cfg4.N, (cfg4.win 2).flush t = true ∧ i ∈ ((cfg4.win 2).blk t).view.set := by
  have hi0 : (i 0).val < 10000 := (i 0).isLt
  have hi1 : (i 1).val < 512 := (i 1).isLt
  have hN : cfg4.N = 25 := N_4
  have hd : (i 0).val / 400 < cfg4.N := by omega
  obtain ⟨e0, e1, e2, e3, e4, e5⟩ := blockIdx2 ⟨(i 0).val / 400, hd⟩
  refine ⟨⟨(i 0).val / 400, hd⟩, flush4_2 _, ?_⟩
  rw [mem_blk2]
  intro a
  match a with
  | ⟨0, _⟩ =>
    show win4_2.index ⟨(i 0).val / 400, hd⟩ (0 : Fin 2) * 400 ≤ (i 0).val ∧ (i 0).val < win4_2.index ⟨(i 0).val / 400, hd⟩ (0 : Fin 2) * 400 + 400
    rw [e4]; show (i 0).val / 400 * 400 ≤ (i 0).val ∧ (i 0).val < (i 0).val / 400 * 400 + 400; omega
  | ⟨1, _⟩ =>
    show win4_2.index ⟨(i 0).val / 400, hd⟩ (1 : Fin 2) * 512 ≤ (i 1).val ∧ (i 1).val < win4_2.index ⟨(i 0).val / 400, hd⟩ (1 : Fin 2) * 512 + 512
    rw [e5]; omega

/-! ## The region's value -/

/-- The output array after the region is the matrix product of the two input arrays as the region finds them. -/
theorem arr4 (V : (c : Dev nD) → (b : Ref sig .tc) → Buf (Elt Ideal) ((c : Thread nD τ).loc b)) (c : Dev nD) :
    ((dat4 (F := Ideal) V c).arrAt 2 cfg4.N : S10000x512.Idx → EReal)
      = Cert.Gcn.mm (V c (Pipeline.arrRef spec4 0) : S10000x512.Idx → EReal) (V c (Pipeline.arrRef spec4 1) : S512x512.Idx → EReal) :=
  (dat4 (F := Ideal) V c).arrAt_eq_of_cover 2 _ (fun t _ => flushed2_eq V c t) cover2

end Cert.KernelIdeal.Hand

end
-- ==== Proof.KRegion5.lean ====
/-
  The value of an aggregation region of the kernel program: whatever the buffers hold when the region is entered,
  the output array after the last grid point is max (A * H + b, 0), entry by entry, A being read in blocks of
  400 rows and H and the bias row whole.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's payload at an index -/

/-- The left operand's index of the product at output (i, ·) and contraction index q has row i's row … -/
private theorem lhs_agg_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
/-- … and the contraction coordinate as its column; -/
private theorem lhs_agg_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
/-- the right operand's has the contraction coordinate as its row … -/
private theorem rhs_agg_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
/-- … and the output's column. -/
private theorem rhs_agg_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The block product into the zero accumulator, read at (p, q): the sum over the 10000 columns of the row block. -/
private theorem agg_matmul_apply (x0 : FVec Ideal S400x10000 .bf16) (x1 : FVec Ideal S10000x512 .bf16) (p : Fin 400) (q : Fin 512) :
    matmul dot_S400x10000_S10000x512_S400x512_1_0_0_1_n_n none x0 x1 (constant (F := Ideal) S400x512 .f32 0x00000000#32) (ix2 p q)
      = ∑ s : Fin 10000, x0 (ix2 p s) * x1 (ix2 s q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The bias row broadcast down the 400 rows, read at (p, q): the row's entry in column q. -/
private theorem agg_bias_apply (x2 : FVec Ideal S1x512 .f32) (p : Fin 400) (q : Fin 512) :
    broadcastTo S400x512 x2 broadcasts_S1x512_S400x512 (ix2 p q) = x2 (ix2 0 q) := by
  refine broadcastTo_apply x2 broadcasts_S1x512_S400x512 (ix2 p q) (ix2 0 q) fun a => ?_
  match a with
  | ⟨0, _⟩ => rfl
  | ⟨1, _⟩ => rfl

/-- THE PAYLOAD AT AN INDEX: max (sum over s of x0(p, s) * x1(s, q) + x2(0, q), 0). -/
private theorem agg_pay_apply (x0 : Vec Ideal S400x10000 .bf16) (x1 : Vec Ideal S10000x512 .bf16) (x2 : Vec Ideal S1x512 .f32)
    (p : Fin 400) (q : Fin 512) :
    k5_pay1 x0 x1 x2 (ix2 p q) = max ((∑ s : Fin 10000, x0 (ix2 p s) * x1 (ix2 s q)) + x2 (ix2 0 q)) 0 := by
  unfold k5_pay1
  simp only [shapeCast_self]
  rw [truncf_apply, maximumf_apply, addf_apply, broadcast_apply, agg_matmul_apply, agg_bias_apply]
  show max _ (Ideal.ofBits .f32 0x00000000#32) = _
  rw [Ideal.ofBits_zero_f32]

/-- The payload at a block index against the aggregation read at an array index: when the first operand's row p is the
    array A's row r, and the other two operands are H and the bias row, entry (p, q) of the payload is entry (r, q) of
    max (A * H + b, 0). The hypotheses are on coordinates, so that they can be given at a block's own index types. -/
private theorem agg_point (A : S10000x10000.Idx → EReal) (H : S10000x512.Idx → EReal) (B : S1x512.Idx → EReal)
    (x0 : Vec Ideal S400x10000 .bf16) (x1 : Vec Ideal S10000x512 .bf16) (x2 : Vec Ideal S1x512 .f32)
    (y : S400x512.Idx) (i : S10000x512.Idx)
    (h0 : ∀ (a : S400x10000.Idx) (k : S10000x10000.Idx), (a 0).val = (y 0).val → (k 0).val = (i 0).val → (k 1).val = (a 1).val → x0 a = A k)
    (h1 : x1 = H) (h2 : x2 = B) (hi : (i 1).val = (y 1).val) :
    k5_pay1 x0 x1 x2 y = Cert.Gcn.aggRelu A H (fun j => B (ix2 0 j)) i := by
  obtain ⟨p, q, rfl⟩ : ∃ (p : Fin 400) (q : Fin 512), y = ix2 p q := ⟨y 0, y 1, eq_ix2 y⟩
  obtain ⟨r, q', rfl⟩ : ∃ (r : Fin 10000) (q' : Fin 512), i = ix2 r q' := ⟨i 0, i 1, eq_ix2 i⟩
  obtain rfl : q' = q := Fin.ext hi
  subst h1 h2
  rw [agg_pay_apply]
  unfold Cert.Gcn.aggRelu Cert.Gcn.mm
  show max ((∑ s : Fin 10000, x0 (ix2 p s) * x1 (ix2 s q')) + x2 (ix2 0 q')) 0
    = max ((∑ s : Fin 10000, A (ix2 r s) * x1 (ix2 s q')) + x2 (ix2 0 q')) 0
  rw [Finset.sum_congr rfl fun s _ => by rw [h0 (ix2 p s) (ix2 r s) rfl rfl rfl]]

/-! ## From blocks to the array -/

private theorem zero_offsets : (![0, 0] : Fin 2 → Nat) = fun _ => 0 := funext fun a => by fin_cases a <;> rfl

/-- The printed index maps, decided over the 25 grid points: the blocks of A and of the output are block row t, all
    columns; H and the bias row are their one whole block at every point. -/
private theorem agg_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section
variable (V : (c : Dev nD) → (b : Ref sig .tc) → Buf (Elt Ideal) ((c : Thread nD τ).loc b)) (c : Dev nD)

/-- Block t of A is rows 400 t … 400 t + 399 of A, all its columns. -/
private theorem blockA_apply (t : Fin cfg5.N) (x : S400x10000.Idx) (k : S10000x10000.Idx)
    (hk0 : (k 0).val = 400 * t.val + (x 0).val) (hk1 : (k 1).val = (x 1).val) :
    (iblk5 (F := Ideal) V c 0 t : Vec Ideal S400x10000 .bf16) x = (V c (Pipeline.arrRef spec5 0) : S10000x10000.Idx → EReal) k := by
  obtain ⟨e0, e1, -⟩ := agg_index t
  unfold iblk5
  rw [View.read_apply]
  show (V c (Pipeline.arrRef spec5 0) : S10000x10000.Idx → EReal) (((cfg5.win 0).blk t).view.emb x) = _
  refine congrArg _ (funext fun a => Fin.ext ?_)
  match a with
  | ⟨0, _⟩ => show win5_0.index t (0 : Fin 2) * 400 + 1 * (x 0).val = (k 0).val; omega
  | ⟨1, _⟩ => show win5_0.index t (1 : Fin 2) * 10000 + 1 * (x 1).val = (k 1).val; omega

/-- The one block of H is H. -/
private theorem blockH_eq (t : Fin cfg5.N) :
    (iblk5 (F := Ideal) V c 1 t : Vec Ideal S10000x512 .bf16) = (V c (Pipeline.arrRef spec5 1) : S10000x512.Idx → EReal) := by
  obtain ⟨-, -, e2, e3, -⟩ := agg_index t
  funext x
  unfold iblk5
  rw [View.read_apply]
  show (V c (Pipeline.arrRef spec5 1) : S10000x512.Idx → EReal) (((cfg5.win 1).blk t).view.emb x) = _
  refine congrArg _ (funext fun a => Fin.ext ?_)
  match a with
  | ⟨0, _⟩ => show win5_1.index t (0 : Fin 2) * 10000 + 1 * (x 0).val = (x 0).val; omega
  | ⟨1, _⟩ => show win5_1.index t (1 : Fin 2) * 512 + 1 * (x 1).val = (x 1).val; omega

/-- The one block of the bias row is the bias row. -/
private theorem blockB_eq (t : Fin cfg5.N) :
    (iblk5 (F := Ideal) V c 2 t : Vec Ideal S1x512 .f32) = (V c (Pipeline.arrRef spec5 2) : S1x512.Idx → EReal) := by
  obtain ⟨-, -, -, -, e4, e5, -⟩ := agg_index t
  funext x
  unfold iblk5
  rw [View.read_apply]
  show (V c (Pipeline.arrRef spec5 2) : S1x512.Idx → EReal) (((cfg5.win 2).blk t).view.emb x) = _
  refine congrArg _ (funext fun a => Fin.ext ?_)
  match a with
  | ⟨0, _⟩ => show win5_2.index t (0 : Fin 2) * 1 + 1 * (x 0).val = (x 0).val; omega
  | ⟨1, _⟩ => show win5_2.index t (1 : Fin 2) * 512 + 1 * (x 1).val = (x 1).val; omega

/-- The aggregation of the arrays the region finds: max (A * H + b, 0). -/
private abbrev aggOf : S10000x512.Idx → EReal :=
  Cert.Gcn.aggRelu (V c (Pipeline.arrRef spec5 0) : S10000x10000.Idx → EReal)
    (V c (Pipeline.arrRef spec5 1) : S10000x512.Idx → EReal)
    (fun j => (V c (Pipeline.arrRef spec5 2) : S1x512.Idx → EReal) (ValueIdx.ix2 0 j))

/-- WHAT POINT t WRITES BACK is block t of the aggregation: rows 400 t … 400 t + 399. -/
private theorem agg_flushed (t : Fin cfg5.N) :
    (dat5 (F := Ideal) V c).flushed 3 t = ((cfg5.win 3).blk t).view.read (Elt Ideal) (aggOf V c) := by
  show (cfg5.win 3).cut (grid5.coords t) ((dat5 (F := Ideal) V c).after 3 t) = _
  rw [after5_3]
  unfold out5_3
  rw [View.canon_unit_zero zero_offsets]
  simp only [View.ld_unit_zero (S := S400x10000) zero_offsets, View.ld_unit_zero (S := S10000x512) zero_offsets,
    View.ld_unit_zero (S := S1x512) zero_offsets]
  obtain ⟨-, -, -, -, -, -, e6, e7⟩ := agg_index t
  funext j
  rw [View.read_apply]
  show k5_pay1 (iblk5 (F := Ideal) V c 0 t) (iblk5 (F := Ideal) V c 1 t) (iblk5 (F := Ideal) V c 2 t) j
    = aggOf V c (((cfg5.win 3).blk t).view.emb j)
  have hr : ((((cfg5.win 3).blk t).view.emb j) 0).val = win5_3.index t (0 : Fin 2) * 400 + 1 * (j 0).val := rfl
  have hq : ((((cfg5.win 3).blk t).view.emb j) 1).val = win5_3.index t (1 : Fin 2) * 512 + 1 * (j 1).val := rfl
  refine agg_point _ _ _ _ _ _ j _ (fun a k ha hk0 hk1 => blockA_apply V c t a k ?_ hk1) (blockH_eq V c t) (blockB_eq V c t) ?_
  · rw [hk0, hr, ha, e6]; omega
  · rw [hq, e7]; omega

/-- An index of the array is in point t's block iff each coordinate is in the block's range on its axis. -/
private theorem mem_block (t : Fin cfg5.N) (i : S10000x512.Idx) :
    i ∈ ((cfg5.win 3).blk t).view.set ↔ ∀ a : Fin 2, win5_3.index t a * S400x512.size a ≤ (i a).val ∧ (i a).val < win5_3.index t a * S400x512.size a + S400x512.size a := by
  show i ∈ ((View.whole (Pipeline.arrRef spec5 3)).slice (win5_3.rect t)).set ↔ _
  rw [View.set_slice_whole, Rect.mem_set_unit]
  exact Iff.rfl

/-- THE COVER: row r of the array is in the block of point r / 400. -/
private theorem agg_cover (i : S10000x512.Idx) :
    ∃ t : Fin cfg5.N, (cfg5.win 3).flush t = true ∧ i ∈ ((cfg5.win 3).blk t).view.set := by
  have hi0 : (i 0).val < 10000 := (i 0).isLt
  have hi1 : (i 1).val < 512 := (i 1).isLt
  have hN : cfg5.N = 25 := N_5
  refine ⟨⟨(i 0).val / 400, by rw [hN]; omega⟩, flush5_3 _, ?_⟩
  obtain ⟨-, -, -, -, -, -, e6, e7⟩ := agg_index ⟨(i 0).val / 400, by rw [hN]; omega⟩
  rw [mem_block]
  intro a
  match a with
  | ⟨0, _⟩ =>
    show win5_3.index _ (0 : Fin 2) * 400 ≤ (i 0).val ∧ (i 0).val < win5_3.index _ (0 : Fin 2) * 400 + 400
    rw [e6]; show (i 0).val / 400 * 400 ≤ (i 0).val ∧ (i 0).val < (i 0).val / 400 * 400 + 400; omega
  | ⟨1, _⟩ =>
    show win5_3.index _ (1 : Fin 2) * 512 ≤ (i 1).val ∧ (i 1).val < win5_3.index _ (1 : Fin 2) * 512 + 512
    rw [e7]; omega

end

/-- THE ARRAY after the region's last point: max (A * H + b, 0) of the arrays the region found. -/
theorem arr5 (V : (c : Dev nD) → (b : Ref sig .tc) → Buf (Elt Ideal) ((c : Thread nD τ).loc b)) (c : Dev nD) :
    ((dat5 (F := Ideal) V c).arrAt 3 cfg5.N : S10000x512.Idx → EReal)
      = Cert.Gcn.aggRelu (V c (Pipeline.arrRef spec5 0) : S10000x10000.Idx → EReal)
          (V c (Pipeline.arrRef spec5 1) : S10000x512.Idx → EReal)
          (fun j => (V c (Pipeline.arrRef spec5 2) : S1x512.Idx → EReal) (ValueIdx.ix2 0 j)) :=
  (dat5 (F := Ideal) V c).arrAt_eq_of_cover 3 (aggOf V c) (fun t _ => agg_flushed V c t) (agg_cover)

end Cert.KernelIdeal.Hand
-- ==== Proof.KLayer2.lean ====
import proofs.«147721_j75531294868021_1_alg».proof.Proof.Gen.KernelIdeal.Frame
import proofs.«147721_j75531294868021_1_alg».proof.Proof.Spec
import proofs.«147721_j75531294868021_1_alg».proof.Proof.KRegion4
import proofs.«147721_j75531294868021_1_alg».proof.Proof.KRegion5
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! # Layer 1 of the kernel program: from the contents at the layer's entry to the contents at its exit

The layer is two host stretches and two kernel regions. The first stretch cuts the layer's weight matrix and bias
row out of the stacked arguments; the first region multiplies the incoming features by the weight matrix; the second
stretch views the bias as one row; the second region multiplies the adjacency matrix by that product, adds the bias and
clamps below at zero. Read index by index this is the specification's `layerK`. -/

/-! ## Layout operations of the two host stretches, read at an index -/

/-- The weight slice of the stack, viewed as a 512 x 512 matrix and converted to the narrower float type (the identity on
    extended reals), is the specification's slice: entry (p, q) is entry (slice, p, q) of the stack, the row-major
    position ((0 * 512) + p) * 512 + q of the one-slice block being p * 512 + q of the matrix. -/
private theorem weight_slice_read (x : FVec Ideal S4x512x512 .f32) :
    (truncf .bf16 (fun i => shapeCast S512x512 (extractStridedSlice S1x512x512 ![1, 0, 0] x slices_S4x512x512_S1x512x512_1_0_0)
        shapeCasts_S1x512x512_S512x512 i) bitsLt_bf16_f32 : FVec Ideal S512x512 .bf16)
      = Cert.Gcn.wsl x (1 : Fin 4) := by
  funext i
  obtain ⟨p, q, rfl⟩ : ∃ (p : Fin 512) (q : Fin 512), i = ix2 p q := ⟨i 0, i 1, eq_ix2 i⟩
  rw [truncf_apply]
  refine (shapeCast_apply _ _ (ix2 p q) (ix3 (0 : Fin 1) p q) ?_).trans ?_
  · rw [Shape.rowMajor_val_three, Shape.rowMajor_val_two]
    show (0 * 512 + p.val) * 512 + q.val = p.val * 512 + q.val
    omega
  · refine (extractStridedSlice_apply _ _ _ (ix3 (0 : Fin 1) p q) (ix3 (1 : Fin 4) p q) fun a => ?_).trans rfl
    match a with
    | ⟨0, _⟩ => rfl
    | ⟨1, _⟩ => show p.val = 0 + p.val; omega
    | ⟨2, _⟩ => show q.val = 0 + q.val; omega

/-- The bias row of the stack, viewed as a vector of 512 entries, read at j is entry (row, j) of the stack. -/
private theorem bias_slice_read (x : FVec Ideal S4x512 .f32) (j : Fin 512) :
    shapeCast S512 (extractStridedSlice S1x512 ![1, 0] x slices_S4x512_S1x512_1_0) shapeCasts_S1x512_S512 (ix1 j)
      = x (ix2 (1 : Fin 4) j) := by
  refine (shapeCast_apply _ _ (ix1 j) (ix2 (0 : Fin 1) j) ?_).trans ?_
  · rw [Shape.rowMajor_val_two, Shape.rowMajor_val_one]
    show 0 * 512 + j.val = j.val
    omega
  · refine (extractStridedSlice_apply _ _ _ (ix2 (0 : Fin 1) j) (ix2 (1 : Fin 4) j) fun a => ?_).trans rfl
    match a with
    | ⟨0, _⟩ => rfl
    | ⟨1, _⟩ => show j.val = 0 + j.val; omega

/-- A vector of 512 entries viewed as one row: entry (0, j) of the row is entry j of the vector. -/
private theorem row_of_vector_read {α : Type} (v : S512.Idx → α) (j : Fin 512) :
    shapeCast S1x512 v shapeCasts_S512_S1x512 (ix2 (0 : Fin 1) j) = v (ix1 j) := by
  refine shapeCast_apply _ _ (ix2 (0 : Fin 1) j) (ix1 j) ?_
  rw [Shape.rowMajor_val_two, Shape.rowMajor_val_one]
  show j.val = 0 * 512 + j.val
  omega

/-! ## Buffers the layer's pieces leave alone -/

/-- A host stretch leaves a buffer none of its operations writes: each operation's written set is its one result, and
    the buffer in question is a different reference. -/
local macro "host_untouched" : tactic =>
  `(tactic| (refine StableHlo.after_of_forall_not_mem _ _ (List.forall_iff_forall_mem.mp ?_)
             simp only [hostOps4, hostOps5, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first host stretch writes only the slices, their reshapes and the converted weight matrix. -/
private theorem keep_first_stretch (c : Dev nD) (b : Ref sig .tc)
    (hb : b = main_v47 ∨ b = main_v60 ∨ b = main_arg4 ∨ b = main_arg5 ∨ b = main_arg6 ∨ b = main_arg7) :
    W11 m ρ c (Proc.devRef .tc b) = W10 m ρ c (Proc.devRef .tc b) := by
  rcases hb with rfl | rfl | rfl | rfl | rfl | rfl <;> host_untouched

/-- The product region writes only its own three arrays. -/
private theorem keep_product_region (c : Dev nD) (b : Ref sig .tc)
    (hb : b = main_v47 ∨ b = main_v64 ∨ b = main_arg4 ∨ b = main_arg5 ∨ b = main_arg6 ∨ b = main_arg7) :
    W12 m ρ c (Proc.devRef .tc b) = W11 m ρ c (Proc.devRef .tc b) := by
  rcases hb with rfl | rfl | rfl | rfl | rfl | rfl <;> exact W12_of_ne m ρ c _ (by decide)

/-- The second host stretch writes only the bias row. -/
private theorem keep_second_stretch (c : Dev nD) (b : Ref sig .tc)
    (hb : b = main_v47 ∨ b = main_v66 ∨ b = main_arg4 ∨ b = main_arg5 ∨ b = main_arg6 ∨ b = main_arg7) :
    W13 m ρ c (Proc.devRef .tc b) = W12 m ρ c (Proc.devRef .tc b) := by
  rcases hb with rfl | rfl | rfl | rfl | rfl | rfl <;> host_untouched

/-- The aggregation region writes only its own four arrays, -/
private theorem keep_aggregation_region (c : Dev nD) (b : Ref sig .tc)
    (hb : b = main_arg4 ∨ b = main_arg5 ∨ b = main_arg6 ∨ b = main_arg7) :
    W14 m ρ c (Proc.devRef .tc b) = W13 m ρ c (Proc.devRef .tc b) := by
  rcases hb with rfl | rfl | rfl | rfl <;> exact W14_of_ne m ρ c _ (by decide)

/-- and of those the adjacency matrix is an input window's array, which no write-back touches. -/
private theorem keep_adjacency (c : Dev nD) :
    W14 m ρ c (Proc.devRef .tc main_v47) = W13 m ρ c (Proc.devRef .tc main_v47) := by
  refine (W14_arr m ρ c 0).trans ?_
  refine ((dat5 (V13 m ρ) c).arrAt_in 0 rfl cfg5.N).trans ?_
  exact A_eq5 (V13 m ρ) c 0

/-- The adjacency matrix and the stacked and last-layer arguments pass through the whole layer. -/
theorem keep2 (c : Dev nD) (b : Ref sig .tc)
    (hb : b = main_v47 ∨ b = main_arg4 ∨ b = main_arg5 ∨ b = main_arg6 ∨ b = main_arg7) :
    W14 m ρ c (Proc.devRef .tc b) = W10 m ρ c (Proc.devRef .tc b) := by
  have h9 : b = main_v47 ∨ b = main_v66 ∨ b = main_arg4 ∨ b = main_arg5 ∨ b = main_arg6 ∨ b = main_arg7 := by
    rcases hb with h | h | h | h | h <;> simp [h]
  have h8 : b = main_v47 ∨ b = main_v64 ∨ b = main_arg4 ∨ b = main_arg5 ∨ b = main_arg6 ∨ b = main_arg7 := by
    rcases hb with h | h | h | h | h <;> simp [h]
  have h7 : b = main_v47 ∨ b = main_v60 ∨ b = main_arg4 ∨ b = main_arg5 ∨ b = main_arg6 ∨ b = main_arg7 := by
    rcases hb with h | h | h | h | h <;> simp [h]
  refine Eq.trans ?_ ((keep_second_stretch m ρ c b h9).trans
    ((keep_product_region m ρ c b h8).trans (keep_first_stretch m ρ c b h7)))
  rcases hb with rfl | hb
  · exact keep_adjacency m ρ c
  · exact keep_aggregation_region m ρ c b hb

/-! ## What the host stretches write, read back -/

/-- The product region's weight window holds the stack's slice. -/
private theorem weight_window (c : Dev nD) :
    (W11 m ρ c (Proc.devRef .tc main_v65) : S512x512.Idx → EReal)
      = Cert.Gcn.wsl (W10 m ρ c (Proc.devRef .tc main_arg4) : S4x512x512.Idx → EReal) (1 : Fin 4) := by
  show StableHlo.after hostOps4 (W10 m ρ c) (Proc.devRef .tc main_v65) = _
  after_results
  exact weight_slice_read _

/-- The bias vector the first stretch cuts out, at entry j, is entry (row, j) of the stacked biases. -/
private theorem bias_vector (c : Dev nD) (j : Fin 512) :
    (W11 m ρ c (Proc.devRef .tc main_v64) : S512.Idx → EReal) (ix1 j)
      = (W10 m ρ c (Proc.devRef .tc main_arg5) : S4x512.Idx → EReal) (ix2 (1 : Fin 4) j) := by
  show StableHlo.after hostOps4 (W10 m ρ c) (Proc.devRef .tc main_v64) (ix1 j) = _
  after_results
  exact bias_slice_read _ j

/-- The aggregation region's bias window, one row, at (0, j) is the bias vector at j as the region before it left it. -/
private theorem bias_window (c : Dev nD) (j : Fin 512) :
    (W13 m ρ c (Proc.devRef .tc main_v67) : S1x512.Idx → EReal) (ix2 (0 : Fin 1) j)
      = (W12 m ρ c (Proc.devRef .tc main_v64) : S512.Idx → EReal) (ix1 j) := by
  show StableHlo.after hostOps5 (W12 m ρ c) (Proc.devRef .tc main_v67) (ix2 (0 : Fin 1) j) = _
  after_results
  exact row_of_vector_read _ j

/-! ## The layer -/

/-- The aggregation region's second window holds the product of the incoming features and the weight slice. -/
private theorem product_window (c : Dev nD) :
    (W13 m ρ c (Proc.devRef .tc main_v66) : S10000x512.Idx → EReal)
      = Cert.Gcn.mm (W10 m ρ c (Proc.devRef .tc main_v60) : S10000x512.Idx → EReal)
          (Cert.Gcn.wsl (W10 m ρ c (Proc.devRef .tc main_arg4) : S4x512x512.Idx → EReal) (1 : Fin 4)) := by
  refine (keep_second_stretch m ρ c main_v66 (by decide)).trans ?_
  refine (W12_arr m ρ c 2).trans ?_
  refine (arr4 (V11 m ρ) c).trans ?_
  exact congrArg₂ Cert.Gcn.mm (keep_first_stretch m ρ c main_v60 (by decide)) (weight_window m ρ c)

/-- The layer's exit contents of its result array are the specification's layer of its entry contents. -/
theorem step2 (c : Dev nD) :
    (W14 m ρ c (Proc.devRef .tc main_v68) : S10000x512.Idx → EReal)
      = Cert.Gcn.layerK (W10 m ρ c (Proc.devRef .tc main_v47) : S10000x10000.Idx → EReal)
          (W10 m ρ c (Proc.devRef .tc main_v60) : S10000x512.Idx → EReal)
          (Cert.Gcn.wsl (W10 m ρ c (Proc.devRef .tc main_arg4) : S4x512x512.Idx → EReal) (1 : Fin 4))
          (Cert.Gcn.bsl (W10 m ρ c (Proc.devRef .tc main_arg5) : S4x512.Idx → EReal) (1 : Fin 4)) := by
  have hA : (W13 m ρ c (Proc.devRef .tc main_v47) : S10000x10000.Idx → EReal) = W10 m ρ c (Proc.devRef .tc main_v47) :=
    (keep_second_stretch m ρ c main_v47 (by decide)).trans
      ((keep_product_region m ρ c main_v47 (by decide)).trans (keep_first_stretch m ρ c main_v47 (by decide)))
  have hb : (fun j : Fin 512 => (W13 m ρ c (Proc.devRef .tc main_v67) : S1x512.Idx → EReal) (ix2 (0 : Fin 1) j))
      = Cert.Gcn.bsl (W10 m ρ c (Proc.devRef .tc main_arg5) : S4x512.Idx → EReal) (1 : Fin 4) := by
    funext j
    refine (bias_window m ρ c j).trans ?_
    refine (congrFun (keep_product_region m ρ c main_v64 (by decide) :
      (W12 m ρ c (Proc.devRef .tc main_v64) : S512.Idx → EReal) = W11 m ρ c (Proc.devRef .tc main_v64)) (ix1 j)).trans ?_
    exact bias_vector m ρ c j
  refine (W14_arr m ρ c 3).trans ?_
  refine (arr5 (V13 m ρ) c).trans ?_
  show Cert.Gcn.aggRelu (W13 m ρ c (Proc.devRef .tc main_v47) : S10000x10000.Idx → EReal)
      (W13 m ρ c (Proc.devRef .tc main_v66) : S10000x512.Idx → EReal)
      (fun j : Fin 512 => (W13 m ρ c (Proc.devRef .tc main_v67) : S1x512.Idx → EReal) (ix2 (0 : Fin 1) j)) = _
  rw [hA, product_window m ρ c, hb]
  rfl

end Cert.KernelIdeal.Hand

end
-- ==== Proof.KRegion6.lean ====
/-
  The value of matmul region 2 of the kernel program: whatever the buffers hold when the region is entered,
  its output array ends holding the matrix product of its two input arrays. The output block of grid point t
  (rows 400 t .. 400 t + 399, all 512 columns) is the product of rows 400 t .. 400 t + 399 of the left
  array (all 512 columns) with the whole right array; the 25 blocks tile the 10000 rows.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The body's payload at an index -/

/-- The left operand of the product is read at the output's row, -/
private theorem lhs_mm2_0 (i : S400x512.Idx) (q : dot_S400x512_S512x512_S400x512_1_0_0_1_n_n.contr.Idx) :
    (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
/-- and at the contracted index as its column; -/
private theorem lhs_mm2_1 (i : S400x512.Idx) (q : dot_S400x512_S512x512_S400x512_1_0_0_1_n_n.contr.Idx) :
    (dot_S400x512_S512x512_S400x512_1_0_0_1_n_n.lhsIdx i q 1).val = (q ⟨0, by decide⟩).val :=
  dot_S400x512_S512x512_S400x512_1_0_0_1_n_n.lhsIdx_val_of_single rfl i q
/-- the right operand at the contracted index as its row, -/
private theorem rhs_mm2_0 (i : S400x512.Idx) (q : dot_S400x512_S512x512_S400x512_1_0_0_1_n_n.contr.Idx) :
    (dot_S400x512_S512x512_S400x512_1_0_0_1_n_n.rhsIdx i q 0).val = (q ⟨0, by decide⟩).val :=
  dot_S400x512_S512x512_S400x512_1_0_0_1_n_n.rhsIdx_val_of_single rfl i q
/-- and at the output's column. -/
private theorem rhs_mm2_1 (i : S400x512.Idx) (q : dot_S400x512_S512x512_S400x512_1_0_0_1_n_n.contr.Idx) :
    (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- Entry (p, q) of the body's payload is the sum over k of the left block at (p, k) times the right block at (k, q):
    the shape casts are identities, the product accumulates into zero, and narrowing the result does nothing to an
    extended real. -/
private theorem pay2_apply (x0 : Vec Ideal S400x512 .bf16) (x1 : Vec Ideal S512x512 .bf16) (p : Fin 400) (q : Fin 512) :
    k6_pay1 x0 x1 (ix2 p q) = ∑ k : Fin 512, x0 (ix2 p k) * x1 (ix2 k q) := by
  unfold k6_pay1
  rw [truncf_apply, shapeCast_self, shapeCast_self]
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S400x512_S512x512_S400x512_1_0_0_1_n_n.rhsIdx (ix2 p q) ((contrEquiv1 dot_S400x512_S512x512_S400x512_1_0_0_1_n_n 512 rfl rfl).symm k) = ix2 k q := funext fun a => Fin.ext (by
    match a with
    | ⟨0, _⟩ => exact (rhs_mm2_0 _ _).trans hk
    | ⟨1, _⟩ => exact rhs_mm2_1 _ _)
  rw [el, er]

/-! ## From a block of the product to the product of the arrays -/

/-- If the left block's row p is row (row i) of X and the right block's column q is column (col i) of W,
    entry (p, q) of the payload is entry i of the product X W. -/
private theorem pay2_eq_mm (X : S10000x512.Idx → EReal) (W : S512x512.Idx → EReal)
    (x0 : Vec Ideal S400x512 .bf16) (x1 : Vec Ideal S512x512 .bf16) (i : S10000x512.Idx) (p : Fin 400) (q : Fin 512)
    (h0 : ∀ k : Fin 512, x0 (ix2 p k) = X (ix2 (Cert.Gcn.row i) k))
    (h1 : ∀ k : Fin 512, x1 (ix2 k q) = W (ix2 k (Cert.Gcn.col i))) :
    k6_pay1 x0 x1 (ix2 p q) = Cert.Gcn.mm X W i := by
  rw [pay2_apply]
  unfold Cert.Gcn.mm
  exact Finset.sum_congr rfl fun k _ => by rw [h0 k, h1 k]

private theorem zeroOffsets : (![0, 0] : Fin 2 → Nat) = fun _ => 0 := funext fun a => by fin_cases a <;> rfl

/-- The printed index maps, decided over the 25 grid points: the left window and the output window are at block row t,
    block column 0; the right window stays at block (0, 0). -/
private theorem blockIdx2 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

set_option maxHeartbeats 1000000 in
/-- What grid point t writes back is block t of the product of the two input arrays as the region finds them. -/
private theorem flushed2_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal)
      (Cert.Gcn.mm (V c (Pipeline.arrRef spec6 0) : S10000x512.Idx → EReal) (V c (Pipeline.arrRef spec6 1) : S512x512.Idx → EReal)) := by
  show (cfg6.win 2).cut (grid6.coords t) ((dat6 (F := Ideal) V c).after 2 t) = _
  rw [after6_2]
  unfold out6_2
  rw [View.canon_unit_zero zeroOffsets]
  simp only [View.ld_unit_zero (S := S400x512) zeroOffsets, View.ld_unit_zero (S := S512x512) zeroOffsets]
  obtain ⟨e0, e1, e2, e3, e4, e5⟩ := blockIdx2 t
  funext j
  obtain ⟨p, q, rfl⟩ : ∃ (p : Fin 400) (q : Fin 512), j = ix2 p q := ⟨j 0, j 1, eq_ix2 j⟩
  show k6_pay1 (iblk6 V c 0 t) (iblk6 V c 1 t) (ix2 p q)
    = Cert.Gcn.mm (V c (Pipeline.arrRef spec6 0) : S10000x512.Idx → EReal) (V c (Pipeline.arrRef spec6 1) : S512x512.Idx → EReal)
        (((cfg6.win 2).blk t).view.emb (ix2 p q))
  refine pay2_eq_mm _ _ _ _ _ p q (fun k => ?_) (fun k => ?_)
  · -- the left block's row p is row 400 t + p of the left array
    show V c (Pipeline.arrRef spec6 0) (((cfg6.win 0).blk t).view.emb (ix2 p k)) = V c (Pipeline.arrRef spec6 0) _
    refine congrArg _ (funext fun a => Fin.ext ?_)
    match a with
    | ⟨0, _⟩ => show win6_0.index t (0 : Fin 2) * 400 + 1 * p.val = win6_2.index t (0 : Fin 2) * 400 + 1 * p.val; omega
    | ⟨1, _⟩ => show win6_0.index t (1 : Fin 2) * 512 + 1 * k.val = k.val; omega
  · -- the right block is the whole right array
    show V c (Pipeline.arrRef spec6 1) (((cfg6.win 1).blk t).view.emb (ix2 k q)) = V c (Pipeline.arrRef spec6 1) _
    refine congrArg _ (funext fun a => Fin.ext ?_)
    match a with
    | ⟨0, _⟩ => show win6_1.index t (0 : Fin 2) * 512 + 1 * k.val = k.val; omega
    | ⟨1, _⟩ => show win6_1.index t (1 : Fin 2) * 512 + 1 * q.val = win6_2.index t (1 : Fin 2) * 512 + 1 * q.val; omega

/-- An index of the output array is in point t's block iff each coordinate is in the block's range on its axis. -/
private theorem mem_blk2 (t : Fin cfg6.N) (i : S10000x512.Idx) :
    i ∈ ((cfg6.win 2).blk t).view.set ↔ ∀ a : Fin 2, win6_2.index t a * S400x512.size a ≤ (i a).val ∧ (i a).val < win6_2.index t a * S400x512.size a + S400x512.size a := by
  show i ∈ ((View.whole (Pipeline.arrRef spec6 2)).slice (win6_2.rect t)).set ↔ _
  rw [View.set_slice_whole, Rect.mem_set_unit]
  exact Iff.rfl

/-- Row r of the output array is in the block of grid point r / 400: the 25 blocks tile the 10000 rows. -/
private theorem cover2 (i : S10000x512.Idx) :
    ∃ t : Fin cfg6.N, (cfg6.win 2).flush t = true ∧ i ∈ ((cfg6.win 2).blk t).view.set := by
  have hi0 : (i 0).val < 10000 := (i 0).isLt
  have hi1 : (i 1).val < 512 := (i 1).isLt
  have hN : cfg6.N = 25 := N_6
  have hd : (i 0).val / 400 < cfg6.N := by omega
  obtain ⟨e0, e1, e2, e3, e4, e5⟩ := blockIdx2 ⟨(i 0).val / 400, hd⟩
  refine ⟨⟨(i 0).val / 400, hd⟩, flush6_2 _, ?_⟩
  rw [mem_blk2]
  intro a
  match a with
  | ⟨0, _⟩ =>
    show win6_2.index ⟨(i 0).val / 400, hd⟩ (0 : Fin 2) * 400 ≤ (i 0).val ∧ (i 0).val < win6_2.index ⟨(i 0).val / 400, hd⟩ (0 : Fin 2) * 400 + 400
    rw [e4]; show (i 0).val / 400 * 400 ≤ (i 0).val ∧ (i 0).val < (i 0).val / 400 * 400 + 400; omega
  | ⟨1, _⟩ =>
    show win6_2.index ⟨(i 0).val / 400, hd⟩ (1 : Fin 2) * 512 ≤ (i 1).val ∧ (i 1).val < win6_2.index ⟨(i 0).val / 400, hd⟩ (1 : Fin 2) * 512 + 512
    rw [e5]; omega

/-! ## The region's value -/

/-- The output array after the region is the matrix product of the two input arrays as the region finds them. -/
theorem arr6 (V : (c : Dev nD) → (b : Ref sig .tc) → Buf (Elt Ideal) ((c : Thread nD τ).loc b)) (c : Dev nD) :
    ((dat6 (F := Ideal) V c).arrAt 2 cfg6.N : S10000x512.Idx → EReal)
      = Cert.Gcn.mm (V c (Pipeline.arrRef spec6 0) : S10000x512.Idx → EReal) (V c (Pipeline.arrRef spec6 1) : S512x512.Idx → EReal) :=
  (dat6 (F := Ideal) V c).arrAt_eq_of_cover 2 _ (fun t _ => flushed2_eq V c t) cover2

end Cert.KernelIdeal.Hand

end
-- ==== Proof.KRegion7.lean ====
/-
  The value of an aggregation region of the kernel program: whatever the buffers hold when the region is entered,
  the output array after the last grid point is max (A * H + b, 0), entry by entry, A being read in blocks of
  400 rows and H and the bias row whole.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's payload at an index -/

/-- The left operand's index of the product at output (i, ·) and contraction index q has row i's row … -/
private theorem lhs_agg_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
/-- … and the contraction coordinate as its column; -/
private theorem lhs_agg_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
/-- the right operand's has the contraction coordinate as its row … -/
private theorem rhs_agg_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
/-- … and the output's column. -/
private theorem rhs_agg_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The block product into the zero accumulator, read at (p, q): the sum over the 10000 columns of the row block. -/
private theorem agg_matmul_apply (x0 : FVec Ideal S400x10000 .bf16) (x1 : FVec Ideal S10000x512 .bf16) (p : Fin 400) (q : Fin 512) :
    matmul dot_S400x10000_S10000x512_S400x512_1_0_0_1_n_n none x0 x1 (constant (F := Ideal) S400x512 .f32 0x00000000#32) (ix2 p q)
      = ∑ s : Fin 10000, x0 (ix2 p s) * x1 (ix2 s q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The bias row broadcast down the 400 rows, read at (p, q): the row's entry in column q. -/
private theorem agg_bias_apply (x2 : FVec Ideal S1x512 .f32) (p : Fin 400) (q : Fin 512) :
    broadcastTo S400x512 x2 broadcasts_S1x512_S400x512 (ix2 p q) = x2 (ix2 0 q) := by
  refine broadcastTo_apply x2 broadcasts_S1x512_S400x512 (ix2 p q) (ix2 0 q) fun a => ?_
  match a with
  | ⟨0, _⟩ => rfl
  | ⟨1, _⟩ => rfl

/-- THE PAYLOAD AT AN INDEX: max (sum over s of x0(p, s) * x1(s, q) + x2(0, q), 0). -/
private theorem agg_pay_apply (x0 : Vec Ideal S400x10000 .bf16) (x1 : Vec Ideal S10000x512 .bf16) (x2 : Vec Ideal S1x512 .f32)
    (p : Fin 400) (q : Fin 512) :
    k7_pay1 x0 x1 x2 (ix2 p q) = max ((∑ s : Fin 10000, x0 (ix2 p s) * x1 (ix2 s q)) + x2 (ix2 0 q)) 0 := by
  unfold k7_pay1
  simp only [shapeCast_self]
  rw [truncf_apply, maximumf_apply, addf_apply, broadcast_apply, agg_matmul_apply, agg_bias_apply]
  show max _ (Ideal.ofBits .f32 0x00000000#32) = _
  rw [Ideal.ofBits_zero_f32]

/-- The payload at a block index against the aggregation read at an array index: when the first operand's row p is the
    array A's row r, and the other two operands are H and the bias row, entry (p, q) of the payload is entry (r, q) of
    max (A * H + b, 0). The hypotheses are on coordinates, so that they can be given at a block's own index types. -/
private theorem agg_point (A : S10000x10000.Idx → EReal) (H : S10000x512.Idx → EReal) (B : S1x512.Idx → EReal)
    (x0 : Vec Ideal S400x10000 .bf16) (x1 : Vec Ideal S10000x512 .bf16) (x2 : Vec Ideal S1x512 .f32)
    (y : S400x512.Idx) (i : S10000x512.Idx)
    (h0 : ∀ (a : S400x10000.Idx) (k : S10000x10000.Idx), (a 0).val = (y 0).val → (k 0).val = (i 0).val → (k 1).val = (a 1).val → x0 a = A k)
    (h1 : x1 = H) (h2 : x2 = B) (hi : (i 1).val = (y 1).val) :
    k7_pay1 x0 x1 x2 y = Cert.Gcn.aggRelu A H (fun j => B (ix2 0 j)) i := by
  obtain ⟨p, q, rfl⟩ : ∃ (p : Fin 400) (q : Fin 512), y = ix2 p q := ⟨y 0, y 1, eq_ix2 y⟩
  obtain ⟨r, q', rfl⟩ : ∃ (r : Fin 10000) (q' : Fin 512), i = ix2 r q' := ⟨i 0, i 1, eq_ix2 i⟩
  obtain rfl : q' = q := Fin.ext hi
  subst h1 h2
  rw [agg_pay_apply]
  unfold Cert.Gcn.aggRelu Cert.Gcn.mm
  show max ((∑ s : Fin 10000, x0 (ix2 p s) * x1 (ix2 s q')) + x2 (ix2 0 q')) 0
    = max ((∑ s : Fin 10000, A (ix2 r s) * x1 (ix2 s q')) + x2 (ix2 0 q')) 0
  rw [Finset.sum_congr rfl fun s _ => by rw [h0 (ix2 p s) (ix2 r s) rfl rfl rfl]]

/-! ## From blocks to the array -/

private theorem zero_offsets : (![0, 0] : Fin 2 → Nat) = fun _ => 0 := funext fun a => by fin_cases a <;> rfl

/-- The printed index maps, decided over the 25 grid points: the blocks of A and of the output are block row t, all
    columns; H and the bias row are their one whole block at every point. -/
private theorem agg_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

section
variable (V : (c : Dev nD) → (b : Ref sig .tc) → Buf (Elt Ideal) ((c : Thread nD τ).loc b)) (c : Dev nD)

/-- Block t of A is rows 400 t … 400 t + 399 of A, all its columns. -/
private theorem blockA_apply (t : Fin cfg7.N) (x : S400x10000.Idx) (k : S10000x10000.Idx)
    (hk0 : (k 0).val = 400 * t.val + (x 0).val) (hk1 : (k 1).val = (x 1).val) :
    (iblk7 (F := Ideal) V c 0 t : Vec Ideal S400x10000 .bf16) x = (V c (Pipeline.arrRef spec7 0) : S10000x10000.Idx → EReal) k := by
  obtain ⟨e0, e1, -⟩ := agg_index t
  unfold iblk7
  rw [View.read_apply]
  show (V c (Pipeline.arrRef spec7 0) : S10000x10000.Idx → EReal) (((cfg7.win 0).blk t).view.emb x) = _
  refine congrArg _ (funext fun a => Fin.ext ?_)
  match a with
  | ⟨0, _⟩ => show win7_0.index t (0 : Fin 2) * 400 + 1 * (x 0).val = (k 0).val; omega
  | ⟨1, _⟩ => show win7_0.index t (1 : Fin 2) * 10000 + 1 * (x 1).val = (k 1).val; omega

/-- The one block of H is H. -/
private theorem blockH_eq (t : Fin cfg7.N) :
    (iblk7 (F := Ideal) V c 1 t : Vec Ideal S10000x512 .bf16) = (V c (Pipeline.arrRef spec7 1) : S10000x512.Idx → EReal) := by
  obtain ⟨-, -, e2, e3, -⟩ := agg_index t
  funext x
  unfold iblk7
  rw [View.read_apply]
  show (V c (Pipeline.arrRef spec7 1) : S10000x512.Idx → EReal) (((cfg7.win 1).blk t).view.emb x) = _
  refine congrArg _ (funext fun a => Fin.ext ?_)
  match a with
  | ⟨0, _⟩ => show win7_1.index t (0 : Fin 2) * 10000 + 1 * (x 0).val = (x 0).val; omega
  | ⟨1, _⟩ => show win7_1.index t (1 : Fin 2) * 512 + 1 * (x 1).val = (x 1).val; omega

/-- The one block of the bias row is the bias row. -/
private theorem blockB_eq (t : Fin cfg7.N) :
    (iblk7 (F := Ideal) V c 2 t : Vec Ideal S1x512 .f32) = (V c (Pipeline.arrRef spec7 2) : S1x512.Idx → EReal) := by
  obtain ⟨-, -, -, -, e4, e5, -⟩ := agg_index t
  funext x
  unfold iblk7
  rw [View.read_apply]
  show (V c (Pipeline.arrRef spec7 2) : S1x512.Idx → EReal) (((cfg7.win 2).blk t).view.emb x) = _
  refine congrArg _ (funext fun a => Fin.ext ?_)
  match a with
  | ⟨0, _⟩ => show win7_2.index t (0 : Fin 2) * 1 + 1 * (x 0).val = (x 0).val; omega
  | ⟨1, _⟩ => show win7_2.index t (1 : Fin 2) * 512 + 1 * (x 1).val = (x 1).val; omega

/-- The aggregation of the arrays the region finds: max (A * H + b, 0). -/
private abbrev aggOf : S10000x512.Idx → EReal :=
  Cert.Gcn.aggRelu (V c (Pipeline.arrRef spec7 0) : S10000x10000.Idx → EReal)
    (V c (Pipeline.arrRef spec7 1) : S10000x512.Idx → EReal)
    (fun j => (V c (Pipeline.arrRef spec7 2) : S1x512.Idx → EReal) (ValueIdx.ix2 0 j))

/-- WHAT POINT t WRITES BACK is block t of the aggregation: rows 400 t … 400 t + 399. -/
private theorem agg_flushed (t : Fin cfg7.N) :
    (dat7 (F := Ideal) V c).flushed 3 t = ((cfg7.win 3).blk t).view.read (Elt Ideal) (aggOf V c) := by
  show (cfg7.win 3).cut (grid7.coords t) ((dat7 (F := Ideal) V c).after 3 t) = _
  rw [after7_3]
  unfold out7_3
  rw [View.canon_unit_zero zero_offsets]
  simp only [View.ld_unit_zero (S := S400x10000) zero_offsets, View.ld_unit_zero (S := S10000x512) zero_offsets,
    View.ld_unit_zero (S := S1x512) zero_offsets]
  obtain ⟨-, -, -, -, -, -, e6, e7⟩ := agg_index t
  funext j
  rw [View.read_apply]
  show k7_pay1 (iblk7 (F := Ideal) V c 0 t) (iblk7 (F := Ideal) V c 1 t) (iblk7 (F := Ideal) V c 2 t) j
    = aggOf V c (((cfg7.win 3).blk t).view.emb j)
  have hr : ((((cfg7.win 3).blk t).view.emb j) 0).val = win7_3.index t (0 : Fin 2) * 400 + 1 * (j 0).val := rfl
  have hq : ((((cfg7.win 3).blk t).view.emb j) 1).val = win7_3.index t (1 : Fin 2) * 512 + 1 * (j 1).val := rfl
  refine agg_point _ _ _ _ _ _ j _ (fun a k ha hk0 hk1 => blockA_apply V c t a k ?_ hk1) (blockH_eq V c t) (blockB_eq V c t) ?_
  · rw [hk0, hr, ha, e6]; omega
  · rw [hq, e7]; omega

/-- An index of the array is in point t's block iff each coordinate is in the block's range on its axis. -/
private theorem mem_block (t : Fin cfg7.N) (i : S10000x512.Idx) :
    i ∈ ((cfg7.win 3).blk t).view.set ↔ ∀ a : Fin 2, win7_3.index t a * S400x512.size a ≤ (i a).val ∧ (i a).val < win7_3.index t a * S400x512.size a + S400x512.size a := by
  show i ∈ ((View.whole (Pipeline.arrRef spec7 3)).slice (win7_3.rect t)).set ↔ _
  rw [View.set_slice_whole, Rect.mem_set_unit]
  exact Iff.rfl

/-- THE COVER: row r of the array is in the block of point r / 400. -/
private theorem agg_cover (i : S10000x512.Idx) :
    ∃ t : Fin cfg7.N, (cfg7.win 3).flush t = true ∧ i ∈ ((cfg7.win 3).blk t).view.set := by
  have hi0 : (i 0).val < 10000 := (i 0).isLt
  have hi1 : (i 1).val < 512 := (i 1).isLt
  have hN : cfg7.N = 25 := N_7
  refine ⟨⟨(i 0).val / 400, by rw [hN]; omega⟩, flush7_3 _, ?_⟩
  obtain ⟨-, -, -, -, -, -, e6, e7⟩ := agg_index ⟨(i 0).val / 400, by rw [hN]; omega⟩
  rw [mem_block]
  intro a
  match a with
  | ⟨0, _⟩ =>
    show win7_3.index _ (0 : Fin 2) * 400 ≤ (i 0).val ∧ (i 0).val < win7_3.index _ (0 : Fin 2) * 400 + 400
    rw [e6]; show (i 0).val / 400 * 400 ≤ (i 0).val ∧ (i 0).val < (i 0).val / 400 * 400 + 400; omega
  | ⟨1, _⟩ =>
    show win7_3.index _ (1 : Fin 2) * 512 ≤ (i 1).val ∧ (i 1).val < win7_3.index _ (1 : Fin 2) * 512 + 512
    rw [e7]; omega

end

/-- THE ARRAY after the region's last point: max (A * H + b, 0) of the arrays the region found. -/
theorem arr7 (V : (c : Dev nD) → (b : Ref sig .tc) → Buf (Elt Ideal) ((c : Thread nD τ).loc b)) (c : Dev nD) :
    ((dat7 (F := Ideal) V c).arrAt 3 cfg7.N : S10000x512.Idx → EReal)
      = Cert.Gcn.aggRelu (V c (Pipeline.arrRef spec7 0) : S10000x10000.Idx → EReal)
          (V c (Pipeline.arrRef spec7 1) : S10000x512.Idx → EReal)
          (fun j => (V c (Pipeline.arrRef spec7 2) : S1x512.Idx → EReal) (ValueIdx.ix2 0 j)) :=
  (dat7 (F := Ideal) V c).arrAt_eq_of_cover 3 (aggOf V c) (fun t _ => agg_flushed V c t) (agg_cover)

end Cert.KernelIdeal.Hand
-- ==== Proof.KLayer3.lean ====
import proofs.«147721_j75531294868021_1_alg».proof.Proof.Gen.KernelIdeal.Frame
import proofs.«147721_j75531294868021_1_alg».proof.Proof.Spec
import proofs.«147721_j75531294868021_1_alg».proof.Proof.KRegion6
import proofs.«147721_j75531294868021_1_alg».proof.Proof.KRegion7
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! # Layer 1 of the kernel program: from the contents at the layer's entry to the contents at its exit

The layer is two host stretches and two kernel regions. The first stretch cuts the layer's weight matrix and bias
row out of the stacked arguments; the first region multiplies the incoming features by the weight matrix; the second
stretch views the bias as one row; the second region multiplies the adjacency matrix by that product, adds the bias and
clamps below at zero. Read index by index this is the specification's `layerK`. -/

/-! ## Layout operations of the two host stretches, read at an index -/

/-- The weight slice of the stack, viewed as a 512 x 512 matrix and converted to the narrower float type (the identity on
    extended reals), is the specification's slice: entry (p, q) is entry (slice, p, q) of the stack, the row-major
    position ((0 * 512) + p) * 512 + q of the one-slice block being p * 512 + q of the matrix. -/
private theorem weight_slice_read (x : FVec Ideal S4x512x512 .f32) :
    (truncf .bf16 (fun i => shapeCast S512x512 (extractStridedSlice S1x512x512 ![2, 0, 0] x slices_S4x512x512_S1x512x512_2_0_0)
        shapeCasts_S1x512x512_S512x512 i) bitsLt_bf16_f32 : FVec Ideal S512x512 .bf16)
      = Cert.Gcn.wsl x (2 : Fin 4) := by
  funext i
  obtain ⟨p, q, rfl⟩ : ∃ (p : Fin 512) (q : Fin 512), i = ix2 p q := ⟨i 0, i 1, eq_ix2 i⟩
  rw [truncf_apply]
  refine (shapeCast_apply _ _ (ix2 p q) (ix3 (0 : Fin 1) p q) ?_).trans ?_
  · rw [Shape.rowMajor_val_three, Shape.rowMajor_val_two]
    show (0 * 512 + p.val) * 512 + q.val = p.val * 512 + q.val
    omega
  · refine (extractStridedSlice_apply _ _ _ (ix3 (0 : Fin 1) p q) (ix3 (2 : Fin 4) p q) fun a => ?_).trans rfl
    match a with
    | ⟨0, _⟩ => rfl
    | ⟨1, _⟩ => show p.val = 0 + p.val; omega
    | ⟨2, _⟩ => show q.val = 0 + q.val; omega

/-- The bias row of the stack, viewed as a vector of 512 entries, read at j is entry (row, j) of the stack. -/
private theorem bias_slice_read (x : FVec Ideal S4x512 .f32) (j : Fin 512) :
    shapeCast S512 (extractStridedSlice S1x512 ![2, 0] x slices_S4x512_S1x512_2_0) shapeCasts_S1x512_S512 (ix1 j)
      = x (ix2 (2 : Fin 4) j) := by
  refine (shapeCast_apply _ _ (ix1 j) (ix2 (0 : Fin 1) j) ?_).trans ?_
  · rw [Shape.rowMajor_val_two, Shape.rowMajor_val_one]
    show 0 * 512 + j.val = j.val
    omega
  · refine (extractStridedSlice_apply _ _ _ (ix2 (0 : Fin 1) j) (ix2 (2 : Fin 4) j) fun a => ?_).trans rfl
    match a with
    | ⟨0, _⟩ => rfl
    | ⟨1, _⟩ => show j.val = 0 + j.val; omega

/-- A vector of 512 entries viewed as one row: entry (0, j) of the row is entry j of the vector. -/
private theorem row_of_vector_read {α : Type} (v : S512.Idx → α) (j : Fin 512) :
    shapeCast S1x512 v shapeCasts_S512_S1x512 (ix2 (0 : Fin 1) j) = v (ix1 j) := by
  refine shapeCast_apply _ _ (ix2 (0 : Fin 1) j) (ix1 j) ?_
  rw [Shape.rowMajor_val_two, Shape.rowMajor_val_one]
  show j.val = 0 * 512 + j.val
  omega

/-! ## Buffers the layer's pieces leave alone -/

/-- A host stretch leaves a buffer none of its operations writes: each operation's written set is its one result, and
    the buffer in question is a different reference. -/
local macro "host_untouched" : tactic =>
  `(tactic| (refine StableHlo.after_of_forall_not_mem _ _ (List.forall_iff_forall_mem.mp ?_)
             simp only [hostOps6, hostOps7, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first host stretch writes only the slices, their reshapes and the converted weight matrix. -/
private theorem keep_first_stretch (c : Dev nD) (b : Ref sig .tc)
    (hb : b = main_v47 ∨ b = main_v68 ∨ b = main_arg4 ∨ b = main_arg5 ∨ b = main_arg6 ∨ b = main_arg7) :
    W15 m ρ c (Proc.devRef .tc b) = W14 m ρ c (Proc.devRef .tc b) := by
  rcases hb with rfl | rfl | rfl | rfl | rfl | rfl <;> host_untouched

/-- The product region writes only its own three arrays. -/
private theorem keep_product_region (c : Dev nD) (b : Ref sig .tc)
    (hb : b = main_v47 ∨ b = main_v72 ∨ b = main_arg4 ∨ b = main_arg5 ∨ b = main_arg6 ∨ b = main_arg7) :
    W16 m ρ c (Proc.devRef .tc b) = W15 m ρ c (Proc.devRef .tc b) := by
  rcases hb with rfl | rfl | rfl | rfl | rfl | rfl <;> exact W16_of_ne m ρ c _ (by decide)

/-- The second host stretch writes only the bias row. -/
private theorem keep_second_stretch (c : Dev nD) (b : Ref sig .tc)
    (hb : b = main_v47 ∨ b = main_v74 ∨ b = main_arg4 ∨ b = main_arg5 ∨ b = main_arg6 ∨ b = main_arg7) :
    W17 m ρ c (Proc.devRef .tc b) = W16 m ρ c (Proc.devRef .tc b) := by
  rcases hb with rfl | rfl | rfl | rfl | rfl | rfl <;> host_untouched

/-- The aggregation region writes only its own four arrays, -/
private theorem keep_aggregation_region (c : Dev nD) (b : Ref sig .tc)
    (hb : b = main_arg4 ∨ b = main_arg5 ∨ b = main_arg6 ∨ b = main_arg7) :
    W18 m ρ c (Proc.devRef .tc b) = W17 m ρ c (Proc.devRef .tc b) := by
  rcases hb with rfl | rfl | rfl | rfl <;> exact W18_of_ne m ρ c _ (by decide)

/-- and of those the adjacency matrix is an input window's array, which no write-back touches. -/
private theorem keep_adjacency (c : Dev nD) :
    W18 m ρ c (Proc.devRef .tc main_v47) = W17 m ρ c (Proc.devRef .tc main_v47) := by
  refine (W18_arr m ρ c 0).trans ?_
  refine ((dat7 (V17 m ρ) c).arrAt_in 0 rfl cfg7.N).trans ?_
  exact A_eq7 (V17 m ρ) c 0

/-- The adjacency matrix and the stacked and last-layer arguments pass through the whole layer. -/
theorem keep3 (c : Dev nD) (b : Ref sig .tc)
    (hb : b = main_v47 ∨ b = main_arg4 ∨ b = main_arg5 ∨ b = main_arg6 ∨ b = main_arg7) :
    W18 m ρ c (Proc.devRef .tc b) = W14 m ρ c (Proc.devRef .tc b) := by
  have h9 : b = main_v47 ∨ b = main_v74 ∨ b = main_arg4 ∨ b = main_arg5 ∨ b = main_arg6 ∨ b = main_arg7 := by
    rcases hb with h | h | h | h | h <;> simp [h]
  have h8 : b = main_v47 ∨ b = main_v72 ∨ b = main_arg4 ∨ b = main_arg5 ∨ b = main_arg6 ∨ b = main_arg7 := by
    rcases hb with h | h | h | h | h <;> simp [h]
  have h7 : b = main_v47 ∨ b = main_v68 ∨ b = main_arg4 ∨ b = main_arg5 ∨ b = main_arg6 ∨ b = main_arg7 := by
    rcases hb with h | h | h | h | h <;> simp [h]
  refine Eq.trans ?_ ((keep_second_stretch m ρ c b h9).trans
    ((keep_product_region m ρ c b h8).trans (keep_first_stretch m ρ c b h7)))
  rcases hb with rfl | hb
  · exact keep_adjacency m ρ c
  · exact keep_aggregation_region m ρ c b hb

/-! ## What the host stretches write, read back -/

/-- The product region's weight window holds the stack's slice. -/
private theorem weight_window (c : Dev nD) :
    (W15 m ρ c (Proc.devRef .tc main_v73) : S512x512.Idx → EReal)
      = Cert.Gcn.wsl (W14 m ρ c (Proc.devRef .tc main_arg4) : S4x512x512.Idx → EReal) (2 : Fin 4) := by
  show StableHlo.after hostOps6 (W14 m ρ c) (Proc.devRef .tc main_v73) = _
  after_results
  exact weight_slice_read _

/-- The bias vector the first stretch cuts out, at entry j, is entry (row, j) of the stacked biases. -/
private theorem bias_vector (c : Dev nD) (j : Fin 512) :
    (W15 m ρ c (Proc.devRef .tc main_v72) : S512.Idx → EReal) (ix1 j)
      = (W14 m ρ c (Proc.devRef .tc main_arg5) : S4x512.Idx → EReal) (ix2 (2 : Fin 4) j) := by
  show StableHlo.after hostOps6 (W14 m ρ c) (Proc.devRef .tc main_v72) (ix1 j) = _
  after_results
  exact bias_slice_read _ j

/-- The aggregation region's bias window, one row, at (0, j) is the bias vector at j as the region before it left it. -/
private theorem bias_window (c : Dev nD) (j : Fin 512) :
    (W17 m ρ c (Proc.devRef .tc main_v75) : S1x512.Idx → EReal) (ix2 (0 : Fin 1) j)
      = (W16 m ρ c (Proc.devRef .tc main_v72) : S512.Idx → EReal) (ix1 j) := by
  show StableHlo.after hostOps7 (W16 m ρ c) (Proc.devRef .tc main_v75) (ix2 (0 : Fin 1) j) = _
  after_results
  exact row_of_vector_read _ j

/-! ## The layer -/

/-- The aggregation region's second window holds the product of the incoming features and the weight slice. -/
private theorem product_window (c : Dev nD) :
    (W17 m ρ c (Proc.devRef .tc main_v74) : S10000x512.Idx → EReal)
      = Cert.Gcn.mm (W14 m ρ c (Proc.devRef .tc main_v68) : S10000x512.Idx → EReal)
          (Cert.Gcn.wsl (W14 m ρ c (Proc.devRef .tc main_arg4) : S4x512x512.Idx → EReal) (2 : Fin 4)) := by
  refine (keep_second_stretch m ρ c main_v74 (by decide)).trans ?_
  refine (W16_arr m ρ c 2).trans ?_
  refine (arr6 (V15 m ρ) c).trans ?_
  exact congrArg₂ Cert.Gcn.mm (keep_first_stretch m ρ c main_v68 (by decide)) (weight_window m ρ c)

/-- The layer's exit contents of its result array are the specification's layer of its entry contents. -/
theorem step3 (c : Dev nD) :
    (W18 m ρ c (Proc.devRef .tc main_v76) : S10000x512.Idx → EReal)
      = Cert.Gcn.layerK (W14 m ρ c (Proc.devRef .tc main_v47) : S10000x10000.Idx → EReal)
          (W14 m ρ c (Proc.devRef .tc main_v68) : S10000x512.Idx → EReal)
          (Cert.Gcn.wsl (W14 m ρ c (Proc.devRef .tc main_arg4) : S4x512x512.Idx → EReal) (2 : Fin 4))
          (Cert.Gcn.bsl (W14 m ρ c (Proc.devRef .tc main_arg5) : S4x512.Idx → EReal) (2 : Fin 4)) := by
  have hA : (W17 m ρ c (Proc.devRef .tc main_v47) : S10000x10000.Idx → EReal) = W14 m ρ c (Proc.devRef .tc main_v47) :=
    (keep_second_stretch m ρ c main_v47 (by decide)).trans
      ((keep_product_region m ρ c main_v47 (by decide)).trans (keep_first_stretch m ρ c main_v47 (by decide)))
  have hb : (fun j : Fin 512 => (W17 m ρ c (Proc.devRef .tc main_v75) : S1x512.Idx → EReal) (ix2 (0 : Fin 1) j))
      = Cert.Gcn.bsl (W14 m ρ c (Proc.devRef .tc main_arg5) : S4x512.Idx → EReal) (2 : Fin 4) := by
    funext j
    refine (bias_window m ρ c j).trans ?_
    refine (congrFun (keep_product_region m ρ c main_v72 (by decide) :
      (W16 m ρ c (Proc.devRef .tc main_v72) : S512.Idx → EReal) = W15 m ρ c (Proc.devRef .tc main_v72)) (ix1 j)).trans ?_
    exact bias_vector m ρ c j
  refine (W18_arr m ρ c 3).trans ?_
  refine (arr7 (V17 m ρ) c).trans ?_
  show Cert.Gcn.aggRelu (W17 m ρ c (Proc.devRef .tc main_v47) : S10000x10000.Idx → EReal)
      (W17 m ρ c (Proc.devRef .tc main_v74) : S10000x512.Idx → EReal)
      (fun j : Fin 512 => (W17 m ρ c (Proc.devRef .tc main_v75) : S1x512.Idx → EReal) (ix2 (0 : Fin 1) j)) = _
  rw [hA, product_window m ρ c, hb]
  rfl

end Cert.KernelIdeal.Hand

end
-- ==== Proof.KRegion8.lean ====
/-
  The value of matmul region 2 of the kernel program: whatever the buffers hold when the region is entered,
  its output array ends holding the matrix product of its two input arrays. The output block of grid point t
  (rows 400 t .. 400 t + 399, all 512 columns) is the product of rows 400 t .. 400 t + 399 of the left
  array (all 512 columns) with the whole right array; the 25 blocks tile the 10000 rows.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The body's payload at an index -/

/-- The left operand of the product is read at the output's row, -/
private theorem lhs_mm2_0 (i : S400x512.Idx) (q : dot_S400x512_S512x512_S400x512_1_0_0_1_n_n.contr.Idx) :
    (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
/-- and at the contracted index as its column; -/
private theorem lhs_mm2_1 (i : S400x512.Idx) (q : dot_S400x512_S512x512_S400x512_1_0_0_1_n_n.contr.Idx) :
    (dot_S400x512_S512x512_S400x512_1_0_0_1_n_n.lhsIdx i q 1).val = (q ⟨0, by decide⟩).val :=
  dot_S400x512_S512x512_S400x512_1_0_0_1_n_n.lhsIdx_val_of_single rfl i q
/-- the right operand at the contracted index as its row, -/
private theorem rhs_mm2_0 (i : S400x512.Idx) (q : dot_S400x512_S512x512_S400x512_1_0_0_1_n_n.contr.Idx) :
    (dot_S400x512_S512x512_S400x512_1_0_0_1_n_n.rhsIdx i q 0).val = (q ⟨0, by decide⟩).val :=
  dot_S400x512_S512x512_S400x512_1_0_0_1_n_n.rhsIdx_val_of_single rfl i q
/-- and at the output's column. -/
private theorem rhs_mm2_1 (i : S400x512.Idx) (q : dot_S400x512_S512x512_S400x512_1_0_0_1_n_n.contr.Idx) :
    (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- Entry (p, q) of the body's payload is the sum over k of the left block at (p, k) times the right block at (k, q):
    the shape casts are identities, the product accumulates into zero, and narrowing the result does nothing to an
    extended real. -/
private theorem pay2_apply (x0 : Vec Ideal S400x512 .bf16) (x1 : Vec Ideal S512x512 .bf16) (p : Fin 400) (q : Fin 512) :
    k8_pay1 x0 x1 (ix2 p q) = ∑ k : Fin 512, x0 (ix2 p k) * x1 (ix2 k q) := by
  unfold k8_pay1
  rw [truncf_apply, shapeCast_self, shapeCast_self]
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S400x512_S512x512_S400x512_1_0_0_1_n_n.rhsIdx (ix2 p q) ((contrEquiv1 dot_S400x512_S512x512_S400x512_1_0_0_1_n_n 512 rfl rfl).symm k) = ix2 k q := funext fun a => Fin.ext (by
    match a with
    | ⟨0, _⟩ => exact (rhs_mm2_0 _ _).trans hk
    | ⟨1, _⟩ => exact rhs_mm2_1 _ _)
  rw [el, er]

/-! ## From a block of the product to the product of the arrays -/

/-- If the left block's row p is row (row i) of X and the right block's column q is column (col i) of W,
    entry (p, q) of the payload is entry i of the product X W. -/
private theorem pay2_eq_mm (X : S10000x512.Idx → EReal) (W : S512x512.Idx → EReal)
    (x0 : Vec Ideal S400x512 .bf16) (x1 : Vec Ideal S512x512 .bf16) (i : S10000x512.Idx) (p : Fin 400) (q : Fin 512)
    (h0 : ∀ k : Fin 512, x0 (ix2 p k) = X (ix2 (Cert.Gcn.row i) k))
    (h1 : ∀ k : Fin 512, x1 (ix2 k q) = W (ix2 k (Cert.Gcn.col i))) :
    k8_pay1 x0 x1 (ix2 p q) = Cert.Gcn.mm X W i := by
  rw [pay2_apply]
  unfold Cert.Gcn.mm
  exact Finset.sum_congr rfl fun k _ => by rw [h0 k, h1 k]

private theorem zeroOffsets : (![0, 0] : Fin 2 → Nat) = fun _ => 0 := funext fun a => by fin_cases a <;> rfl

/-- The printed index maps, decided over the 25 grid points: the left window and the output window are at block row t,
    block column 0; the right window stays at block (0, 0). -/
private theorem blockIdx2 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

set_option maxHeartbeats 1000000 in
/-- What grid point t writes back is block t of the product of the two input arrays as the region finds them. -/
private theorem flushed2_eq (V : (c : Dev nD) → (b : Ref sig .tc) → Buf (Elt Ideal) ((c : Thread nD τ).loc b)) (c : Dev nD) (t : Fin cfg8.N) :
    (dat8 (F := Ideal) V c).flushed 2 t = ((cfg8.win 2).blk t).view.read (Elt Ideal)
      (Cert.Gcn.mm (V c (Pipeline.arrRef spec8 0) : S10000x512.Idx → EReal) (V c (Pipeline.arrRef spec8 1) : S512x512.Idx → EReal)) := by
  show (cfg8.win 2).cut (grid8.coords t) ((dat8 (F := Ideal) V c).after 2 t) = _
  rw [after8_2]
  unfold out8_2
  rw [View.canon_unit_zero zeroOffsets]
  simp only [View.ld_unit_zero (S := S400x512) zeroOffsets, View.ld_unit_zero (S := S512x512) zeroOffsets]
  obtain ⟨e0, e1, e2, e3, e4, e5⟩ := blockIdx2 t
  funext j
  obtain ⟨p, q, rfl⟩ : ∃ (p : Fin 400) (q : Fin 512), j = ix2 p q := ⟨j 0, j 1, eq_ix2 j⟩
  show k8_pay1 (iblk8 V c 0 t) (iblk8 V c 1 t) (ix2 p q)
    = Cert.Gcn.mm (V c (Pipeline.arrRef spec8 0) : S10000x512.Idx → EReal) (V c (Pipeline.arrRef spec8 1) : S512x512.Idx → EReal)
        (((cfg8.win 2).blk t).view.emb (ix2 p q))
  refine pay2_eq_mm _ _ _ _ _ p q (fun k => ?_) (fun k => ?_)
  · -- the left block's row p is row 400 t + p of the left array
    show V c (Pipeline.arrRef spec8 0) (((cfg8.win 0).blk t).view.emb (ix2 p k)) = V c (Pipeline.arrRef spec8 0) _
    refine congrArg _ (funext fun a => Fin.ext ?_)
    match a with
    | ⟨0, _⟩ => show win8_0.index t (0 : Fin 2) * 400 + 1 * p.val = win8_2.index t (0 : Fin 2) * 400 + 1 * p.val; omega
    | ⟨1, _⟩ => show win8_0.index t (1 : Fin 2) * 512 + 1 * k.val = k.val; omega
  · -- the right block is the whole right array
    show V c (Pipeline.arrRef spec8 1) (((cfg8.win 1).blk t).view.emb (ix2 k q)) = V c (Pipeline.arrRef spec8 1) _
    refine congrArg _ (funext fun a => Fin.ext ?_)
    match a with
    | ⟨0, _⟩ => show win8_1.index t (0 : Fin 2) * 512 + 1 * k.val = k.val; omega
    | ⟨1, _⟩ => show win8_1.index t (1 : Fin 2) * 512 + 1 * q.val = win8_2.index t (1 : Fin 2) * 512 + 1 * q.val; omega

/-- An index of the output array is in point t's block iff each coordinate is in the block's range on its axis. -/
private theorem mem_blk2 (t : Fin cfg8.N) (i : S10000x512.Idx) :
    i ∈ ((cfg8.win 2).blk t).view.set ↔ ∀ a : Fin 2, win8_2.index t a * S400x512.size a ≤ (i a).val ∧ (i a).val < win8_2.index t a * S400x512.size a + S400x512.size a := by
  show i ∈ ((View.whole (Pipeline.arrRef spec8 2)).slice (win8_2.rect t)).set ↔ _
  rw [View.set_slice_whole, Rect.mem_set_unit]
  exact Iff.rfl

/-- Row r of the output array is in the block of grid point r / 400: the 25 blocks tile the 10000 rows. -/
private theorem cover2 (i : S10000x512.Idx) :
    ∃ t : Fin cfg8.N, (cfg8.win 2).flush t = true ∧ i ∈ ((cfg8.win 2).blk t).view.set := by
  have hi0 : (i 0).val < 10000 := (i 0).isLt
  have hi1 : (i 1).val < 512 := (i 1).isLt
  have hN : cfg8.N = 25 := N_8
  have hd : (i 0).val / 400 < cfg8.N := by omega
  obtain ⟨e0, e1, e2, e3, e4, e5⟩ := blockIdx2 ⟨(i 0).val / 400, hd⟩
  refine ⟨⟨(i 0).val / 400, hd⟩, flush8_2 _, ?_⟩
  rw [mem_blk2]
  intro a
  match a with
  | ⟨0, _⟩ =>
    show win8_2.index ⟨(i 0).val / 400, hd⟩ (0 : Fin 2) * 400 ≤ (i 0).val ∧ (i 0).val < win8_2.index ⟨(i 0).val / 400, hd⟩ (0 : Fin 2) * 400 + 400
    rw [e4]; show (i 0).val / 400 * 400 ≤ (i 0).val ∧ (i 0).val < (i 0).val / 400 * 400 + 400; omega
  | ⟨1, _⟩ =>
    show win8_2.index ⟨(i 0).val / 400, hd⟩ (1 : Fin 2) * 512 ≤ (i 1).val ∧ (i 1).val < win8_2.index ⟨(i 0).val / 400, hd⟩ (1 : Fin 2) * 512 + 512
    rw [e5]; omega

/-! ## The region's value -/

/-- The output array after the region is the matrix product of the two input arrays as the region finds them. -/
theorem arr8 (V : (c : Dev nD) → (b : Ref sig .tc) → Buf (Elt Ideal) ((c : Thread nD τ).loc b)) (c : Dev nD) :
    ((dat8 (F := Ideal) V c).arrAt 2 cfg8.N : S10000x512.Idx → EReal)
      = Cert.Gcn.mm (V c (Pipeline.arrRef spec8 0) : S10000x512.Idx → EReal) (V c (Pipeline.arrRef spec8 1) : S512x512.Idx → EReal) :=
  (dat8 (F := Ideal) V c).arrAt_eq_of_cover 2 _ (fun t _ => flushed2_eq V c t) cover2

end Cert.KernelIdeal.Hand

end
-- ==== Proof.KRegion9.lean ====
/-
  The value of an aggregation region of the kernel program: whatever the buffers hold when the region is entered,
  the output array after the last grid point is max (A * H + b, 0), entry by entry, A being read in blocks of
  400 rows and H and the bias row whole.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's payload at an index -/

/-- The left operand's index of the product at output (i, ·) and contraction index q has row i's row … -/
private theorem lhs_agg_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
/-- … and the contraction coordinate as its column; -/
private theorem lhs_agg_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
/-- the right operand's has the contraction coordinate as its row … -/
private theorem rhs_agg_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
/-- … and the output's column. -/
private theorem rhs_agg_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The block product into the zero accumulator, read at (p, q): the sum over the 10000 columns of the row block. -/
private theorem agg_matmul_apply (x0 : FVec Ideal S400x10000 .bf16) (x1 : FVec Ideal S10000x512 .bf16) (p : Fin 400) (q : Fin 512) :
    matmul dot_S400x10000_S10000x512_S400x512_1_0_0_1_n_n none x0 x1 (constant (F := Ideal) S400x512 .f32 0x00000000#32) (ix2 p q)
      = ∑ s : Fin 10000, x0 (ix2 p s) * x1 (ix2 s q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The bias row broadcast down the 400 rows, read at (p, q): the row's entry in column q. -/
private theorem agg_bias_apply (x2 : FVec Ideal S1x512 .f32) (p : Fin 400) (q : Fin 512) :
    broadcastTo S400x512 x2 broadcasts_S1x512_S400x512 (ix2 p q) = x2 (ix2 0 q) := by
  refine broadcastTo_apply x2 broadcasts_S1x512_S400x512 (ix2 p q) (ix2 0 q) fun a => ?_
  match a with
  | ⟨0, _⟩ => rfl
  | ⟨1, _⟩ => rfl

/-- THE PAYLOAD AT AN INDEX: max (sum over s of x0(p, s) * x1(s, q) + x2(0, q), 0). -/
private theorem agg_pay_apply (x0 : Vec Ideal S400x10000 .bf16) (x1 : Vec Ideal S10000x512 .bf16) (x2 : Vec Ideal S1x512 .f32)
    (p : Fin 400) (q : Fin 512) :
    k9_pay1 x0 x1 x2 (ix2 p q) = max ((∑ s : Fin 10000, x0 (ix2 p s) * x1 (ix2 s q)) + x2 (ix2 0 q)) 0 := by
  unfold k9_pay1
  simp only [shapeCast_self]
  rw [truncf_apply, maximumf_apply, addf_apply, broadcast_apply, agg_matmul_apply, agg_bias_apply]
  show max _ (Ideal.ofBits .f32 0x00000000#32) = _
  rw [Ideal.ofBits_zero_f32]

/-- The payload at a block index against the aggregation read at an array index: when the first operand's row p is the
    array A's row r, and the other two operands are H and the bias row, entry (p, q) of the payload is entry (r, q) of
    max (A * H + b, 0). The hypotheses are on coordinates, so that they can be given at a block's own index types. -/
private theorem agg_point (A : S10000x10000.Idx → EReal) (H : S10000x512.Idx → EReal) (B : S1x512.Idx → EReal)
    (x0 : Vec Ideal S400x10000 .bf16) (x1 : Vec Ideal S10000x512 .bf16) (x2 : Vec Ideal S1x512 .f32)
    (y : S400x512.Idx) (i : S10000x512.Idx)
    (h0 : ∀ (a : S400x10000.Idx) (k : S10000x10000.Idx), (a 0).val = (y 0).val → (k 0).val = (i 0).val → (k 1).val = (a 1).val → x0 a = A k)
    (h1 : x1 = H) (h2 : x2 = B) (hi : (i 1).val = (y 1).val) :
    k9_pay1 x0 x1 x2 y = Cert.Gcn.aggRelu A H (fun j => B (ix2 0 j)) i := by
  obtain ⟨p, q, rfl⟩ : ∃ (p : Fin 400) (q : Fin 512), y = ix2 p q := ⟨y 0, y 1, eq_ix2 y⟩
  obtain ⟨r, q', rfl⟩ : ∃ (r : Fin 10000) (q' : Fin 512), i = ix2 r q' := ⟨i 0, i 1, eq_ix2 i⟩
  obtain rfl : q' = q := Fin.ext hi
  subst h1 h2
  rw [agg_pay_apply]
  unfold Cert.Gcn.aggRelu Cert.Gcn.mm
  show max ((∑ s : Fin 10000, x0 (ix2 p s) * x1 (ix2 s q')) + x2 (ix2 0 q')) 0
    = max ((∑ s : Fin 10000, A (ix2 r s) * x1 (ix2 s q')) + x2 (ix2 0 q')) 0
  rw [Finset.sum_congr rfl fun s _ => by rw [h0 (ix2 p s) (ix2 r s) rfl rfl rfl]]

/-! ## From blocks to the array -/

private theorem zero_offsets : (![0, 0] : Fin 2 → Nat) = fun _ => 0 := funext fun a => by fin_cases a <;> rfl

/-- The printed index maps, decided over the 25 grid points: the blocks of A and of the output are block row t, all
    columns; H and the bias row are their one whole block at every point. -/
private theorem agg_index : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

section
variable (V : (c : Dev nD) → (b : Ref sig .tc) → Buf (Elt Ideal) ((c : Thread nD τ).loc b)) (c : Dev nD)

/-- Block t of A is rows 400 t … 400 t + 399 of A, all its columns. -/
private theorem blockA_apply (t : Fin cfg9.N) (x : S400x10000.Idx) (k : S10000x10000.Idx)
    (hk0 : (k 0).val = 400 * t.val + (x 0).val) (hk1 : (k 1).val = (x 1).val) :
    (iblk9 (F := Ideal) V c 0 t : Vec Ideal S400x10000 .bf16) x = (V c (Pipeline.arrRef spec9 0) : S10000x10000.Idx → EReal) k := by
  obtain ⟨e0, e1, -⟩ := agg_index t
  unfold iblk9
  rw [View.read_apply]
  show (V c (Pipeline.arrRef spec9 0) : S10000x10000.Idx → EReal) (((cfg9.win 0).blk t).view.emb x) = _
  refine congrArg _ (funext fun a => Fin.ext ?_)
  match a with
  | ⟨0, _⟩ => show win9_0.index t (0 : Fin 2) * 400 + 1 * (x 0).val = (k 0).val; omega
  | ⟨1, _⟩ => show win9_0.index t (1 : Fin 2) * 10000 + 1 * (x 1).val = (k 1).val; omega

/-- The one block of H is H. -/
private theorem blockH_eq (t : Fin cfg9.N) :
    (iblk9 (F := Ideal) V c 1 t : Vec Ideal S10000x512 .bf16) = (V c (Pipeline.arrRef spec9 1) : S10000x512.Idx → EReal) := by
  obtain ⟨-, -, e2, e3, -⟩ := agg_index t
  funext x
  unfold iblk9
  rw [View.read_apply]
  show (V c (Pipeline.arrRef spec9 1) : S10000x512.Idx → EReal) (((cfg9.win 1).blk t).view.emb x) = _
  refine congrArg _ (funext fun a => Fin.ext ?_)
  match a with
  | ⟨0, _⟩ => show win9_1.index t (0 : Fin 2) * 10000 + 1 * (x 0).val = (x 0).val; omega
  | ⟨1, _⟩ => show win9_1.index t (1 : Fin 2) * 512 + 1 * (x 1).val = (x 1).val; omega

/-- The one block of the bias row is the bias row. -/
private theorem blockB_eq (t : Fin cfg9.N) :
    (iblk9 (F := Ideal) V c 2 t : Vec Ideal S1x512 .f32) = (V c (Pipeline.arrRef spec9 2) : S1x512.Idx → EReal) := by
  obtain ⟨-, -, -, -, e4, e5, -⟩ := agg_index t
  funext x
  unfold iblk9
  rw [View.read_apply]
  show (V c (Pipeline.arrRef spec9 2) : S1x512.Idx → EReal) (((cfg9.win 2).blk t).view.emb x) = _
  refine congrArg _ (funext fun a => Fin.ext ?_)
  match a with
  | ⟨0, _⟩ => show win9_2.index t (0 : Fin 2) * 1 + 1 * (x 0).val = (x 0).val; omega
  | ⟨1, _⟩ => show win9_2.index t (1 : Fin 2) * 512 + 1 * (x 1).val = (x 1).val; omega

/-- The aggregation of the arrays the region finds: max (A * H + b, 0). -/
private abbrev aggOf : S10000x512.Idx → EReal :=
  Cert.Gcn.aggRelu (V c (Pipeline.arrRef spec9 0) : S10000x10000.Idx → EReal)
    (V c (Pipeline.arrRef spec9 1) : S10000x512.Idx → EReal)
    (fun j => (V c (Pipeline.arrRef spec9 2) : S1x512.Idx → EReal) (ValueIdx.ix2 0 j))

/-- WHAT POINT t WRITES BACK is block t of the aggregation: rows 400 t … 400 t + 399. -/
private theorem agg_flushed (t : Fin cfg9.N) :
    (dat9 (F := Ideal) V c).flushed 3 t = ((cfg9.win 3).blk t).view.read (Elt Ideal) (aggOf V c) := by
  show (cfg9.win 3).cut (grid9.coords t) ((dat9 (F := Ideal) V c).after 3 t) = _
  rw [after9_3]
  unfold out9_3
  rw [View.canon_unit_zero zero_offsets]
  simp only [View.ld_unit_zero (S := S400x10000) zero_offsets, View.ld_unit_zero (S := S10000x512) zero_offsets,
    View.ld_unit_zero (S := S1x512) zero_offsets]
  obtain ⟨-, -, -, -, -, -, e6, e7⟩ := agg_index t
  funext j
  rw [View.read_apply]
  show k9_pay1 (iblk9 (F := Ideal) V c 0 t) (iblk9 (F := Ideal) V c 1 t) (iblk9 (F := Ideal) V c 2 t) j
    = aggOf V c (((cfg9.win 3).blk t).view.emb j)
  have hr : ((((cfg9.win 3).blk t).view.emb j) 0).val = win9_3.index t (0 : Fin 2) * 400 + 1 * (j 0).val := rfl
  have hq : ((((cfg9.win 3).blk t).view.emb j) 1).val = win9_3.index t (1 : Fin 2) * 512 + 1 * (j 1).val := rfl
  refine agg_point _ _ _ _ _ _ j _ (fun a k ha hk0 hk1 => blockA_apply V c t a k ?_ hk1) (blockH_eq V c t) (blockB_eq V c t) ?_
  · rw [hk0, hr, ha, e6]; omega
  · rw [hq, e7]; omega

/-- An index of the array is in point t's block iff each coordinate is in the block's range on its axis. -/
private theorem mem_block (t : Fin cfg9.N) (i : S10000x512.Idx) :
    i ∈ ((cfg9.win 3).blk t).view.set ↔ ∀ a : Fin 2, win9_3.index t a * S400x512.size a ≤ (i a).val ∧ (i a).val < win9_3.index t a * S400x512.size a + S400x512.size a := by
  show i ∈ ((View.whole (Pipeline.arrRef spec9 3)).slice (win9_3.rect t)).set ↔ _
  rw [View.set_slice_whole, Rect.mem_set_unit]
  exact Iff.rfl

/-- THE COVER: row r of the array is in the block of point r / 400. -/
private theorem agg_cover (i : S10000x512.Idx) :
    ∃ t : Fin cfg9.N, (cfg9.win 3).flush t = true ∧ i ∈ ((cfg9.win 3).blk t).view.set := by
  have hi0 : (i 0).val < 10000 := (i 0).isLt
  have hi1 : (i 1).val < 512 := (i 1).isLt
  have hN : cfg9.N = 25 := N_9
  refine ⟨⟨(i 0).val / 400, by rw [hN]; omega⟩, flush9_3 _, ?_⟩
  obtain ⟨-, -, -, -, -, -, e6, e7⟩ := agg_index ⟨(i 0).val / 400, by rw [hN]; omega⟩
  rw [mem_block]
  intro a
  match a with
  | ⟨0, _⟩ =>
    show win9_3.index _ (0 : Fin 2) * 400 ≤ (i 0).val ∧ (i 0).val < win9_3.index _ (0 : Fin 2) * 400 + 400
    rw [e6]; show (i 0).val / 400 * 400 ≤ (i 0).val ∧ (i 0).val < (i 0).val / 400 * 400 + 400; omega
  | ⟨1, _⟩ =>
    show win9_3.index _ (1 : Fin 2) * 512 ≤ (i 1).val ∧ (i 1).val < win9_3.index _ (1 : Fin 2) * 512 + 512
    rw [e7]; omega

end

/-- THE ARRAY after the region's last point: max (A * H + b, 0) of the arrays the region found. -/
theorem arr9 (V : (c : Dev nD) → (b : Ref sig .tc) → Buf (Elt Ideal) ((c : Thread nD τ).loc b)) (c : Dev nD) :
    ((dat9 (F := Ideal) V c).arrAt 3 cfg9.N : S10000x512.Idx → EReal)
      = Cert.Gcn.aggRelu (V c (Pipeline.arrRef spec9 0) : S10000x10000.Idx → EReal)
          (V c (Pipeline.arrRef spec9 1) : S10000x512.Idx → EReal)
          (fun j => (V c (Pipeline.arrRef spec9 2) : S1x512.Idx → EReal) (ValueIdx.ix2 0 j)) :=
  (dat9 (F := Ideal) V c).arrAt_eq_of_cover 3 (aggOf V c) (fun t _ => agg_flushed V c t) (agg_cover)

end Cert.KernelIdeal.Hand
-- ==== Proof.KLayer4.lean ====
import proofs.«147721_j75531294868021_1_alg».proof.Proof.Gen.KernelIdeal.Frame
import proofs.«147721_j75531294868021_1_alg».proof.Proof.Spec
import proofs.«147721_j75531294868021_1_alg».proof.Proof.KRegion8
import proofs.«147721_j75531294868021_1_alg».proof.Proof.KRegion9
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! # Layer 1 of the kernel program: from the contents at the layer's entry to the contents at its exit

The layer is two host stretches and two kernel regions. The first stretch cuts the layer's weight matrix and bias
row out of the stacked arguments; the first region multiplies the incoming features by the weight matrix; the second
stretch views the bias as one row; the second region multiplies the adjacency matrix by that product, adds the bias and
clamps below at zero. Read index by index this is the specification's `layerK`. -/

/-! ## Layout operations of the two host stretches, read at an index -/

/-- The weight slice of the stack, viewed as a 512 x 512 matrix and converted to the narrower float type (the identity on
    extended reals), is the specification's slice: entry (p, q) is entry (slice, p, q) of the stack, the row-major
    position ((0 * 512) + p) * 512 + q of the one-slice block being p * 512 + q of the matrix. -/
private theorem weight_slice_read (x : FVec Ideal S4x512x512 .f32) :
    (truncf .bf16 (fun i => shapeCast S512x512 (extractStridedSlice S1x512x512 ![3, 0, 0] x slices_S4x512x512_S1x512x512_3_0_0)
        shapeCasts_S1x512x512_S512x512 i) bitsLt_bf16_f32 : FVec Ideal S512x512 .bf16)
      = Cert.Gcn.wsl x (3 : Fin 4) := by
  funext i
  obtain ⟨p, q, rfl⟩ : ∃ (p : Fin 512) (q : Fin 512), i = ix2 p q := ⟨i 0, i 1, eq_ix2 i⟩
  rw [truncf_apply]
  refine (shapeCast_apply _ _ (ix2 p q) (ix3 (0 : Fin 1) p q) ?_).trans ?_
  · rw [Shape.rowMajor_val_three, Shape.rowMajor_val_two]
    show (0 * 512 + p.val) * 512 + q.val = p.val * 512 + q.val
    omega
  · refine (extractStridedSlice_apply _ _ _ (ix3 (0 : Fin 1) p q) (ix3 (3 : Fin 4) p q) fun a => ?_).trans rfl
    match a with
    | ⟨0, _⟩ => rfl
    | ⟨1, _⟩ => show p.val = 0 + p.val; omega
    | ⟨2, _⟩ => show q.val = 0 + q.val; omega

/-- The bias row of the stack, viewed as a vector of 512 entries, read at j is entry (row, j) of the stack. -/
private theorem bias_slice_read (x : FVec Ideal S4x512 .f32) (j : Fin 512) :
    shapeCast S512 (extractStridedSlice S1x512 ![3, 0] x slices_S4x512_S1x512_3_0) shapeCasts_S1x512_S512 (ix1 j)
      = x (ix2 (3 : Fin 4) j) := by
  refine (shapeCast_apply _ _ (ix1 j) (ix2 (0 : Fin 1) j) ?_).trans ?_
  · rw [Shape.rowMajor_val_two, Shape.rowMajor_val_one]
    show 0 * 512 + j.val = j.val
    omega
  · refine (extractStridedSlice_apply _ _ _ (ix2 (0 : Fin 1) j) (ix2 (3 : Fin 4) j) fun a => ?_).trans rfl
    match a with
    | ⟨0, _⟩ => rfl
    | ⟨1, _⟩ => show j.val = 0 + j.val; omega

/-- A vector of 512 entries viewed as one row: entry (0, j) of the row is entry j of the vector. -/
private theorem row_of_vector_read {α : Type} (v : S512.Idx → α) (j : Fin 512) :
    shapeCast S1x512 v shapeCasts_S512_S1x512 (ix2 (0 : Fin 1) j) = v (ix1 j) := by
  refine shapeCast_apply _ _ (ix2 (0 : Fin 1) j) (ix1 j) ?_
  rw [Shape.rowMajor_val_two, Shape.rowMajor_val_one]
  show j.val = 0 * 512 + j.val
  omega

/-! ## Buffers the layer's pieces leave alone -/

/-- A host stretch leaves a buffer none of its operations writes: each operation's written set is its one result, and
    the buffer in question is a different reference. -/
local macro "host_untouched" : tactic =>
  `(tactic| (refine StableHlo.after_of_forall_not_mem _ _ (List.forall_iff_forall_mem.mp ?_)
             simp only [hostOps8, hostOps9, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first host stretch writes only the slices, their reshapes and the converted weight matrix. -/
private theorem keep_first_stretch (c : Dev nD) (b : Ref sig .tc)
    (hb : b = main_v47 ∨ b = main_v76 ∨ b = main_arg4 ∨ b = main_arg5 ∨ b = main_arg6 ∨ b = main_arg7) :
    W19 m ρ c (Proc.devRef .tc b) = W18 m ρ c (Proc.devRef .tc b) := by
  rcases hb with rfl | rfl | rfl | rfl | rfl | rfl <;> host_untouched

/-- The product region writes only its own three arrays. -/
private theorem keep_product_region (c : Dev nD) (b : Ref sig .tc)
    (hb : b = main_v47 ∨ b = main_v80 ∨ b = main_arg4 ∨ b = main_arg5 ∨ b = main_arg6 ∨ b = main_arg7) :
    W20 m ρ c (Proc.devRef .tc b) = W19 m ρ c (Proc.devRef .tc b) := by
  rcases hb with rfl | rfl | rfl | rfl | rfl | rfl <;> exact W20_of_ne m ρ c _ (by decide)

/-- The second host stretch writes only the bias row. -/
private theorem keep_second_stretch (c : Dev nD) (b : Ref sig .tc)
    (hb : b = main_v47 ∨ b = main_v82 ∨ b = main_arg4 ∨ b = main_arg5 ∨ b = main_arg6 ∨ b = main_arg7) :
    W21 m ρ c (Proc.devRef .tc b) = W20 m ρ c (Proc.devRef .tc b) := by
  rcases hb with rfl | rfl | rfl | rfl | rfl | rfl <;> host_untouched

/-- The aggregation region writes only its own four arrays, -/
private theorem keep_aggregation_region (c : Dev nD) (b : Ref sig .tc)
    (hb : b = main_arg4 ∨ b = main_arg5 ∨ b = main_arg6 ∨ b = main_arg7) :
    W22 m ρ c (Proc.devRef .tc b) = W21 m ρ c (Proc.devRef .tc b) := by
  rcases hb with rfl | rfl | rfl | rfl <;> exact W22_of_ne m ρ c _ (by decide)

/-- and of those the adjacency matrix is an input window's array, which no write-back touches. -/
private theorem keep_adjacency (c : Dev nD) :
    W22 m ρ c (Proc.devRef .tc main_v47) = W21 m ρ c (Proc.devRef .tc main_v47) := by
  refine (W22_arr m ρ c 0).trans ?_
  refine ((dat9 (V21 m ρ) c).arrAt_in 0 rfl cfg9.N).trans ?_
  exact A_eq9 (V21 m ρ) c 0

/-- The adjacency matrix and the stacked and last-layer arguments pass through the whole layer. -/
theorem keep4 (c : Dev nD) (b : Ref sig .tc)
    (hb : b = main_v47 ∨ b = main_arg4 ∨ b = main_arg5 ∨ b = main_arg6 ∨ b = main_arg7) :
    W22 m ρ c (Proc.devRef .tc b) = W18 m ρ c (Proc.devRef .tc b) := by
  have h9 : b = main_v47 ∨ b = main_v82 ∨ b = main_arg4 ∨ b = main_arg5 ∨ b = main_arg6 ∨ b = main_arg7 := by
    rcases hb with h | h | h | h | h <;> simp [h]
  have h8 : b = main_v47 ∨ b = main_v80 ∨ b = main_arg4 ∨ b = main_arg5 ∨ b = main_arg6 ∨ b = main_arg7 := by
    rcases hb with h | h | h | h | h <;> simp [h]
  have h7 : b = main_v47 ∨ b = main_v76 ∨ b = main_arg4 ∨ b = main_arg5 ∨ b = main_arg6 ∨ b = main_arg7 := by
    rcases hb with h | h | h | h | h <;> simp [h]
  refine Eq.trans ?_ ((keep_second_stretch m ρ c b h9).trans
    ((keep_product_region m ρ c b h8).trans (keep_first_stretch m ρ c b h7)))
  rcases hb with rfl | hb
  · exact keep_adjacency m ρ c
  · exact keep_aggregation_region m ρ c b hb

/-! ## What the host stretches write, read back -/

/-- The product region's weight window holds the stack's slice. -/
private theorem weight_window (c : Dev nD) :
    (W19 m ρ c (Proc.devRef .tc main_v81) : S512x512.Idx → EReal)
      = Cert.Gcn.wsl (W18 m ρ c (Proc.devRef .tc main_arg4) : S4x512x512.Idx → EReal) (3 : Fin 4) := by
  show StableHlo.after hostOps8 (W18 m ρ c) (Proc.devRef .tc main_v81) = _
  after_results
  exact weight_slice_read _

/-- The bias vector the first stretch cuts out, at entry j, is entry (row, j) of the stacked biases. -/
private theorem bias_vector (c : Dev nD) (j : Fin 512) :
    (W19 m ρ c (Proc.devRef .tc main_v80) : S512.Idx → EReal) (ix1 j)
      = (W18 m ρ c (Proc.devRef .tc main_arg5) : S4x512.Idx → EReal) (ix2 (3 : Fin 4) j) := by
  show StableHlo.after hostOps8 (W18 m ρ c) (Proc.devRef .tc main_v80) (ix1 j) = _
  after_results
  exact bias_slice_read _ j

/-- The aggregation region's bias window, one row, at (0, j) is the bias vector at j as the region before it left it. -/
private theorem bias_window (c : Dev nD) (j : Fin 512) :
    (W21 m ρ c (Proc.devRef .tc main_v83) : S1x512.Idx → EReal) (ix2 (0 : Fin 1) j)
      = (W20 m ρ c (Proc.devRef .tc main_v80) : S512.Idx → EReal) (ix1 j) := by
  show StableHlo.after hostOps9 (W20 m ρ c) (Proc.devRef .tc main_v83) (ix2 (0 : Fin 1) j) = _
  after_results
  exact row_of_vector_read _ j

/-! ## The layer -/

/-- The aggregation region's second window holds the product of the incoming features and the weight slice. -/
private theorem product_window (c : Dev nD) :
    (W21 m ρ c (Proc.devRef .tc main_v82) : S10000x512.Idx → EReal)
      = Cert.Gcn.mm (W18 m ρ c (Proc.devRef .tc main_v76) : S10000x512.Idx → EReal)
          (Cert.Gcn.wsl (W18 m ρ c (Proc.devRef .tc main_arg4) : S4x512x512.Idx → EReal) (3 : Fin 4)) := by
  refine (keep_second_stretch m ρ c main_v82 (by decide)).trans ?_
  refine (W20_arr m ρ c 2).trans ?_
  refine (arr8 (V19 m ρ) c).trans ?_
  exact congrArg₂ Cert.Gcn.mm (keep_first_stretch m ρ c main_v76 (by decide)) (weight_window m ρ c)

/-- The layer's exit contents of its result array are the specification's layer of its entry contents. -/
theorem step4 (c : Dev nD) :
    (W22 m ρ c (Proc.devRef .tc main_v84) : S10000x512.Idx → EReal)
      = Cert.Gcn.layerK (W18 m ρ c (Proc.devRef .tc main_v47) : S10000x10000.Idx → EReal)
          (W18 m ρ c (Proc.devRef .tc main_v76) : S10000x512.Idx → EReal)
          (Cert.Gcn.wsl (W18 m ρ c (Proc.devRef .tc main_arg4) : S4x512x512.Idx → EReal) (3 : Fin 4))
          (Cert.Gcn.bsl (W18 m ρ c (Proc.devRef .tc main_arg5) : S4x512.Idx → EReal) (3 : Fin 4)) := by
  have hA : (W21 m ρ c (Proc.devRef .tc main_v47) : S10000x10000.Idx → EReal) = W18 m ρ c (Proc.devRef .tc main_v47) :=
    (keep_second_stretch m ρ c main_v47 (by decide)).trans
      ((keep_product_region m ρ c main_v47 (by decide)).trans (keep_first_stretch m ρ c main_v47 (by decide)))
  have hb : (fun j : Fin 512 => (W21 m ρ c (Proc.devRef .tc main_v83) : S1x512.Idx → EReal) (ix2 (0 : Fin 1) j))
      = Cert.Gcn.bsl (W18 m ρ c (Proc.devRef .tc main_arg5) : S4x512.Idx → EReal) (3 : Fin 4) := by
    funext j
    refine (bias_window m ρ c j).trans ?_
    refine (congrFun (keep_product_region m ρ c main_v80 (by decide) :
      (W20 m ρ c (Proc.devRef .tc main_v80) : S512.Idx → EReal) = W19 m ρ c (Proc.devRef .tc main_v80)) (ix1 j)).trans ?_
    exact bias_vector m ρ c j
  refine (W22_arr m ρ c 3).trans ?_
  refine (arr9 (V21 m ρ) c).trans ?_
  show Cert.Gcn.aggRelu (W21 m ρ c (Proc.devRef .tc main_v47) : S10000x10000.Idx → EReal)
      (W21 m ρ c (Proc.devRef .tc main_v82) : S10000x512.Idx → EReal)
      (fun j : Fin 512 => (W21 m ρ c (Proc.devRef .tc main_v83) : S1x512.Idx → EReal) (ix2 (0 : Fin 1) j)) = _
  rw [hA, product_window m ρ c, hb]
  rfl

end Cert.KernelIdeal.Hand

end
-- ==== Proof.KRegion10.lean ====
/-
  The value of matmul region 2 of the kernel program: whatever the buffers hold when the region is entered,
  its output array ends holding the matrix product of its two input arrays. The output block of grid point t
  (rows 400 t .. 400 t + 399, all 512 columns) is the product of rows 400 t .. 400 t + 399 of the left
  array (all 512 columns) with the whole right array; the 25 blocks tile the 10000 rows.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## The body's payload at an index -/

/-- The left operand of the product is read at the output's row, -/
private theorem lhs_mm2_0 (i : S400x512.Idx) (q : dot_S400x512_S512x512_S400x512_1_0_0_1_n_n.contr.Idx) :
    (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
/-- and at the contracted index as its column; -/
private theorem lhs_mm2_1 (i : S400x512.Idx) (q : dot_S400x512_S512x512_S400x512_1_0_0_1_n_n.contr.Idx) :
    (dot_S400x512_S512x512_S400x512_1_0_0_1_n_n.lhsIdx i q 1).val = (q ⟨0, by decide⟩).val :=
  dot_S400x512_S512x512_S400x512_1_0_0_1_n_n.lhsIdx_val_of_single rfl i q
/-- the right operand at the contracted index as its row, -/
private theorem rhs_mm2_0 (i : S400x512.Idx) (q : dot_S400x512_S512x512_S400x512_1_0_0_1_n_n.contr.Idx) :
    (dot_S400x512_S512x512_S400x512_1_0_0_1_n_n.rhsIdx i q 0).val = (q ⟨0, by decide⟩).val :=
  dot_S400x512_S512x512_S400x512_1_0_0_1_n_n.rhsIdx_val_of_single rfl i q
/-- and at the output's column. -/
private theorem rhs_mm2_1 (i : S400x512.Idx) (q : dot_S400x512_S512x512_S400x512_1_0_0_1_n_n.contr.Idx) :
    (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- Entry (p, q) of the body's payload is the sum over k of the left block at (p, k) times the right block at (k, q):
    the shape casts are identities, the product accumulates into zero, and narrowing the result does nothing to an
    extended real. -/
private theorem pay2_apply (x0 : Vec Ideal S400x512 .bf16) (x1 : Vec Ideal S512x512 .bf16) (p : Fin 400) (q : Fin 512) :
    k10_pay1 x0 x1 (ix2 p q) = ∑ k : Fin 512, x0 (ix2 p k) * x1 (ix2 k q) := by
  unfold k10_pay1
  rw [truncf_apply, shapeCast_self, shapeCast_self]
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S400x512_S512x512_S400x512_1_0_0_1_n_n.rhsIdx (ix2 p q) ((contrEquiv1 dot_S400x512_S512x512_S400x512_1_0_0_1_n_n 512 rfl rfl).symm k) = ix2 k q := funext fun a => Fin.ext (by
    match a with
    | ⟨0, _⟩ => exact (rhs_mm2_0 _ _).trans hk
    | ⟨1, _⟩ => exact rhs_mm2_1 _ _)
  rw [el, er]

/-! ## From a block of the product to the product of the arrays -/

/-- If the left block's row p is row (row i) of X and the right block's column q is column (col i) of W,
    entry (p, q) of the payload is entry i of the product X W. -/
private theorem pay2_eq_mm (X : S10000x512.Idx → EReal) (W : S512x512.Idx → EReal)
    (x0 : Vec Ideal S400x512 .bf16) (x1 : Vec Ideal S512x512 .bf16) (i : S10000x512.Idx) (p : Fin 400) (q : Fin 512)
    (h0 : ∀ k : Fin 512, x0 (ix2 p k) = X (ix2 (Cert.Gcn.row i) k))
    (h1 : ∀ k : Fin 512, x1 (ix2 k q) = W (ix2 k (Cert.Gcn.col i))) :
    k10_pay1 x0 x1 (ix2 p q) = Cert.Gcn.mm X W i := by
  rw [pay2_apply]
  unfold Cert.Gcn.mm
  exact Finset.sum_congr rfl fun k _ => by rw [h0 k, h1 k]

private theorem zeroOffsets : (![0, 0] : Fin 2 → Nat) = fun _ => 0 := funext fun a => by fin_cases a <;> rfl

/-- The printed index maps, decided over the 25 grid points: the left window and the output window are at block row t,
    block column 0; the right window stays at block (0, 0). -/
private theorem blockIdx2 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

set_option maxHeartbeats 1000000 in
/-- What grid point t writes back is block t of the product of the two input arrays as the region finds them. -/
private theorem flushed2_eq (V : (c : Dev nD) → (b : Ref sig .tc) → Buf (Elt Ideal) ((c : Thread nD τ).loc b)) (c : Dev nD) (t : Fin cfg10.N) :
    (dat10 (F := Ideal) V c).flushed 2 t = ((cfg10.win 2).blk t).view.read (Elt Ideal)
      (Cert.Gcn.mm (V c (Pipeline.arrRef spec10 0) : S10000x512.Idx → EReal) (V c (Pipeline.arrRef spec10 1) : S512x512.Idx → EReal)) := by
  show (cfg10.win 2).cut (grid10.coords t) ((dat10 (F := Ideal) V c).after 2 t) = _
  rw [after10_2]
  unfold out10_2
  rw [View.canon_unit_zero zeroOffsets]
  simp only [View.ld_unit_zero (S := S400x512) zeroOffsets, View.ld_unit_zero (S := S512x512) zeroOffsets]
  obtain ⟨e0, e1, e2, e3, e4, e5⟩ := blockIdx2 t
  funext j
  obtain ⟨p, q, rfl⟩ : ∃ (p : Fin 400) (q : Fin 512), j = ix2 p q := ⟨j 0, j 1, eq_ix2 j⟩
  show k10_pay1 (iblk10 V c 0 t) (iblk10 V c 1 t) (ix2 p q)
    = Cert.Gcn.mm (V c (Pipeline.arrRef spec10 0) : S10000x512.Idx → EReal) (V c (Pipeline.arrRef spec10 1) : S512x512.Idx → EReal)
        (((cfg10.win 2).blk t).view.emb (ix2 p q))
  refine pay2_eq_mm _ _ _ _ _ p q (fun k => ?_) (fun k => ?_)
  · -- the left block's row p is row 400 t + p of the left array
    show V c (Pipeline.arrRef spec10 0) (((cfg10.win 0).blk t).view.emb (ix2 p k)) = V c (Pipeline.arrRef spec10 0) _
    refine congrArg _ (funext fun a => Fin.ext ?_)
    match a with
    | ⟨0, _⟩ => show win10_0.index t (0 : Fin 2) * 400 + 1 * p.val = win10_2.index t (0 : Fin 2) * 400 + 1 * p.val; omega
    | ⟨1, _⟩ => show win10_0.index t (1 : Fin 2) * 512 + 1 * k.val = k.val; omega
  · -- the right block is the whole right array
    show V c (Pipeline.arrRef spec10 1) (((cfg10.win 1).blk t).view.emb (ix2 k q)) = V c (Pipeline.arrRef spec10 1) _
    refine congrArg _ (funext fun a => Fin.ext ?_)
    match a with
    | ⟨0, _⟩ => show win10_1.index t (0 : Fin 2) * 512 + 1 * k.val = k.val; omega
    | ⟨1, _⟩ => show win10_1.index t (1 : Fin 2) * 512 + 1 * q.val = win10_2.index t (1 : Fin 2) * 512 + 1 * q.val; omega

/-- An index of the output array is in point t's block iff each coordinate is in the block's range on its axis. -/
private theorem mem_blk2 (t : Fin cfg10.N) (i : S10000x512.Idx) :
    i ∈ ((cfg10.win 2).blk t).view.set ↔ ∀ a : Fin 2, win10_2.index t a * S400x512.size a ≤ (i a).val ∧ (i a).val < win10_2.index t a * S400x512.size a + S400x512.size a := by
  show i ∈ ((View.whole (Pipeline.arrRef spec10 2)).slice (win10_2.rect t)).set ↔ _
  rw [View.set_slice_whole, Rect.mem_set_unit]
  exact Iff.rfl

/-- Row r of the output array is in the block of grid point r / 400: the 25 blocks tile the 10000 rows. -/
private theorem cover2 (i : S10000x512.Idx) :
    ∃ t : Fin cfg10.N, (cfg10.win 2).flush t = true ∧ i ∈ ((cfg10.win 2).blk t).view.set := by
  have hi0 : (i 0).val < 10000 := (i 0).isLt
  have hi1 : (i 1).val < 512 := (i 1).isLt
  have hN : cfg10.N = 25 := N_10
  have hd : (i 0).val / 400 < cfg10.N := by omega
  obtain ⟨e0, e1, e2, e3, e4, e5⟩ := blockIdx2 ⟨(i 0).val / 400, hd⟩
  refine ⟨⟨(i 0).val / 400, hd⟩, flush10_2 _, ?_⟩
  rw [mem_blk2]
  intro a
  match a with
  | ⟨0, _⟩ =>
    show win10_2.index ⟨(i 0).val / 400, hd⟩ (0 : Fin 2) * 400 ≤ (i 0).val ∧ (i 0).val < win10_2.index ⟨(i 0).val / 400, hd⟩ (0 : Fin 2) * 400 + 400
    rw [e4]; show (i 0).val / 400 * 400 ≤ (i 0).val ∧ (i 0).val < (i 0).val / 400 * 400 + 400; omega
  | ⟨1, _⟩ =>
    show win10_2.index ⟨(i 0).val / 400, hd⟩ (1 : Fin 2) * 512 ≤ (i 1).val ∧ (i 1).val < win10_2.index ⟨(i 0).val / 400, hd⟩ (1 : Fin 2) * 512 + 512
    rw [e5]; omega

/-! ## The region's value -/

/-- The output array after the region is the matrix product of the two input arrays as the region finds them. -/
theorem arr10 (V : (c : Dev nD) → (b : Ref sig .tc) → Buf (Elt Ideal) ((c : Thread nD τ).loc b)) (c : Dev nD) :
    ((dat10 (F := Ideal) V c).arrAt 2 cfg10.N : S10000x512.Idx → EReal)
      = Cert.Gcn.mm (V c (Pipeline.arrRef spec10 0) : S10000x512.Idx → EReal) (V c (Pipeline.arrRef spec10 1) : S512x512.Idx → EReal) :=
  (dat10 (F := Ideal) V c).arrAt_eq_of_cover 2 _ (fun t _ => flushed2_eq V c t) cover2

end Cert.KernelIdeal.Hand

end
-- ==== Proof.KRegion11.lean ====
/-
  The value of an aggregation region of the kernel program: whatever the buffers hold when the region is entered,
  the output array after the last grid point is max (A * H + b, 0), entry by entry, A being read in blocks of
  400 rows and H and the bias row whole.
-/
import proofs.«147721_j75531294868021_1_alg».proof.Proof.Gen.KernelIdeal.Frame
import proofs.«147721_j75531294868021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The body's payload at an index -/

/-- The left operand's index of the product at output (i, ·) and contraction index q has row i's row … -/
private theorem lhs_agg_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
/-- … and the contraction coordinate as its column; -/
private theorem lhs_agg_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
/-- the right operand's has the contraction coordinate as its row … -/
private theorem rhs_agg_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
/-- … and the output's column. -/
private theorem rhs_agg_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The block product into the zero accumulator, read at (p, q): the sum over the 10000 columns of the row block. -/
private theorem agg_matmul_apply (x0 : FVec Ideal S400x10000 .bf16) (x1 : FVec Ideal S10000x512 .bf16) (p : Fin 400) (q : Fin 512) :
    matmul dot_S400x10000_S10000x512_S400x512_1_0_0_1_n_n none x0 x1 (constant (F := Ideal) S400x512 .f32 0x00000000#32) (ix2 p q)
      = ∑ s : Fin 10000, x0 (ix2 p s) * x1 (ix2 s q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The bias row broadcast down the 400 rows, read at (p, q): the row's entry in column q. -/
private theorem agg_bias_apply (x2 : FVec Ideal S1x512 .f32) (p : Fin 400) (q : Fin 512) :
    broadcastTo S400x512 x2 broadcasts_S1x512_S400x512 (ix2 p q) = x2 (ix2 0 q) := by
  refine broadcastTo_apply x2 broadcasts_S1x512_S400x512 (ix2 p q) (ix2 0 q) fun a => ?_
  match a with
  | ⟨0, _⟩ => rfl
  | ⟨1, _⟩ => rfl

/-- THE PAYLOAD AT AN INDEX: max (sum over s of x0(p, s) * x1(s, q) + x2(0, q), 0). -/
private theorem agg_pay_apply (x0 : Vec Ideal S400x10000 .bf16) (x1 : Vec Ideal S10000x512 .bf16) (x2 : Vec Ideal S1x512 .f32)
    (p : Fin 400) (q : Fin 512) :
    k11_pay1 x0 x1 x2 (ix2 p q) = max ((∑ s : Fin 10000, x0 (ix2 p s) * x1 (ix2 s q)) + x2 (ix2 0 q)) 0 := by
  unfold k11_pay1
  simp only [shapeCast_self]
  rw [truncf_apply, maximumf_apply, addf_apply, broadcast_apply, agg_matmul_apply, agg_bias_apply]
  show max _ (Ideal.ofBits .f32 0x00000000#32) = _
  rw [Ideal.ofBits_zero_f32]

/-- The payload at a block index against the aggregation read at an array index: when the first operand's row p is the
    array A's row r, and the other two operands are H and the bias row, entry (p, q) of the payload is entry (r, q) of
    max (A * H + b, 0). The hypotheses are on coordinates, so that they can be given at a block's own index types. -/
private theorem agg_point (A : S10000x10000.Idx → EReal) (H : S10000x512.Idx → EReal) (B : S1x512.Idx → EReal)
    (x0 : Vec Ideal S400x10000 .bf16) (x1 : Vec Ideal S10000x512 .bf16) (x2 : Vec Ideal S1x512 .f32)
    (y : S400x512.Idx) (i : S10000x512.Idx)
    (h0 : ∀ (a : S400x10000.Idx) (k : S10000x10000.Idx), (a 0).val = (y 0).val → (k 0).val = (i 0).val → (k 1).val = (a 1).val → x0 a = A k)
    (h1 : x1 = H) (h2 : x2 = B) (hi : (i 1).val = (y 1).val) :
    k11_pay1 x0 x1 x2 y = Cert.Gcn.aggRelu A H (fun j => B (ix2 0 j)) i := by
  obtain ⟨p, q, rfl⟩ : ∃ (p : Fin 400) (q : Fin 512), y = ix2 p q := ⟨y 0, y 1, eq_ix2 y⟩
  obtain ⟨r, q', rfl⟩ : ∃ (r : Fin 10000) (q' : Fin 512), i = ix2 r q' := ⟨i 0, i 1, eq_ix2 i⟩
  obtain rfl : q' = q := Fin.ext hi
  subst h1 h2
  rw [agg_pay_apply]
  unfold Cert.Gcn.aggRelu Cert.Gcn.mm
  show max ((∑ s : Fin 10000, x0 (ix2 p s) * x1 (ix2 s q')) + x2 (ix2 0 q')) 0
    = max ((∑ s : Fin 10000, A (ix2 r s) * x1 (ix2 s q')) + x2 (ix2 0 q')) 0
  rw [Finset.sum_congr rfl fun s _ => by rw [h0 (ix2 p s) (ix2 r s) rfl rfl rfl]]

/-! ## From blocks to the array -/

private theorem zero_offsets : (![0, 0] : Fin 2 → Nat) = fun _ => 0 := funext fun a => by fin_cases a <;> rfl

/-- The printed index maps, decided over the 25 grid points: the blocks of A and of the output are block row t, all
    columns; H and the bias row are their one whole block at every point. -/
private theorem agg_index : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

section
variable (V : (c : Dev nD) → (b : Ref sig .tc) → Buf (Elt Ideal) ((c : Thread nD τ).loc b)) (c : Dev nD)

/-- Block t of A is rows 400 t … 400 t + 399 of A, all its columns. -/
private theorem blockA_apply (t : Fin cfg11.N) (x : S400x10000.Idx) (k : S10000x10000.Idx)
    (hk0 : (k 0).val = 400 * t.val + (x 0).val) (hk1 : (k 1).val = (x 1).val) :
    (iblk11 (F := Ideal) V c 0 t : Vec Ideal S400x10000 .bf16) x = (V c (Pipeline.arrRef spec11 0) : S10000x10000.Idx → EReal) k := by
  obtain ⟨e0, e1, -⟩ := agg_index t
  unfold iblk11
  rw [View.read_apply]
  show (V c (Pipeline.arrRef spec11 0) : S10000x10000.Idx → EReal) (((cfg11.win 0).blk t).view.emb x) = _
  refine congrArg _ (funext fun a => Fin.ext ?_)
  match a with
  | ⟨0, _⟩ => show win11_0.index t (0 : Fin 2) * 400 + 1 * (x 0).val = (k 0).val; omega
  | ⟨1, _⟩ => show win11_0.index t (1 : Fin 2) * 10000 + 1 * (x 1).val = (k 1).val; omega

/-- The one block of H is H. -/
private theorem blockH_eq (t : Fin cfg11.N) :
    (iblk11 (F := Ideal) V c 1 t : Vec Ideal S10000x512 .bf16) = (V c (Pipeline.arrRef spec11 1) : S10000x512.Idx → EReal) := by
  obtain ⟨-, -, e2, e3, -⟩ := agg_index t
  funext x
  unfold iblk11
  rw [View.read_apply]
  show (V c (Pipeline.arrRef spec11 1) : S10000x512.Idx → EReal) (((cfg11.win 1).blk t).view.emb x) = _
  refine congrArg _ (funext fun a => Fin.ext ?_)
  match a with
  | ⟨0, _⟩ => show win11_1.index t (0 : Fin 2) * 10000 + 1 * (x 0).val = (x 0).val; omega
  | ⟨1, _⟩ => show win11_1.index t (1 : Fin 2) * 512 + 1 * (x 1).val = (x 1).val; omega

/-- The one block of the bias row is the bias row. -/
private theorem blockB_eq (t : Fin cfg11.N) :
    (iblk11 (F := Ideal) V c 2 t : Vec Ideal S1x512 .f32) = (V c (Pipeline.arrRef spec11 2) : S1x512.Idx → EReal) := by
  obtain ⟨-, -, -, -, e4, e5, -⟩ := agg_index t
  funext x
  unfold iblk11
  rw [View.read_apply]
  show (V c (Pipeline.arrRef spec11 2) : S1x512.Idx → EReal) (((cfg11.win 2).blk t).view.emb x) = _
  refine congrArg _ (funext fun a => Fin.ext ?_)
  match a with
  | ⟨0, _⟩ => show win11_2.index t (0 : Fin 2) * 1 + 1 * (x 0).val = (x 0).val; omega
  | ⟨1, _⟩ => show win11_2.index t (1 : Fin 2) * 512 + 1 * (x 1).val = (x 1).val; omega

/-- The aggregation of the arrays the region finds: max (A * H + b, 0). -/
private abbrev aggOf : S10000x512.Idx → EReal :=
  Cert.Gcn.aggRelu (V c (Pipeline.arrRef spec11 0) : S10000x10000.Idx → EReal)
    (V c (Pipeline.arrRef spec11 1) : S10000x512.Idx → EReal)
    (fun j => (V c (Pipeline.arrRef spec11 2) : S1x512.Idx → EReal) (ValueIdx.ix2 0 j))

/-- WHAT POINT t WRITES BACK is block t of the aggregation: rows 400 t … 400 t + 399. -/
private theorem agg_flushed (t : Fin cfg11.N) :
    (dat11 (F := Ideal) V c).flushed 3 t = ((cfg11.win 3).blk t).view.read (Elt Ideal) (aggOf V c) := by
  show (cfg11.win 3).cut (grid11.coords t) ((dat11 (F := Ideal) V c).after 3 t) = _
  rw [after11_3]
  unfold out11_3
  rw [View.canon_unit_zero zero_offsets]
  simp only [View.ld_unit_zero (S := S400x10000) zero_offsets, View.ld_unit_zero (S := S10000x512) zero_offsets,
    View.ld_unit_zero (S := S1x512) zero_offsets]
  obtain ⟨-, -, -, -, -, -, e6, e7⟩ := agg_index t
  funext j
  rw [View.read_apply]
  show k11_pay1 (iblk11 (F := Ideal) V c 0 t) (iblk11 (F := Ideal) V c 1 t) (iblk11 (F := Ideal) V c 2 t) j
    = aggOf V c (((cfg11.win 3).blk t).view.emb j)
  have hr : ((((cfg11.win 3).blk t).view.emb j) 0).val = win11_3.index t (0 : Fin 2) * 400 + 1 * (j 0).val := rfl
  have hq : ((((cfg11.win 3).blk t).view.emb j) 1).val = win11_3.index t (1 : Fin 2) * 512 + 1 * (j 1).val := rfl
  refine agg_point _ _ _ _ _ _ j _ (fun a k ha hk0 hk1 => blockA_apply V c t a k ?_ hk1) (blockH_eq V c t) (blockB_eq V c t) ?_
  · rw [hk0, hr, ha, e6]; omega
  · rw [hq, e7]; omega

/-- An index of the array is in point t's block iff each coordinate is in the block's range on its axis. -/
private theorem mem_block (t : Fin cfg11.N) (i : S10000x512.Idx) :
    i ∈ ((cfg11.win 3).blk t).view.set ↔ ∀ a : Fin 2, win11_3.index t a * S400x512.size a ≤ (i a).val ∧ (i a).val < win11_3.index t a * S400x512.size a + S400x512.size a := by
  show i ∈ ((View.whole (Pipeline.arrRef spec11 3)).slice (win11_3.rect t)).set ↔ _
  rw [View.set_slice_whole, Rect.mem_set_unit]
  exact Iff.rfl

/-- THE COVER: row r of the array is in the block of point r / 400. -/
private theorem agg_cover (i : S10000x512.Idx) :
    ∃ t : Fin cfg11.N, (cfg11.win 3).flush t = true ∧ i ∈ ((cfg11.win 3).blk t).view.set := by
  have hi0 : (i 0).val < 10000 := (i 0).isLt
  have hi1 : (i 1).val < 512 := (i 1).isLt
  have hN : cfg11.N = 25 := N_11
  refine ⟨⟨(i 0).val / 400, by rw [hN]; omega⟩, flush11_3 _, ?_⟩
  obtain ⟨-, -, -, -, -, -, e6, e7⟩ := agg_index ⟨(i 0).val / 400, by rw [hN]; omega⟩
  rw [mem_block]
  intro a
  match a with
  | ⟨0, _⟩ =>
    show win11_3.index _ (0 : Fin 2) * 400 ≤ (i 0).val ∧ (i 0).val < win11_3.index _ (0 : Fin 2) * 400 + 400
    rw [e6]; show (i 0).val / 400 * 400 ≤ (i 0).val ∧ (i 0).val < (i 0).val / 400 * 400 + 400; omega
  | ⟨1, _⟩ =>
    show win11_3.index _ (1 : Fin 2) * 512 ≤ (i 1).val ∧ (i 1).val < win11_3.index _ (1 : Fin 2) * 512 + 512
    rw [e7]; omega

end

/-- THE ARRAY after the region's last point: max (A * H + b, 0) of the arrays the region found. -/
theorem arr11 (V : (c : Dev nD) → (b : Ref sig .tc) → Buf (Elt Ideal) ((c : Thread nD τ).loc b)) (c : Dev nD) :
    ((dat11 (F := Ideal) V c).arrAt 3 cfg11.N : S10000x512.Idx → EReal)
      = Cert.Gcn.aggRelu (V c (Pipeline.arrRef spec11 0) : S10000x10000.Idx → EReal)
          (V c (Pipeline.arrRef spec11 1) : S10000x512.Idx → EReal)
          (fun j => (V c (Pipeline.arrRef spec11 2) : S1x512.Idx → EReal) (ValueIdx.ix2 0 j)) :=
  (dat11 (F := Ideal) V c).arrAt_eq_of_cover 3 (aggOf V c) (fun t _ => agg_flushed V c t) (agg_cover)

end Cert.KernelIdeal.Hand
-- ==== Proof.KLayer5.lean ====
import proofs.«147721_j75531294868021_1_alg».proof.Proof.Gen.KernelIdeal.Frame
import proofs.«147721_j75531294868021_1_alg».proof.Proof.Spec
import proofs.«147721_j75531294868021_1_alg».proof.Proof.KRegion10
import proofs.«147721_j75531294868021_1_alg».proof.Proof.KRegion11
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! # The last layer of the kernel program, and the conversion of its result

The last layer is two host stretches and two kernel regions. The first stretch converts the layer's weight matrix to
the narrower float type (the identity on extended reals); the first region multiplies the incoming features by it; the
second stretch views the bias vector as one row; the second region multiplies the adjacency matrix by that product, adds
the bias and clamps below at zero. Read index by index this is the specification's `layerK`. A last host operation
converts the result back to the wider float type, again the identity on extended reals. -/

/-! ## The bias viewed as a row, read at an index -/

/-- A vector of 512 entries viewed as one row: entry (0, j) of the row is entry j of the vector. -/
private theorem row_of_vector_read_last {α : Type} (v : S512.Idx → α) (j : Fin 512) :
    shapeCast S1x512 v shapeCasts_S512_S1x512 (ix2 (0 : Fin 1) j) = v (ix1 j) := by
  refine shapeCast_apply _ _ (ix2 (0 : Fin 1) j) (ix1 j) ?_
  rw [Shape.rowMajor_val_two, Shape.rowMajor_val_one]
  show j.val = 0 * 512 + j.val
  omega

/-! ## Buffers the layer's pieces leave alone -/

/-- A host stretch leaves a buffer none of its operations writes: each operation's written set is its one result, and
    the buffer in question is a different reference. -/
local macro "host_untouched_last" : tactic =>
  `(tactic| (refine StableHlo.after_of_forall_not_mem _ _ (List.forall_iff_forall_mem.mp ?_)
             simp only [hostOps10, hostOps11, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first host stretch writes only the converted weight matrix. -/
private theorem keep_first_stretch_last (c : Dev nD) (b : Ref sig .tc) (hb : b = main_v47 ∨ b = main_v84 ∨ b = main_arg6 ∨ b = main_arg7) :
    W23 m ρ c (Proc.devRef .tc b) = W22 m ρ c (Proc.devRef .tc b) := by
  rcases hb with rfl | rfl | rfl | rfl <;> host_untouched_last

/-- The product region writes only its own three arrays. -/
private theorem keep_product_region_last (c : Dev nD) (b : Ref sig .tc) (hb : b = main_v47 ∨ b = main_arg7) :
    W24 m ρ c (Proc.devRef .tc b) = W23 m ρ c (Proc.devRef .tc b) := by
  rcases hb with rfl | rfl <;> exact W24_of_ne m ρ c _ (by decide)

/-- The second host stretch writes only the bias row. -/
private theorem keep_second_stretch_last (c : Dev nD) (b : Ref sig .tc) (hb : b = main_v47 ∨ b = main_v86) :
    W25 m ρ c (Proc.devRef .tc b) = W24 m ρ c (Proc.devRef .tc b) := by
  rcases hb with rfl | rfl <;> host_untouched_last

/-! ## What the host stretches write, read back -/

/-- The product region's weight window holds the last layer's weight matrix. -/
private theorem weight_window_last (c : Dev nD) :
    (W23 m ρ c (Proc.devRef .tc main_v85) : S512x512.Idx → EReal) = (W22 m ρ c (Proc.devRef .tc main_arg6) : S512x512.Idx → EReal) := by
  show StableHlo.after hostOps10 (W22 m ρ c) (Proc.devRef .tc main_v85) = _
  after_results
  funext i
  exact truncf_apply _ _ i

/-- The aggregation region's bias window, one row, at (0, j) is the bias argument at j as the region before it left it. -/
private theorem bias_window_last (c : Dev nD) (j : Fin 512) :
    (W25 m ρ c (Proc.devRef .tc main_v87) : S1x512.Idx → EReal) (ix2 (0 : Fin 1) j)
      = (W24 m ρ c (Proc.devRef .tc main_arg7) : S512.Idx → EReal) (ix1 j) := by
  show StableHlo.after hostOps11 (W24 m ρ c) (Proc.devRef .tc main_v87) (ix2 (0 : Fin 1) j) = _
  after_results
  exact row_of_vector_read_last _ j

/-! ## The layer -/

/-- The aggregation region's second window holds the product of the incoming features and the weight matrix. -/
private theorem product_window_last (c : Dev nD) :
    (W25 m ρ c (Proc.devRef .tc main_v86) : S10000x512.Idx → EReal)
      = Cert.Gcn.mm (W22 m ρ c (Proc.devRef .tc main_v84) : S10000x512.Idx → EReal)
          (W22 m ρ c (Proc.devRef .tc main_arg6) : S512x512.Idx → EReal) := by
  refine (keep_second_stretch_last m ρ c main_v86 (by decide)).trans ?_
  refine (W24_arr m ρ c 2).trans ?_
  refine (arr10 (V23 m ρ) c).trans ?_
  exact congrArg₂ Cert.Gcn.mm (keep_first_stretch_last m ρ c main_v84 (by decide)) (weight_window_last m ρ c)

/-- The layer's exit contents of its result array are the specification's layer of its entry contents. -/
theorem step5 (c : Dev nD) :
    (W26 m ρ c (Proc.devRef .tc main_v88) : S10000x512.Idx → EReal)
      = Cert.Gcn.layerK (W22 m ρ c (Proc.devRef .tc main_v47) : S10000x10000.Idx → EReal)
          (W22 m ρ c (Proc.devRef .tc main_v84) : S10000x512.Idx → EReal)
          (W22 m ρ c (Proc.devRef .tc main_arg6) : S512x512.Idx → EReal)
          (Cert.Gcn.vec1 (W22 m ρ c (Proc.devRef .tc main_arg7) : S512.Idx → EReal)) := by
  have hA : (W25 m ρ c (Proc.devRef .tc main_v47) : S10000x10000.Idx → EReal) = W22 m ρ c (Proc.devRef .tc main_v47) :=
    (keep_second_stretch_last m ρ c main_v47 (by decide)).trans
      ((keep_product_region_last m ρ c main_v47 (by decide)).trans (keep_first_stretch_last m ρ c main_v47 (by decide)))
  have h7 : (W24 m ρ c (Proc.devRef .tc main_arg7) : S512.Idx → EReal) = W22 m ρ c (Proc.devRef .tc main_arg7) :=
    (keep_product_region_last m ρ c main_arg7 (by decide)).trans (keep_first_stretch_last m ρ c main_arg7 (by decide))
  have hb : (fun j : Fin 512 => (W25 m ρ c (Proc.devRef .tc main_v87) : S1x512.Idx → EReal) (ix2 (0 : Fin 1) j))
      = Cert.Gcn.vec1 (W22 m ρ c (Proc.devRef .tc main_arg7) : S512.Idx → EReal) := by
    funext j
    refine (bias_window_last m ρ c j).trans ?_
    exact congrFun h7 (ix1 j)
  refine (W26_arr m ρ c 3).trans ?_
  refine (arr11 (V25 m ρ) c).trans ?_
  show Cert.Gcn.aggRelu (W25 m ρ c (Proc.devRef .tc main_v47) : S10000x10000.Idx → EReal)
      (W25 m ρ c (Proc.devRef .tc main_v86) : S10000x512.Idx → EReal)
      (fun j : Fin 512 => (W25 m ρ c (Proc.devRef .tc main_v87) : S1x512.Idx → EReal) (ix2 (0 : Fin 1) j)) = _
  rw [hA, product_window_last m ρ c, hb]
  rfl

/-- The program's result is the last layer's, converted to the wider float type: entry by entry the same extended real. -/
theorem final (c : Dev nD) :
    (W27 m ρ c (Proc.devRef .tc main_v89) : S10000x512.Idx → EReal)
      = (W26 m ρ c (Proc.devRef .tc main_v88) : S10000x512.Idx → EReal) := by
  show StableHlo.after hostOps12 (W26 m ρ c) (Proc.devRef .tc main_v89) = _
  after_results
  funext i
  exact extf_apply _ _ i

end Cert.KernelIdeal.Hand

end
-- ==== Proof.KernelValue.lean ====
/-
  The kernel's result as one function of its arguments: the last buffer is, layer by layer from the outside in,
  relu(A (X W) + b) six times over, with A the dense matrix built from the edge list before the first layer and
  carried unchanged past every later host operation and region, and the weights and biases the argument arrays,
  which nothing writes.
-/
import proofs.«147721_j75531294868021_1_alg».proof.Proof.Gen.KernelIdeal.Frame
import proofs.«147721_j75531294868021_1_alg».proof.Proof.RefRead
import proofs.«147721_j75531294868021_1_alg».proof.Proof.Spec
import proofs.«147721_j75531294868021_1_alg».proof.Proof.Head
import proofs.«147721_j75531294868021_1_alg».proof.Proof.KAdj
import proofs.«147721_j75531294868021_1_alg».proof.Proof.KLayer0
import proofs.«147721_j75531294868021_1_alg».proof.Proof.KLayer1
import proofs.«147721_j75531294868021_1_alg».proof.Proof.KLayer2
import proofs.«147721_j75531294868021_1_alg».proof.Proof.KLayer3
import proofs.«147721_j75531294868021_1_alg».proof.Proof.KLayer4
import proofs.«147721_j75531294868021_1_alg».proof.Proof.KLayer5

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer at the last boundary is the six dense layers of the arguments, the matrix being the adjacency
    matrix of the (in-range) edge list with the edge weights the reference computes. -/
theorem kernel_value (c : Dev nD)
    (hr : ∀ i, 0 ≤ ((m ((c : Thread nD τ).loc main_arg1) : S2x160000.Idx → BitVec 32) i).toInt
      ∧ ((m ((c : Thread nD τ).loc main_arg1) : S2x160000.Idx → BitVec 32) i).toInt < 10000) :
    (W27 m ρ c (Proc.devRef .tc main_v89) : S10000x512.Idx → EReal)
      = Cert.Gcn.gcnK
          (Cert.Gcn.adj (Cert.Head.dstN (m ((c : Thread nD τ).loc main_arg1))) (Cert.Head.srcN (m ((c : Thread nD τ).loc main_arg1)))
            (Cert.ReferenceIdeal.Read.val_main_v31 (F := Ideal) (m ((c : Thread nD τ).loc main_arg1))))
          (m ((c : Thread nD τ).loc main_arg0) : S10000x128.Idx → EReal)
          (m ((c : Thread nD τ).loc main_arg2) : S128x512.Idx → EReal)
          (m ((c : Thread nD τ).loc main_arg3) : S512.Idx → EReal)
          (m ((c : Thread nD τ).loc main_arg4) : S4x512x512.Idx → EReal)
          (m ((c : Thread nD τ).loc main_arg5) : S4x512.Idx → EReal)
          (m ((c : Thread nD τ).loc main_arg6) : S512x512.Idx → EReal)
          (m ((c : Thread nD τ).loc main_arg7) : S512.Idx → EReal) := by
  -- the adjacency matrix at every layer's entry is the one built before the first layer
  have hA3 := adj3 m ρ c hr
  have hA6 := keep0 m ρ c
  have hA10 := keep1 m ρ c main_v47 (Or.inl rfl)
  have hA14 := keep2 m ρ c main_v47 (Or.inl rfl)
  have hA18 := keep3 m ρ c main_v47 (Or.inl rfl)
  have hA22 := keep4 m ρ c main_v47 (Or.inl rfl)
  -- the stacked weights and biases at every layer's entry are the arguments
  have w6 := args6 m ρ c main_arg4 (Or.inl rfl)
  have w10 := keep1 m ρ c main_arg4 (Or.inr (Or.inl rfl))
  have w14 := keep2 m ρ c main_arg4 (Or.inr (Or.inl rfl))
  have w18 := keep3 m ρ c main_arg4 (Or.inr (Or.inl rfl))
  have b6 := args6 m ρ c main_arg5 (Or.inr (Or.inl rfl))
  have b10 := keep1 m ρ c main_arg5 (Or.inr (Or.inr (Or.inl rfl)))
  have b14 := keep2 m ρ c main_arg5 (Or.inr (Or.inr (Or.inl rfl)))
  have b18 := keep3 m ρ c main_arg5 (Or.inr (Or.inr (Or.inl rfl)))
  -- the last layer's weight and bias
  have l6 := args6 m ρ c main_arg6 (Or.inr (Or.inr (Or.inl rfl)))
  have l10 := keep1 m ρ c main_arg6 (Or.inr (Or.inr (Or.inr (Or.inl rfl))))
  have l14 := keep2 m ρ c main_arg6 (Or.inr (Or.inr (Or.inr (Or.inl rfl))))
  have l18 := keep3 m ρ c main_arg6 (Or.inr (Or.inr (Or.inr (Or.inl rfl))))
  have l22 := keep4 m ρ c main_arg6 (Or.inr (Or.inr (Or.inr (Or.inl rfl))))
  have c6 := args6 m ρ c main_arg7 (Or.inr (Or.inr (Or.inr rfl)))
  have c10 := keep1 m ρ c main_arg7 (Or.inr (Or.inr (Or.inr (Or.inr rfl))))
  have c14 := keep2 m ρ c main_arg7 (Or.inr (Or.inr (Or.inr (Or.inr rfl))))
  have c18 := keep3 m ρ c main_arg7 (Or.inr (Or.inr (Or.inr (Or.inr rfl))))
  have c22 := keep4 m ρ c main_arg7 (Or.inr (Or.inr (Or.inr (Or.inr rfl))))
  unfold Cert.Gcn.gcnK
  rw [final m ρ c, step5 m ρ c, step4 m ρ c, step3 m ρ c, step2 m ρ c, step1 m ρ c, step0 m ρ c]
  rw [hA22, hA18, hA14, hA10, hA6, hA3, w18, w14, w10, w6, b18, b14, b10, b6, l22, l18, l14, l10, l6, c22, c18, c14, c10, c6]

end Cert.KernelIdeal.Hand

end
-- ==== Proof.lean ====
/-
  A six-layer graph convolution, kernel against reference, over the extended reals.
  Each layer is relu(Agg(X W) + b), where Agg sums, into row d, w(e) times row src(e) over the edges e with
  dst(e) = d, the edge weight w(e) being the product of the inverse square roots of the two end degrees.
  The kernel aggregates through the dense n x n matrix A(d, s) = sum of w(e) over the edges from s to d and one
  matrix product per layer; the reference aggregates edge by edge. For real features and real edge weights the two
  are the same number, by distributivity of the product over the finite sum of edge weights (Algebra.lean); the
  inputs are real by the precondition, the edge weights are real whatever the degrees are, and every layer
  keeps its features real. The precondition also keeps every word of the edge list inside [0, 10000): there the
  negative-index wrap and the clamp in front of each gather and scatter are the identity and no update is dropped.
  The three frames are the generated frame certificates (the reference's is its run with the result dropped);
  the idealization rewrote nothing.
-/
import proofs.«147721_j75531294868021_1_alg».proof.Defs
import proofs.«147721_j75531294868021_1_alg».proof.Proof.Gen.Kernel
import proofs.«147721_j75531294868021_1_alg».proof.Proof.Gen.Kernel.Frame
import proofs.«147721_j75531294868021_1_alg».proof.Proof.Gen.KernelIdeal
import proofs.«147721_j75531294868021_1_alg».proof.Proof.Gen.KernelIdeal.Frame
import proofs.«147721_j75531294868021_1_alg».proof.Proof.Gen.ReferenceIdeal
import proofs.«147721_j75531294868021_1_alg».proof.Proof.Gen.Pre_finite_inputs
import proofs.«147721_j75531294868021_1_alg».proof.Proof.RefRun
import proofs.«147721_j75531294868021_1_alg».proof.Proof.RefRead
import proofs.«147721_j75531294868021_1_alg».proof.Proof.Spec
import proofs.«147721_j75531294868021_1_alg».proof.Proof.Algebra
import proofs.«147721_j75531294868021_1_alg».proof.Proof.PreFacts
import proofs.«147721_j75531294868021_1_alg».proof.Proof.Head
import proofs.«147721_j75531294868021_1_alg».proof.Proof.RefValue
import proofs.«147721_j75531294868021_1_alg».proof.Proof.KernelRun
import proofs.«147721_j75531294868021_1_alg».proof.Proof.KernelValue
import Idealize.ShloMosaic.Adequacy
import Idealize.ShloMosaic.Init

noncomputable section

namespace Cert.Proof

open Idealize.ShloMosaic Idealize.SL.Sem

/-- Both programs end at the six layers read edge by edge, of the kernel's own arguments: the kernel by its run with
    the result named, its layers through the dense matrix turned into the edge-by-edge form by the real-number law; the
    reference by its run read operation by operation, its arguments rewritten to the kernel's by their agreement. -/
theorem algebraic : Cert.algebraic_KernelIdeal_ReferenceIdeal := by
  intro m ρ m' ρ' hpre hagree
  have hdec := fun c : Dev Cert.KernelIdeal.nD => Cert.PreFacts.decode _ _ _ _ _ _ _ _ (hpre c)
  refine ⟨fun c => Cert.Gcn.gcnR
      (Cert.Head.dstN (m ((c.tc : Thread Cert.KernelIdeal.nD Cert.KernelIdeal.τ).loc Cert.KernelIdeal.main_arg1)))
      (Cert.Head.srcN (m ((c.tc : Thread Cert.KernelIdeal.nD Cert.KernelIdeal.τ).loc Cert.KernelIdeal.main_arg1)))
      (Cert.ReferenceIdeal.Read.val_main_v31 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Gen.run_value (F := Ideal) m ρ)
    obtain ⟨h0, h2, h3, h4, h5, h6, h7, hr⟩ := hdec c
    refine (Cert.KernelIdeal.Hand.kernel_value m ρ c hr).trans ?_
    exact Cert.Gcn.gcnK_eq_gcnR _ _ (Cert.Head.norm_isReal _) h0 h2 h3 h4 h5 h6 h7
  · refine (θ_run Cert.ReferenceIdeal.defs _ _).mono (fun r h c => ⟨(h c).1.trans ?_, (h c).2⟩)
      (Cert.ReferenceIdeal.Value.run (F := Ideal) m' ρ')
    obtain ⟨-, -, -, -, -, -, -, hr⟩ := hdec c
    rw [Cert.ReferenceIdeal.Read.val_main_v155_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.RefValue.ref_value _ _ _ _ _ _ _ _ hr

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
